-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S_ : Shape := ⟨0, ![]⟩

class Facts : Prop where
  bcast_S_S65536x16x128 : S_.BroadcastsInDim S65536x16x128 (![] : Fin 0 → Fin S65536x16x128.rank)
  reducesTo_S65536x16x128_S_d0_1_2 : S65536x16x128.ReducesTo [0, 1, 2] S_
  h_S_ : 0 < S_.numel
  bcast_S_S120x128 : S_.BroadcastsInDim S120x128 (![] : Fin 0 → Fin S120x128.rank)
  reducesTo_S120x128_S_d0_1 : S120x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x16x128 .f32) (main_arg1 : FVec F S120x128 .f32) (main_arg2 : FVec F S128 .f32) (main_arg3 : FVec F S128x128 .f32) (main_arg4 : FVec F S128 .f32) : IVec S_ 1 :=
  let main_v0 : FVec F S65536x16x128 .f32 := Host.absf main_arg0
  let main_cst : FVec F S_ .f32 := constant S_ .f32 0x7F800000#32
  let main_v1 : FVec F S65536x16x128 .f32 := broadcastInDim S65536x16x128 ![] bcast_S_S65536x16x128 main_cst
  let main_v2 : IVec S65536x16x128 1 := cmpf .olt main_v0 main_v1
  let main_c : IVec S_ 1 := constantI S_ 1 1#1
  let main_v3 : IVec S_ 1 := (fun x v => Host.reduce IntOp.andi x v reducesTo_S65536x16x128_S_d0_1_2 h_S_) main_v2 main_c
  let main_v4 : FVec F S120x128 .f32 := Host.absf main_arg1
  let main_cst_0 : FVec F S_ .f32 := constant S_ .f32 0x7F800000#32
  let main_v5 : FVec F S120x128 .f32 := broadcastInDim S120x128 ![] bcast_S_S120x128 main_cst_0
  let main_v6 : IVec S120x128 1 := cmpf .olt main_v4 main_v5
  let main_c_1 : IVec S_ 1 := constantI S_ 1 1#1
  let main_v7 : IVec S_ 1 := (fun x v => Host.reduce IntOp.andi x v reducesTo_S120x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S65536x128 : Shape := ⟨2, ![65536, 128]⟩
abbrev S1024x16x128 : Shape := ⟨3, ![1024, 16, 128]⟩
abbrev S1024x128 : Shape := ⟨2, ![1024, 128]⟩
abbrev S1024x16 : Shape := ⟨2, ![1024, 16]⟩
abbrev S1024x16x1 : Shape := ⟨3, ![1024, 16, 1]⟩
abbrev S1024x1x128 : Shape := ⟨3, ![1024, 1, 128]⟩
abbrev S1024 : Shape := ⟨1, ![1024]⟩
abbrev S1024x1 : Shape := ⟨2, ![1024, 1]⟩
abbrev S1024x120 : Shape := ⟨2, ![1024, 120]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S65536x16x128, .f32⟩
  | .hbm, ⟨1, _⟩ => ⟨S120x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S65536x128, .f32⟩
  | .local _ .vmem, ⟨0, _⟩ => ⟨S1024x16x128, .f32⟩
  | .local _ .vmem, ⟨1, _⟩ => ⟨S1024x16x128, .f32⟩
  | .local _ .vmem, ⟨2, _⟩ => ⟨S120x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S1024x128, .f32⟩
  | .local _ .vmem, ⟨7, _⟩ => ⟨S1024x128, .f32⟩
  | _, _ => ⟨S65536x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x16x128_S1024x16x128_0_0_0 : ∀ a, (![0, 0, 0] : Fin 3 → Nat) a + S1024x16x128.size a ≤ S1024x16x128.size a
  h_S1024x16x128 : 0 < S1024x16x128.numel
  reduces_S1024x16x128_S1024x16 : S1024x16x128.Reduces [2] S1024x16
  shapeCasts_S1024x16_S1024x16x1 : S1024x16.ShapeCasts S1024x16x1
  broadcasts_S1024x16x1_S1024x16x128 : S1024x16x1.Broadcasts S1024x16x128
  slices_S1024x16x128_o0_0_0_S1024x1x128 : S1024x16x128.Slices ![0, 0, 0] S1024x1x128
  shapeCasts_S1024x1x128_S1024x128 : S1024x1x128.ShapeCasts S1024x128
  slices_S1024x16x128_o0_1_0_S1024x1x128 : S1024x16x128.Slices ![0, 1, 0] S1024x1x128
  reduces_S1024x128_S1024 : S1024x128.Reduces [1] S1024
  slices_S1024x16x128_o0_2_0_S1024x1x128 : S1024x16x128.Slices ![0, 2, 0] S1024x1x128
  slices_S1024x16x128_o0_3_0_S1024x1x128 : S1024x16x128.Slices ![0, 3, 0] S1024x1x128
  slices_S1024x16x128_o0_4_0_S1024x1x128 : S1024x16x128.Slices ![0, 4, 0] S1024x1x128
  slices_S1024x16x128_o0_5_0_S1024x1x128 : S1024x16x128.Slices ![0, 5, 0] S1024x1x128
  slices_S1024x16x128_o0_6_0_S1024x1x128 : S1024x16x128.Slices ![0, 6, 0] S1024x1x128
  slices_S1024x16x128_o0_7_0_S1024x1x128 : S1024x16x128.Slices ![0, 7, 0] S1024x1x128
  slices_S1024x16x128_o0_8_0_S1024x1x128 : S1024x16x128.Slices ![0, 8, 0] S1024x1x128
  slices_S1024x16x128_o0_9_0_S1024x1x128 : S1024x16x128.Slices ![0, 9, 0] S1024x1x128
  slices_S1024x16x128_o0_10_0_S1024x1x128 : S1024x16x128.Slices ![0, 10, 0] S1024x1x128
  slices_S1024x16x128_o0_11_0_S1024x1x128 : S1024x16x128.Slices ![0, 11, 0] S1024x1x128
  slices_S1024x16x128_o0_12_0_S1024x1x128 : S1024x16x128.Slices ![0, 12, 0] S1024x1x128
  slices_S1024x16x128_o0_13_0_S1024x1x128 : S1024x16x128.Slices ![0, 13, 0] S1024x1x128
  slices_S1024x16x128_o0_14_0_S1024x1x128 : S1024x16x128.Slices ![0, 14, 0] S1024x1x128
  slices_S1024x16x128_o0_15_0_S1024x1x128 : S1024x16x128.Slices ![0, 15, 0] S1024x1x128
  shapeCasts_S1024_S1024x1 : S1024.ShapeCasts S1024x1
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x120_d1 : Shape.Concatenates (S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: []) S1024x120 1
  inb_S120x128_S120x128_0_0 : ∀ a, (![0, 0] : Fin 2 → Nat) a + S120x128.size a ≤ S120x128.size a
  h_S120x128 : 0 < S120x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  dot_S1024x120_S120x128_S1024x128_1_0_0_1_n_n_wf : DotDims.WF S1024x120 S120x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x128.size a ≤ S65536x16x128.size a
  hwx0_0 : ∀ i : grid0.Coords, EltTy.bits .f32 = 32 ∨ (Rect.block (s := S65536x16x128) S1024x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x128.size a ≤ S120x128.size a
  hwx0_1 : ∀ i : grid0.Coords, EltTy.bits .f32 = 32 ∨ (Rect.block (s := S120x128) S120x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .f32 = 32 ∨ (Rect.block (s := S65536x128) S1024x128.size (cc0_transform_5 i) (hinb0_5 i)).WholeWords (EltTy.packing .f32)

variable [Facts₀]

def dot_S1024x120_S120x128_S1024x128_1_0_0_1_n_n : DotDims S1024x120 S120x128 S1024x128 where
  lhsContracting := [1]
  rhsContracting := [0]
  lhsNonContracting := [0]
  rhsNonContracting := [1]
  lhsBatch := []
  rhsBatch := []
  wf := dot_S1024x120_S120x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S120x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S_ : Shape := ⟨0, ![]⟩
abbrev S65536x16 : Shape := ⟨2, ![65536, 16]⟩
abbrev S65536x16x1 : Shape := ⟨3, ![65536, 16, 1]⟩
abbrev S65536x16x16 : Shape := ⟨3, ![65536, 16, 16]⟩
abbrev S16x16 : Shape := ⟨2, ![16, 16]⟩
abbrev S256 : Shape := ⟨1, ![256]⟩
abbrev S120 : Shape := ⟨1, ![120]⟩
abbrev S256x1 : Shape := ⟨2, ![256, 1]⟩
abbrev S120x1 : Shape := ⟨2, ![120, 1]⟩
abbrev S120x2 : Shape := ⟨2, ![120, 2]⟩
abbrev S65536x120 : Shape := ⟨2, ![65536, 120]⟩
abbrev S65536x128 : Shape := ⟨2, ![65536, 128]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S65536x16x128, .f32⟩
  | 1 => ⟨S120x128, .f32⟩
  | 2 => ⟨S128, .f32⟩
  | 3 => ⟨S128x128, .f32⟩
  | 4 => ⟨S128, .f32⟩
  | 5 => ⟨S65536x16x128, .f32⟩
  | 6 => ⟨S_, .f32⟩
  | 7 => ⟨S65536x16, .f32⟩
  | 8 => ⟨S65536x16x1, .f32⟩
  | 9 => ⟨S65536x16x1, .f32⟩
  | 10 => ⟨S_, .f32⟩
  | 11 => ⟨S65536x16x1, .f32⟩
  | 12 => ⟨S65536x16x1, .f32⟩
  | 13 => ⟨S65536x16x128, .f32⟩
  | 14 => ⟨S65536x16x128, .f32⟩
  | 15 => ⟨S65536x16x16, .f32⟩
  | 16 => ⟨S_, .f32⟩
  | 17 => ⟨S16x16, .f32⟩
  | 18 => ⟨S16x16, .i32⟩
  | 19 => ⟨S_, .i32⟩
  | 20 => ⟨S16x16, .i32⟩
  | 21 => ⟨S16x16, .i32⟩
  | 22 => ⟨S16x16, .i32⟩
  | 23 => ⟨S16x16, .i1⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .i1⟩
  | 30 => ⟨S256, .i1⟩
  | 31 => ⟨S256, .i32⟩
  | 32 => ⟨S_, .i32⟩
  | 33 => ⟨S_, .i32⟩
  | 34 => ⟨S256, .i32⟩
  | 35 => ⟨S_, .i32⟩
  | 36 => ⟨S120, .i32⟩
  | 37 => ⟨S_, .i32⟩
  | 38 => ⟨S_, .i32⟩
  | 39 => ⟨S256, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S_, .i32⟩
  | 50 => ⟨S256, .i32⟩
  | 51 => ⟨S120, .i32⟩
  | 52 => ⟨S_, .i32⟩
  | 53 => ⟨S_, .i32⟩
  | 54 => ⟨S120, .i32⟩
  | 55 => ⟨S_, .i32⟩
  | 56 => ⟨S120, .i32⟩
  | 57 => ⟨S120, .i32⟩
  | 58 => ⟨S120, .i32⟩
  | 59 => ⟨S_, .i32⟩
  | 60 => ⟨S120, .i32⟩
  | 61 => ⟨S120, .i1⟩
  | 62 => ⟨S120, .i32⟩
  | 63 => ⟨S120, .i32⟩
  | 64 => ⟨S_, .i32⟩
  | 65 => ⟨S120, .i32⟩
  | 66 => ⟨S120, .i1⟩
  | 67 => ⟨S120, .i1⟩
  | 68 => ⟨S_, .i32⟩
  | 69 => ⟨S120, .i32⟩
  | 70 => ⟨S120, .i32⟩
  | 71 => ⟨S120, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S120, .i32⟩
  | 79 => ⟨S120, .i32⟩
  | 80 => ⟨S_, .i32⟩
  | 81 => ⟨S120, .i32⟩
  | 82 => ⟨S120, .i1⟩
  | 83 => ⟨S_, .i32⟩
  | 84 => ⟨S120, .i32⟩
  | 85 => ⟨S120, .i1⟩
  | 86 => ⟨S_, .i32⟩
  | 87 => ⟨S_, .i1⟩
  | 88 => ⟨S120, .i1⟩
  | 89 => ⟨S120, .i1⟩
  | 90 => ⟨S120, .i1⟩
  | 91 => ⟨S120, .i32⟩
  | 92 => ⟨S120, .i32⟩
  | 93 => ⟨S120, .i32⟩
  | 94 => ⟨S_, .i32⟩
  | 95 => ⟨S120, .i32⟩
  | 96 => ⟨S120, .i32⟩
  | 97 => ⟨S120, .i32⟩
  | 98 => ⟨S_, .i32⟩
  | 99 => ⟨S120, .i32⟩
  | 100 => ⟨S120, .i1⟩
  | 101 => ⟨S120, .i32⟩
  | 102 => ⟨S120, .i32⟩
  | 103 => ⟨S_, .i32⟩
  | 104 => ⟨S120, .i32⟩
  | 105 => ⟨S120, .i1⟩
  | 106 => ⟨S120, .i1⟩
  | 107 => ⟨S_, .i32⟩
  | 108 => ⟨S120, .i32⟩
  | 109 => ⟨S120, .i32⟩
  | 110 => ⟨S120, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S120, .i32⟩
  | 118 => ⟨S120, .i32⟩
  | 119 => ⟨S_, .i32⟩
  | 120 => ⟨S120, .i32⟩
  | 121 => ⟨S120, .i1⟩
  | 122 => ⟨S_, .i32⟩
  | 123 => ⟨S120, .i32⟩
  | 124 => ⟨S120, .i1⟩
  | 125 => ⟨S_, .i32⟩
  | 126 => ⟨S_, .i1⟩
  | 127 => ⟨S120, .i1⟩
  | _ => ⟨S65536x16x128, .f32⟩

abbrev hbmTy0_1 (i : Nat) : BufTy := match i % 128 with
  | 0 => ⟨S120, .i1⟩
  | 1 => ⟨S120, .i1⟩
  | 2 => ⟨S120, .i32⟩
  | 3 => ⟨S120, .i32⟩
  | 4 => ⟨S120, .i32⟩
  | 5 => ⟨S_, .i32⟩
  | 6 => ⟨S120, .i32⟩
  | 7 => ⟨S120, .i1⟩
  | 8 => ⟨S_, .i32⟩
  | 9 => ⟨S120, .i32⟩
  | 10 => ⟨S120, .i32⟩
  | 11 => ⟨S120, .i32⟩
  | 12 => ⟨S_, .i32⟩
  | 13 => ⟨S120, .i32⟩
  | 14 => ⟨S120, .i1⟩
  | 15 => ⟨S_, .i32⟩
  | 16 => ⟨S120, .i32⟩
  | 17 => ⟨S120, .i32⟩
  | 18 => ⟨S120, .i32⟩
  | 19 => ⟨S120x1, .i32⟩
  | 20 => ⟨S120x1, .i32⟩
  | 21 => ⟨S120x2, .i32⟩
  | 22 => ⟨S65536x120, .f32⟩
  | 23 => ⟨S65536x128, .f32⟩
  | 24 => ⟨S1x128, .f32⟩
  | 25 => ⟨S65536x128, .f32⟩
  | 26 => ⟨S65536x128, .f32⟩
  | 27 => ⟨S_, .f32⟩
  | 28 => ⟨S65536x128, .f32⟩
  | 29 => ⟨S65536x128, .f32⟩
  | 30 => ⟨S65536x128, .f32⟩
  | 31 => ⟨S1x128, .f32⟩
  | 32 => ⟨S65536x128, .f32⟩
  | 33 => ⟨S65536x128, .f32⟩
  | _ => ⟨S65536x16x128, .f32⟩

abbrev hbmTy (i : Nat) : BufTy := match i / 128 with
  | 0 => hbmTy0_0 i
  | 1 => hbmTy0_1 i
  | _ => ⟨S65536x16x128, .f32⟩

abbrev bufTy : (tb : Table) → Fin (tcTables nBuf tb) → BufTy
  | .hbm, ⟨i, _⟩ => hbmTy i
  | _, _ => ⟨S65536x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_call2_v0 : Ref sig .tc := ⟨.hbm, 30, rfl⟩
abbrev main_call2_v1 : Ref sig .tc := ⟨.hbm, 31, rfl⟩
abbrev main_call2_call0_c : Ref sig .tc := ⟨.hbm, 32, rfl⟩
abbrev main_call2_call0_v0 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_c_2 : Ref sig .tc := ⟨.hbm, 37, rfl⟩
abbrev main_call3_v0 : Ref sig .tc := ⟨.hbm, 38, rfl⟩
abbrev main_call3_v1 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_call4_call0_c : Ref sig .tc := ⟨.hbm, 52, rfl⟩
abbrev main_call4_call0_v0 : Ref sig .tc := ⟨.hbm, 53, rfl⟩
abbrev main_v21 : Ref sig .tc := ⟨.hbm, 54, rfl⟩
abbrev main_c_6 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_call5_v5 : Ref sig .tc := ⟨.hbm, 61, rfl⟩
abbrev main_call5_v6 : Ref sig .tc := ⟨.hbm, 62, rfl⟩
abbrev main_call5_v7 : Ref sig .tc := ⟨.hbm, 63, rfl⟩
abbrev main_call5_c : Ref sig .tc := ⟨.hbm, 64, rfl⟩
abbrev main_call5_v8 : Ref sig .tc := ⟨.hbm, 65, rfl⟩
abbrev main_call5_v9 : Ref sig .tc := ⟨.hbm, 66, rfl⟩
abbrev main_call5_v10 : Ref sig .tc := ⟨.hbm, 67, rfl⟩
abbrev main_call5_c_0 : Ref sig .tc := ⟨.hbm, 68, rfl⟩
abbrev main_call5_v11 : Ref sig .tc := ⟨.hbm, 69, rfl⟩
abbrev main_call5_v12 : Ref sig .tc := ⟨.hbm, 70, rfl⟩
abbrev main_v22 : Ref sig .tc := ⟨.hbm, 71, rfl⟩
abbrev main_c_7 : Ref sig .tc := ⟨.hbm, 72, rfl⟩
abbrev main_call6_v0 : Ref sig .tc := ⟨.hbm, 73, rfl⟩
abbrev main_call6_c : Ref sig .tc := ⟨.hbm, 74, rfl⟩
abbrev main_call6_v1 : Ref sig .tc := ⟨.hbm, 75, rfl⟩
abbrev main_call6_c_0 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_c_1 : Ref sig .tc := ⟨.hbm, 80, rfl⟩
abbrev main_call6_v5 : Ref sig .tc := ⟨.hbm, 81, rfl⟩
abbrev main_call6_v6 : Ref sig .tc := ⟨.hbm, 82, rfl⟩
abbrev main_call6_c_2 : Ref sig .tc := ⟨.hbm, 83, rfl⟩
abbrev main_call6_v7 : Ref sig .tc := ⟨.hbm, 84, rfl⟩
abbrev main_call6_v8 : Ref sig .tc := ⟨.hbm, 85, rfl⟩
abbrev main_call6_c_3 : Ref sig .tc := ⟨.hbm, 86, rfl⟩
abbrev main_call6_v9 : Ref sig .tc := ⟨.hbm, 87, rfl⟩
abbrev main_call6_v10 : Ref sig .tc := ⟨.hbm, 88, rfl⟩
abbrev main_call6_v11 : Ref sig .tc := ⟨.hbm, 89, rfl⟩
abbrev main_call6_v12 : Ref sig .tc := ⟨.hbm, 90, rfl⟩
abbrev main_call6_v13 : Ref sig .tc := ⟨.hbm, 91, rfl⟩
abbrev main_call6_v14 : Ref sig .tc := ⟨.hbm, 92, rfl⟩
abbrev main_v23 : Ref sig .tc := ⟨.hbm, 93, rfl⟩
abbrev main_c_8 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_v6 : Ref sig .tc := ⟨.hbm, 101, rfl⟩
abbrev main_call7_v7 : Ref sig .tc := ⟨.hbm, 102, rfl⟩
abbrev main_call7_c : Ref sig .tc := ⟨.hbm, 103, rfl⟩
abbrev main_call7_v8 : Ref sig .tc := ⟨.hbm, 104, rfl⟩
abbrev main_call7_v9 : Ref sig .tc := ⟨.hbm, 105, rfl⟩
abbrev main_call7_v10 : Ref sig .tc := ⟨.hbm, 106, rfl⟩
abbrev main_call7_c_0 : Ref sig .tc := ⟨.hbm, 107, rfl⟩
abbrev main_call7_v11 : Ref sig .tc := ⟨.hbm, 108, rfl⟩
abbrev main_call7_v12 : Ref sig .tc := ⟨.hbm, 109, rfl⟩
abbrev main_v24 : Ref sig .tc := ⟨.hbm, 110, rfl⟩
abbrev main_c_9 : Ref sig .tc := ⟨.hbm, 111, rfl⟩
abbrev main_call8_v0 : Ref sig .tc := ⟨.hbm, 112, rfl⟩
abbrev main_call8_c : Ref sig .tc := ⟨.hbm, 113, rfl⟩
abbrev main_call8_v1 : Ref sig .tc := ⟨.hbm, 114, rfl⟩
abbrev main_call8_c_0 : Ref sig .tc := ⟨.hbm, 115, rfl⟩
abbrev main_call8_v2 : Ref sig .tc := ⟨.hbm, 116, rfl⟩
abbrev main_call8_v3 : Ref sig .tc := ⟨.hbm, 117, rfl⟩
abbrev main_call8_v4 : Ref sig .tc := ⟨.hbm, 118, rfl⟩
abbrev main_call8_c_1 : Ref sig .tc := ⟨.hbm, 119, rfl⟩
abbrev main_call8_v5 : Ref sig .tc := ⟨.hbm, 120, rfl⟩
abbrev main_call8_v6 : Ref sig .tc := ⟨.hbm, 121, rfl⟩
abbrev main_call8_c_2 : Ref sig .tc := ⟨.hbm, 122, rfl⟩
abbrev main_call8_v7 : Ref sig .tc := ⟨.hbm, 123, rfl⟩
abbrev main_call8_v8 : Ref sig .tc := ⟨.hbm, 124, rfl⟩
abbrev main_call8_c_3 : Ref sig .tc := ⟨.hbm, 125, rfl⟩
abbrev main_call8_v9 : Ref sig .tc := ⟨.hbm, 126, rfl⟩
abbrev main_call8_v10 : Ref sig .tc := ⟨.hbm, 127, rfl⟩
abbrev main_call8_v11 : Ref sig .tc := ⟨.hbm, 128, rfl⟩
abbrev main_call8_v12 : Ref sig .tc := ⟨.hbm, 129, rfl⟩
abbrev main_call8_v13 : Ref sig .tc := ⟨.hbm, 130, rfl⟩
abbrev main_call8_v14 : Ref sig .tc := ⟨.hbm, 131, rfl⟩
abbrev main_v25 : Ref sig .tc := ⟨.hbm, 132, rfl⟩
abbrev main_c_10 : Ref sig .tc := ⟨.hbm, 133, rfl⟩
abbrev main_v26 : Ref sig .tc := ⟨.hbm, 134, rfl⟩
abbrev main_v27 : Ref sig .tc := ⟨.hbm, 135, rfl⟩
abbrev main_c_11 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_c_12 : Ref sig .tc := ⟨.hbm, 140, rfl⟩
abbrev main_v31 : Ref sig .tc := ⟨.hbm, 141, rfl⟩
abbrev main_v32 : Ref sig .tc := ⟨.hbm, 142, rfl⟩
abbrev main_c_13 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_call9_cst : Ref sig .tc := ⟨.hbm, 155, rfl⟩
abbrev main_call9_v0 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩

abbrev nD : Nat := 1
abbrev τ : Topo := Topo.v7x

variable {F : FTy → Type} [FloatOps F]

class Facts₀ : Prop where
  reducesTo_S65536x16x128_S65536x16_d2 : S65536x16x128.ReducesTo [2] S65536x16
  h_S_ : 0 < S_.numel
  bcast_S65536x16_S65536x16x1_0_1 : S65536x16.BroadcastsInDim S65536x16x1 (![0, 1] : Fin 2 → Fin S65536x16x1.rank)
  bcast_S_S65536x16x1 : S_.BroadcastsInDim S65536x16x1 (![] : Fin 0 → Fin S65536x16x1.rank)
  bcast_S65536x16x1_S65536x16x128_0_1_2 : S65536x16x1.BroadcastsInDim S65536x16x128 (![0, 1, 2] : Fin 3 → Fin S65536x16x128.rank)
  bcast_S_S16x16 : S_.BroadcastsInDim S16x16 (![] : Fin 0 → Fin S16x16.rank)
  shapeCasts_S16x16_S256 : S16x16.ShapeCasts S256
  natLt_1_32 : 1 < 32
  bcast_S_S_ : S_.BroadcastsInDim S_ (![] : Fin 0 → Fin S_.rank)
  reduceWindows_S256_S256_w256s1p255_0 : S256.ReduceWindows (![256] : Fin 1 → Nat) ![1] ![255] ![0] S256
  bcast_S_S120 : S_.BroadcastsInDim S120 (![] : Fin 0 → Fin S120.rank)
  bcast_S_S256 : S_.BroadcastsInDim S256 (![] : Fin 0 → Fin S256.rank)
  bcast_S256_S256x1_0 : S256.BroadcastsInDim S256x1 (![0] : Fin 1 → Fin S256x1.rank)
  reduceWindows_S120_S120_w120s1p119_0 : S120.ReduceWindows (![120] : Fin 1 → Nat) ![1] ![119] ![0] S120
  bcast_S120_S120x1_0 : S120.BroadcastsInDim S120x1 (![0] : Fin 1 → Fin S120x1.rank)
  concatenates_S120x1_S120x1_S120x2_d1 : Shape.Concatenates [S120x1, S120x1] S120x2 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  dot_S65536x16x128_S65536x16x128_S65536x16x16_2_2_1_1_0_0_wf : DotDims.WF S65536x16x128 S65536x16x128 S65536x16x16 [2] [2] [1] [1] [0] [0]
  scatter_S120_S256x1_S256_n_0_0_1_wf : ScatterDims.WF S120 S256x1 S256 [] [0] [0] 1
  gather_S65536x16x16_S120x2_S65536x120_0_12_n_n_12_1_6553611_wf : GatherDims.WF S65536x16x16 S120x2 S65536x120 [0] [1, 2] [] [1, 2] [] 1 ![65536, 1, 1]
  dot_S65536x120_S120x128_S65536x128_1_0_0_1_n_n_wf : DotDims.WF S65536x120 S120x128 S65536x128 [1] [0] [0] [1] [] []
  dot_S65536x128_S128x128_S65536x128_1_0_0_1_n_n_wf : DotDims.WF S65536x128 S128x128 S65536x128 [1] [0] [0] [1] [] []

variable [Facts₀]

def dot_S65536x16x128_S65536x16x128_S65536x16x16_2_2_1_1_0_0 : DotDims S65536x16x128 S65536x16x128 S65536x16x16 where
  lhsContracting := [2]
  rhsContracting := [2]
  lhsNonContracting := [1]
  rhsNonContracting := [1]
  lhsBatch := [0]
  rhsBatch := [0]
  wf := dot_S65536x16x128_S65536x16x128_S65536x16x16_2_2_1_1_0_0_wf
def scatter_S120_S256x1_S256_n_0_0_1 : ScatterDims S120 S256x1 S256 where
  updateWindowDims := []
  insertedWindowDims := [0]
  scatterDimsToOperandDims := [0]
  indexVectorDim := 1
  wf := scatter_S120_S256x1_S256_n_0_0_1_wf
def gather_S65536x16x16_S120x2_S65536x120_0_12_n_n_12_1_6553611 : GatherDims S65536x16x16 S120x2 S65536x120 where
  offsetDims := [0]
  collapsedSliceDims := [1, 2]
  operandBatchingDims := []
  startIndicesBatchingDims := []
  startIndexMap := [1, 2]
  indexVectorDim := 1
  sliceSizes := ![65536, 1, 1]
  wf := gather_S65536x16x16_S120x2_S65536x120_0_12_n_n_12_1_6553611_wf
def dot_S65536x120_S120x128_S65536x128_1_0_0_1_n_n : DotDims S65536x120 S120x128 S65536x128 where
  lhsContracting := [1]
  rhsContracting := [0]
  lhsNonContracting := [0]
  rhsNonContracting := [1]
  lhsBatch := []
  rhsBatch := []
  wf := dot_S65536x120_S120x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.KernelTerm.lean ====
/- What the kernel body stores, in three named layers: the 120 inner-product vectors by position (`innerVec`), their
   concatenation into the feature block (`features`), and the two-layer perceptron over it (the stored value). -/
import proofs.«172230_j20555713478745_1_alg».proof.Proof.Gen.KernelIdeal.Frame

noncomputable section

namespace Cert.KernelIdeal.KTerm

open Cert.KernelIdeal Cert.KernelIdeal.Gen Idealize.ShloMosaic Idealize.ShloMosaic.TcCoe Idealize.SL.Sem

variable {F : FTy → Type} [FloatOps F]

/-- The inner-product vector at position 0 of the concatenation. -/
abbrev innerVec0 (x0 : Vec F S1024x16x128 .f32) : FVec F S1024 .f32 := k0_pay4 (View.ld x0 r0_0)
/-- The inner-product vector at position 1 of the concatenation. -/
abbrev innerVec1 (x0 : Vec F S1024x16x128 .f32) : FVec F S1024 .f32 := k0_pay5 (View.ld x0 r0_0)
/-- The inner-product vector at position 2 of the concatenation. -/
abbrev innerVec2 (x0 : Vec F S1024x16x128 .f32) : FVec F S1024 .f32 := k0_pay6 (View.ld x0 r0_0)
/-- The inner-product vector at position 3 of the concatenation. -/
abbrev innerVec3 (x0 : Vec F S1024x16x128 .f32) : FVec F S1024 .f32 := k0_pay7 (View.ld x0 r0_0)
/-- The inner-product vector at position 4 of the concatenation. -/
abbrev innerVec4 (x0 : Vec F S1024x16x128 .f32) : FVec F S1024 .f32 := k0_pay8 (View.ld x0 r0_0)
/-- The inner-product vector at position 5 of the concatenation. -/
abbrev innerVec5 (x0 : Vec F S1024x16x128 .f32) : FVec F S1024 .f32 := k0_pay9 (View.ld x0 r0_0)
/-- The inner-product vector at position 6 of the concatenation. -/
abbrev innerVec6 (x0 : Vec F S1024x16x128 .f32) : FVec F S1024 .f32 := k0_pay12 (k0_pay10 (View.ld x0 r0_0)) (k0_pay11 (View.ld x0 r0_0))
/-- The inner-product vector at position 7 of the concatenation. -/
abbrev innerVec7 (x0 : Vec F S1024x16x128 .f32) : FVec F S1024 .f32 := k0_pay13 (k0_pay3 (View.ld x0 r0_0))
/-- The inner-product vector at position 8 of the concatenation. -/
abbrev innerVec8 (x0 : Vec F S1024x16x128 .f32) : FVec F S1024 .f32 := k0_pay14 (k0_pay3 (View.ld x0 r0_0))
/-- The inner-product vector at position 9 of the concatenation. -/
abbrev innerVec9 (x0 : Vec F S1024x16x128 .f32) : FVec F S1024 .f32 := k0_pay15 (k0_pay3 (View.ld x0 r0_0))
/-- The inner-product vector at position 10 of the concatenation. -/
abbrev innerVec10 (x0 : Vec F S1024x16x128 .f32) : FVec F S1024 .f32 := k0_pay16 (k0_pay3 (View.ld x0 r0_0))
/-- The inner-product vector at position 11 of the concatenation. -/
abbrev innerVec11 (x0 : Vec F S1024x16x128 .f32) : FVec F S1024 .f32 := k0_pay17 (k0_pay3 (View.ld x0 r0_0))
/-- The inner-product vector at position 12 of the concatenation. -/
abbrev innerVec12 (x0 : Vec F S1024x16x128 .f32) : FVec F S1024 .f32 := k0_pay18 (k0_pay3 (View.ld x0 r0_0))
/-- The inner-product vector at position 13 of the concatenation. -/
abbrev innerVec13 (x0 : Vec F S1024x16x128 .f32) : FVec F S1024 .f32 := k0_pay19 (k0_pay3 (View.ld x0 r0_0))
/-- The inner-product vector at position 14 of the concatenation. -/
abbrev innerVec14 (x0 : Vec F S1024x16x128 .f32) : FVec F S1024 .f32 := k0_pay20 (k0_pay3 (View.ld x0 r0_0))
/-- The inner-product vector at position 15 of the concatenation. -/
abbrev innerVec15 (x0 : Vec F S1024x16x128 .f32) : FVec F S1024 .f32 := k0_pay21 (k0_pay3 (View.ld x0 r0_0))
/-- The inner-product vector at position 16 of the concatenation. -/
abbrev innerVec16 (x0 : Vec F S1024x16x128 .f32) : FVec F S1024 .f32 := k0_pay22 (k0_pay3 (View.ld x0 r0_0))
/-- The inner-product vector at position 17 of the concatenation. -/
abbrev innerVec17 (x0 : Vec F S1024x16x128 .f32) : FVec F S1024 .f32 := k0_pay23 (k0_pay3 (View.ld x0 r0_0))
/-- The inner-product vector at position 18 of the concatenation. -/
abbrev innerVec18 (x0 : Vec F S1024x16x128 .f32) : FVec F S1024 .f32 := k0_pay24 (k0_pay3 (View.ld x0 r0_0))
/-- The inner-product vector at position 19 of the concatenation. -/
abbrev innerVec19 (x0 : Vec F S1024x16x128 .f32) : FVec F S1024 .f32 := k0_pay25 (k0_pay3 (View.ld x0 r0_0))
/-- The inner-product vector at position 20 of the concatenation. -/
abbrev innerVec20 (x0 : Vec F S1024x16x128 .f32) : FVec F S1024 .f32 := k0_pay26 (k0_pay3 (View.ld x0 r0_0))
/-- The inner-product vector at position 21 of the concatenation. -/
abbrev innerVec21 (x0 : Vec F S1024x16x128 .f32) : FVec F S1024 .f32 := k0_pay27 (k0_pay3 (View.ld x0 r0_0))
/-- The inner-product vector at position 22 of the concatenation. -/
abbrev innerVec22 (x0 : Vec F S1024x16x128 .f32) : FVec F S1024 .f32 := k0_pay28 (k0_pay3 (View.ld x0 r0_0))
/-- The inner-product vector at position 23 of the concatenation. -/
abbrev innerVec23 (x0 : Vec F S1024x16x128 .f32) : FVec F S1024 .f32 := k0_pay31 (k0_pay29 (k0_pay3 (View.ld x0 r0_0))) (k0_pay30 (k0_pay3 (View.ld x0 r0_0)))
/-- The inner-product vector at position 24 of the concatenation. -/
abbrev innerVec24 (x0 : Vec F S1024x16x128 .f32) : FVec F S1024 .f32 := k0_pay32 (k0_pay3 (View.ld x0 r0_0))
/-- The inner-product vector at position 25 of the concatenation. -/
abbrev innerVec25 (x0 : Vec F S1024x16x128 .f32) : FVec F S1024 .f32 := k0_pay33 (k0_pay3 (View.ld x0 r0_0))
/-- The inner-product vector at position 26 of the concatenation. -/
abbrev innerVec26 (x0 : Vec F S1024x16x128 .f32) : FVec F S1024 .f32 := k0_pay34 (k0_pay3 (View.ld x0 r0_0))
/-- The inner-product vector at position 27 of the concatenation. -/
abbrev innerVec27 (x0 : Vec F S1024x16x128 .f32) : FVec F S1024 .f32 := k0_pay35 (k0_pay3 (View.ld x0 r0_0))
/-- The inner-product vector at position 28 of the concatenation. -/
abbrev innerVec28 (x0 : Vec F S1024x16x128 .f32) : FVec F S1024 .f32 := k0_pay36 (k0_pay3 (View.ld x0 r0_0))
/-- The inner-product vector at position 29 of the concatenation. -/
abbrev innerVec29 (x0 : Vec F S1024x16x128 .f32) : FVec F S1024 .f32 := k0_pay37 (k0_pay3 (View.ld x0 r0_0))
/-- The inner-product vector at position 30 of the concatenation. -/
abbrev innerVec30 (x0 : Vec F S1024x16x128 .f32) : FVec F S1024 .f32 := k0_pay38 (k0_pay3 (View.ld x0 r0_0))
/-- The inner-product vector at position 31 of the concatenation. -/
abbrev innerVec31 (x0 : Vec F S1024x16x128 .f32) : FVec F S1024 .f32 := k0_pay39 (k0_pay3 (View.ld x0 r0_0))
/-- The inner-product vector at position 32 of the concatenation. -/
abbrev innerVec32 (x0 : Vec F S1024x16x128 .f32) : FVec F S1024 .f32 := k0_pay41 (k0_pay3 (View.ld x0 r0_0)) (k0_pay40 (k0_pay3 (View.ld x0 r0_0)))
/-- The inner-product vector at position 33 of the concatenation. -/
abbrev innerVec33 (x0 : Vec F S1024x16x128 .f32) : FVec F S1024 .f32 := k0_pay42 (k0_pay3 (View.ld x0 r0_0))
/-- The inner-product vector at position 34 of the concatenation. -/
abbrev innerVec34 (x0 : Vec F S1024x16x128 .f32) : FVec F S1024 .f32 := k0_pay43 (k0_pay3 (View.ld x0 r0_0))
/-- The inner-product vector at position 35 of the concatenation. -/
abbrev innerVec35 (x0 : Vec F S1024x16x128 .f32) : FVec F S1024 .f32 := k0_pay44 (k0_pay3 (View.ld x0 r0_0))
/-- The inner-product vector at position 36 of the concatenation. -/
abbrev innerVec36 (x0 : Vec F S1024x16x128 .f32) : FVec F S1024 .f32 := k0_pay45 (k0_pay3 (View.ld x0 r0_0))
/-- The inner-product vector at position 37 of the concatenation. -/
abbrev innerVec37 (x0 : Vec F S1024x16x128 .f32) : FVec F S1024 .f32 := k0_pay46 (k0_pay3 (View.ld x0 r0_0))
/-- The inner-product vector at position 38 of the concatenation. -/
abbrev innerVec38 (x0 : Vec F S1024x16x128 .f32) : FVec F S1024 .f32 := k0_pay47 (k0_pay3 (View.ld x0 r0_0))
/-- The inner-product vector at position 39 of the concatenation. -/
abbrev innerVec39 (x0 : Vec F S1024x16x128 .f32) : FVec F S1024 .f32 := k0_pay48 (k0_pay3 (View.ld x0 r0_0))
/-- The inner-product vector at position 40 of the concatenation. -/
abbrev innerVec40 (x0 : Vec F S1024x16x128 .f32) : FVec F S1024 .f32 := k0_pay50 (k0_pay49 (k0_pay3 (View.ld x0 r0_0)))
/-- The inner-product vector at position 41 of the concatenation. -/
abbrev innerVec41 (x0 : Vec F S1024x16x128 .f32) : FVec F S1024 .f32 := k0_pay51 (k0_pay3 (View.ld x0 r0_0))
/-- The inner-product vector at position 42 of the concatenation. -/
abbrev innerVec42 (x0 : Vec F S1024x16x128 .f32) : FVec F S1024 .f32 := k0_pay52 (k0_pay3 (View.ld x0 r0_0))
/-- The inner-product vector at position 43 of the concatenation. -/
abbrev innerVec43 (x0 : Vec F S1024x16x128 .f32) : FVec F S1024 .f32 := k0_pay53 (k0_pay3 (View.ld x0 r0_0))
/-- The inner-product vector at position 44 of the concatenation. -/
abbrev innerVec44 (x0 : Vec F S1024x16x128 .f32) : FVec F S1024 .f32 := k0_pay54 (k0_pay3 (View.ld x0 r0_0))
/-- The inner-product vector at position 45 of the concatenation. -/
abbrev innerVec45 (x0 : Vec F S1024x16x128 .f32) : FVec F S1024 .f32 := k0_pay55 (k0_pay3 (View.ld x0 r0_0))
/-- The inner-product vector at position 46 of the concatenation. -/
abbrev innerVec46 (x0 : Vec F S1024x16x128 .f32) : FVec F S1024 .f32 := k0_pay56 (k0_pay3 (View.ld x0 r0_0))
/-- The inner-product vector at position 47 of the concatenation. -/
abbrev innerVec47 (x0 : Vec F S1024x16x128 .f32) : FVec F S1024 .f32 := k0_pay57 (k0_pay3 (View.ld x0 r0_0))
/-- The inner-product vector at position 48 of the concatenation. -/
abbrev innerVec48 (x0 : Vec F S1024x16x128 .f32) : FVec F S1024 .f32 := k0_pay58 (k0_pay3 (View.ld x0 r0_0))
/-- The inner-product vector at position 49 of the concatenation. -/
abbrev innerVec49 (x0 : Vec F S1024x16x128 .f32) : FVec F S1024 .f32 := k0_pay60 (k0_pay3 (View.ld x0 r0_0)) (k0_pay59 (k0_pay3 (View.ld x0 r0_0)))
/-- The inner-product vector at position 50 of the concatenation. -/
abbrev innerVec50 (x0 : Vec F S1024x16x128 .f32) : FVec F S1024 .f32 := k0_pay61 (k0_pay3 (View.ld x0 r0_0))
/-- The inner-product vector at position 51 of the concatenation. -/
abbrev innerVec51 (x0 : Vec F S1024x16x128 .f32) : FVec F S1024 .f32 := k0_pay62 (k0_pay3 (View.ld x0 r0_0))
/-- The inner-product vector at position 52 of the concatenation. -/
abbrev innerVec52 (x0 : Vec F S1024x16x128 .f32) : FVec F S1024 .f32 := k0_pay63 (k0_pay3 (View.ld x0 r0_0))
/-- The inner-product vector at position 53 of the concatenation. -/
abbrev innerVec53 (x0 : Vec F S1024x16x128 .f32) : FVec F S1024 .f32 := k0_pay64 (k0_pay3 (View.ld x0 r0_0))
/-- The inner-product vector at position 54 of the concatenation. -/
abbrev innerVec54 (x0 : Vec F S1024x16x128 .f32) : FVec F S1024 .f32 := k0_pay65 (k0_pay3 (View.ld x0 r0_0))
/-- The inner-product vector at position 55 of the concatenation. -/
abbrev innerVec55 (x0 : Vec F S1024x16x128 .f32) : FVec F S1024 .f32 := k0_pay66 (k0_pay3 (View.ld x0 r0_0))
/-- The inner-product vector at position 56 of the concatenation. -/
abbrev innerVec56 (x0 : Vec F S1024x16x128 .f32) : FVec F S1024 .f32 := k0_pay67 (k0_pay3 (View.ld x0 r0_0))
/-- The inner-product vector at position 57 of the concatenation. -/
abbrev innerVec57 (x0 : Vec F S1024x16x128 .f32) : FVec F S1024 .f32 := k0_pay69 (k0_pay68 (k0_pay3 (View.ld x0 r0_0)))
/-- The inner-product vector at position 58 of the concatenation. -/
abbrev innerVec58 (x0 : Vec F S1024x16x128 .f32) : FVec F S1024 .f32 := k0_pay70 (k0_pay3 (View.ld x0 r0_0))
/-- The inner-product vector at position 59 of the concatenation. -/
abbrev innerVec59 (x0 : Vec F S1024x16x128 .f32) : FVec F S1024 .f32 := k0_pay71 (k0_pay3 (View.ld x0 r0_0))
/-- The inner-product vector at position 60 of the concatenation. -/
abbrev innerVec60 (x0 : Vec F S1024x16x128 .f32) : FVec F S1024 .f32 := k0_pay72 (k0_pay3 (View.ld x0 r0_0))
/-- The inner-product vector at position 61 of the concatenation. -/
abbrev innerVec61 (x0 : Vec F S1024x16x128 .f32) : FVec F S1024 .f32 := k0_pay73 (k0_pay3 (View.ld x0 r0_0))
/-- The inner-product vector at position 62 of the concatenation. -/
abbrev innerVec62 (x0 : Vec F S1024x16x128 .f32) : FVec F S1024 .f32 := k0_pay74 (k0_pay3 (View.ld x0 r0_0))
/-- The inner-product vector at position 63 of the concatenation. -/
abbrev innerVec63 (x0 : Vec F S1024x16x128 .f32) : FVec F S1024 .f32 := k0_pay75 (k0_pay3 (View.ld x0 r0_0))
/-- The inner-product vector at position 64 of the concatenation. -/
abbrev innerVec64 (x0 : Vec F S1024x16x128 .f32) : FVec F S1024 .f32 := k0_pay76 (k0_pay3 (View.ld x0 r0_0))
/-- The inner-product vector at position 65 of the concatenation. -/
abbrev innerVec65 (x0 : Vec F S1024x16x128 .f32) : FVec F S1024 .f32 := k0_pay77 (k0_pay3 (View.ld x0 r0_0))
/-- The inner-product vector at position 66 of the concatenation. -/
abbrev innerVec66 (x0 : Vec F S1024x16x128 .f32) : FVec F S1024 .f32 := k0_pay80 (k0_pay78 (k0_pay3 (View.ld x0 r0_0))) (k0_pay79 (k0_pay3 (View.ld x0 r0_0)))
/-- The inner-product vector at position 67 of the concatenation. -/
abbrev innerVec67 (x0 : Vec F S1024x16x128 .f32) : FVec F S1024 .f32 := k0_pay81 (k0_pay3 (View.ld x0 r0_0))
/-- The inner-product vector at position 68 of the concatenation. -/
abbrev innerVec68 (x0 : Vec F S1024x16x128 .f32) : FVec F S1024 .f32 := k0_pay82 (k0_pay3 (View.ld x0 r0_0))
/-- The inner-product vector at position 69 of the concatenation. -/
abbrev innerVec69 (x0 : Vec F S1024x16x128 .f32) : FVec F S1024 .f32 := k0_pay83 (k0_pay3 (View.ld x0 r0_0))
/-- The inner-product vector at position 70 of the concatenation. -/
abbrev innerVec70 (x0 : Vec F S1024x16x128 .f32) : FVec F S1024 .f32 := k0_pay84 (k0_pay3 (View.ld x0 r0_0))
/-- The inner-product vector at position 71 of the concatenation. -/
abbrev innerVec71 (x0 : Vec F S1024x16x128 .f32) : FVec F S1024 .f32 := k0_pay85 (k0_pay3 (View.ld x0 r0_0))
/-- The inner-product vector at position 72 of the concatenation. -/
abbrev innerVec72 (x0 : Vec F S1024x16x128 .f32) : FVec F S1024 .f32 := k0_pay86 (k0_pay3 (View.ld x0 r0_0))
/-- The inner-product vector at position 73 of the concatenation. -/
abbrev innerVec73 (x0 : Vec F S1024x16x128 .f32) : FVec F S1024 .f32 := k0_pay87 (k0_pay3 (View.ld x0 r0_0))
/-- The inner-product vector at position 74 of the concatenation. -/
abbrev innerVec74 (x0 : Vec F S1024x16x128 .f32) : FVec F S1024 .f32 := k0_pay88 (k0_pay3 (View.ld x0 r0_0))
/-- The inner-product vector at position 75 of the concatenation. -/
abbrev innerVec75 (x0 : Vec F S1024x16x128 .f32) : FVec F S1024 .f32 := k0_pay89 (k0_pay3 (View.ld x0 r0_0))
/-- The inner-product vector at position 76 of the concatenation. -/
abbrev innerVec76 (x0 : Vec F S1024x16x128 .f32) : FVec F S1024 .f32 := k0_pay90 (k0_pay3 (View.ld x0 r0_0))
/-- The inner-product vector at position 77 of the concatenation. -/
abbrev innerVec77 (x0 : Vec F S1024x16x128 .f32) : FVec F S1024 .f32 := k0_pay91 (k0_pay3 (View.ld x0 r0_0))
/-- The inner-product vector at position 78 of the concatenation. -/
abbrev innerVec78 (x0 : Vec F S1024x16x128 .f32) : FVec F S1024 .f32 := k0_pay92 (k0_pay3 (View.ld x0 r0_0))
/-- The inner-product vector at position 79 of the concatenation. -/
abbrev innerVec79 (x0 : Vec F S1024x16x128 .f32) : FVec F S1024 .f32 := k0_pay93 (k0_pay3 (View.ld x0 r0_0))
/-- The inner-product vector at position 80 of the concatenation. -/
abbrev innerVec80 (x0 : Vec F S1024x16x128 .f32) : FVec F S1024 .f32 := k0_pay94 (k0_pay3 (View.ld x0 r0_0))
/-- The inner-product vector at position 81 of the concatenation. -/
abbrev innerVec81 (x0 : Vec F S1024x16x128 .f32) : FVec F S1024 .f32 := k0_pay95 (k0_pay3 (View.ld x0 r0_0))
/-- The inner-product vector at position 82 of the concatenation. -/
abbrev innerVec82 (x0 : Vec F S1024x16x128 .f32) : FVec F S1024 .f32 := k0_pay96 (k0_pay3 (View.ld x0 r0_0))
/-- The inner-product vector at position 83 of the concatenation. -/
abbrev innerVec83 (x0 : Vec F S1024x16x128 .f32) : FVec F S1024 .f32 := k0_pay99 (k0_pay97 (k0_pay3 (View.ld x0 r0_0))) (k0_pay98 (k0_pay3 (View.ld x0 r0_0)))
/-- The inner-product vector at position 84 of the concatenation. -/
abbrev innerVec84 (x0 : Vec F S1024x16x128 .f32) : FVec F S1024 .f32 := k0_pay100 (k0_pay3 (View.ld x0 r0_0))
/-- The inner-product vector at position 85 of the concatenation. -/
abbrev innerVec85 (x0 : Vec F S1024x16x128 .f32) : FVec F S1024 .f32 := k0_pay101 (k0_pay3 (View.ld x0 r0_0))
/-- The inner-product vector at position 86 of the concatenation. -/
abbrev innerVec86 (x0 : Vec F S1024x16x128 .f32) : FVec F S1024 .f32 := k0_pay102 (k0_pay3 (View.ld x0 r0_0))
/-- The inner-product vector at position 87 of the concatenation. -/
abbrev innerVec87 (x0 : Vec F S1024x16x128 .f32) : FVec F S1024 .f32 := k0_pay103 (k0_pay3 (View.ld x0 r0_0))
/-- The inner-product vector at position 88 of the concatenation. -/
abbrev innerVec88 (x0 : Vec F S1024x16x128 .f32) : FVec F S1024 .f32 := k0_pay104 (k0_pay3 (View.ld x0 r0_0))
/-- The inner-product vector at position 89 of the concatenation. -/
abbrev innerVec89 (x0 : Vec F S1024x16x128 .f32) : FVec F S1024 .f32 := k0_pay105 (k0_pay3 (View.ld x0 r0_0))
/-- The inner-product vector at position 90 of the concatenation. -/
abbrev innerVec90 (x0 : Vec F S1024x16x128 .f32) : FVec F S1024 .f32 := k0_pay106 (k0_pay3 (View.ld x0 r0_0))
/-- The inner-product vector at position 91 of the concatenation. -/
abbrev innerVec91 (x0 : Vec F S1024x16x128 .f32) : FVec F S1024 .f32 := k0_pay107 (k0_pay3 (View.ld x0 r0_0))
/-- The inner-product vector at position 92 of the concatenation. -/
abbrev innerVec92 (x0 : Vec F S1024x16x128 .f32) : FVec F S1024 .f32 := k0_pay109 (k0_pay3 (View.ld x0 r0_0)) (k0_pay108 (k0_pay3 (View.ld x0 r0_0)))
/-- The inner-product vector at position 93 of the concatenation. -/
abbrev innerVec93 (x0 : Vec F S1024x16x128 .f32) : FVec F S1024 .f32 := k0_pay110 (k0_pay3 (View.ld x0 r0_0))
/-- The inner-product vector at position 94 of the concatenation. -/
abbrev innerVec94 (x0 : Vec F S1024x16x128 .f32) : FVec F S1024 .f32 := k0_pay111 (k0_pay3 (View.ld x0 r0_0))
/-- The inner-product vector at position 95 of the concatenation. -/
abbrev innerVec95 (x0 : Vec F S1024x16x128 .f32) : FVec F S1024 .f32 := k0_pay112 (k0_pay3 (View.ld x0 r0_0))
/-- The inner-product vector at position 96 of the concatenation. -/
abbrev innerVec96 (x0 : Vec F S1024x16x128 .f32) : FVec F S1024 .f32 := k0_pay113 (k0_pay3 (View.ld x0 r0_0))
/-- The inner-product vector at position 97 of the concatenation. -/
abbrev innerVec97 (x0 : Vec F S1024x16x128 .f32) : FVec F S1024 .f32 := k0_pay114 (k0_pay3 (View.ld x0 r0_0))
/-- The inner-product vector at position 98 of the concatenation. -/
abbrev innerVec98 (x0 : Vec F S1024x16x128 .f32) : FVec F S1024 .f32 := k0_pay115 (k0_pay3 (View.ld x0 r0_0))
/-- The inner-product vector at position 99 of the concatenation. -/
abbrev innerVec99 (x0 : Vec F S1024x16x128 .f32) : FVec F S1024 .f32 := k0_pay116 (k0_pay3 (View.ld x0 r0_0))
/-- The inner-product vector at position 100 of the concatenation. -/
abbrev innerVec100 (x0 : Vec F S1024x16x128 .f32) : FVec F S1024 .f32 := k0_pay118 (k0_pay117 (k0_pay3 (View.ld x0 r0_0)))
/-- The inner-product vector at position 101 of the concatenation. -/
abbrev innerVec101 (x0 : Vec F S1024x16x128 .f32) : FVec F S1024 .f32 := k0_pay119 (k0_pay3 (View.ld x0 r0_0))
/-- The inner-product vector at position 102 of the concatenation. -/
abbrev innerVec102 (x0 : Vec F S1024x16x128 .f32) : FVec F S1024 .f32 := k0_pay120 (k0_pay3 (View.ld x0 r0_0))
/-- The inner-product vector at position 103 of the concatenation. -/
abbrev innerVec103 (x0 : Vec F S1024x16x128 .f32) : FVec F S1024 .f32 := k0_pay121 (k0_pay3 (View.ld x0 r0_0))
/-- The inner-product vector at position 104 of the concatenation. -/
abbrev innerVec104 (x0 : Vec F S1024x16x128 .f32) : FVec F S1024 .f32 := k0_pay122 (k0_pay3 (View.ld x0 r0_0))
/-- The inner-product vector at position 105 of the concatenation. -/
abbrev innerVec105 (x0 : Vec F S1024x16x128 .f32) : FVec F S1024 .f32 := k0_pay123 (k0_pay3 (View.ld x0 r0_0))
/-- The inner-product vector at position 106 of the concatenation. -/
abbrev innerVec106 (x0 : Vec F S1024x16x128 .f32) : FVec F S1024 .f32 := k0_pay124 (k0_pay3 (View.ld x0 r0_0))
/-- The inner-product vector at position 107 of the concatenation. -/
abbrev innerVec107 (x0 : Vec F S1024x16x128 .f32) : FVec F S1024 .f32 := k0_pay125 (k0_pay3 (View.ld x0 r0_0))
/-- The inner-product vector at position 108 of the concatenation. -/
abbrev innerVec108 (x0 : Vec F S1024x16x128 .f32) : FVec F S1024 .f32 := k0_pay126 (k0_pay3 (View.ld x0 r0_0))
/-- The inner-product vector at position 109 of the concatenation. -/
abbrev innerVec109 (x0 : Vec F S1024x16x128 .f32) : FVec F S1024 .f32 := k0_pay128 (k0_pay3 (View.ld x0 r0_0)) (k0_pay127 (k0_pay3 (View.ld x0 r0_0)))
/-- The inner-product vector at position 110 of the concatenation. -/
abbrev innerVec110 (x0 : Vec F S1024x16x128 .f32) : FVec F S1024 .f32 := k0_pay129 (k0_pay3 (View.ld x0 r0_0))
/-- The inner-product vector at position 111 of the concatenation. -/
abbrev innerVec111 (x0 : Vec F S1024x16x128 .f32) : FVec F S1024 .f32 := k0_pay130 (k0_pay3 (View.ld x0 r0_0))
/-- The inner-product vector at position 112 of the concatenation. -/
abbrev innerVec112 (x0 : Vec F S1024x16x128 .f32) : FVec F S1024 .f32 := k0_pay131 (k0_pay3 (View.ld x0 r0_0))
/-- The inner-product vector at position 113 of the concatenation. -/
abbrev innerVec113 (x0 : Vec F S1024x16x128 .f32) : FVec F S1024 .f32 := k0_pay132 (k0_pay3 (View.ld x0 r0_0))
/-- The inner-product vector at position 114 of the concatenation. -/
abbrev innerVec114 (x0 : Vec F S1024x16x128 .f32) : FVec F S1024 .f32 := k0_pay133 (k0_pay3 (View.ld x0 r0_0))
/-- The inner-product vector at position 115 of the concatenation. -/
abbrev innerVec115 (x0 : Vec F S1024x16x128 .f32) : FVec F S1024 .f32 := k0_pay134 (k0_pay3 (View.ld x0 r0_0))
/-- The inner-product vector at position 116 of the concatenation. -/
abbrev innerVec116 (x0 : Vec F S1024x16x128 .f32) : FVec F S1024 .f32 := k0_pay135 (k0_pay3 (View.ld x0 r0_0))
/-- The inner-product vector at position 117 of the concatenation. -/
abbrev innerVec117 (x0 : Vec F S1024x16x128 .f32) : FVec F S1024 .f32 := k0_pay137 (k0_pay136 (k0_pay3 (View.ld x0 r0_0)))
/-- The inner-product vector at position 118 of the concatenation. -/
abbrev innerVec118 (x0 : Vec F S1024x16x128 .f32) : FVec F S1024 .f32 := k0_pay138 (k0_pay3 (View.ld x0 r0_0))
/-- The inner-product vector at position 119 of the concatenation. -/
abbrev innerVec119 (x0 : Vec F S1024x16x128 .f32) : FVec F S1024 .f32 := k0_pay139 (k0_pay3 (View.ld x0 r0_0))

/-- The 120 inner-product vectors as one table by position. -/
abbrev innerVec (x0 : Vec F S1024x16x128 .f32) : Fin 120 → FVec F S1024 .f32 :=
  ![innerVec0 x0, innerVec1 x0, innerVec2 x0, innerVec3 x0, innerVec4 x0, innerVec5 x0, innerVec6 x0, innerVec7 x0, innerVec8 x0, innerVec9 x0, innerVec10 x0, innerVec11 x0, innerVec12 x0, innerVec13 x0, innerVec14 x0, innerVec15 x0, innerVec16 x0, innerVec17 x0, innerVec18 x0, innerVec19 x0, innerVec20 x0, innerVec21 x0, innerVec22 x0, innerVec23 x0, innerVec24 x0, innerVec25 x0, innerVec26 x0, innerVec27 x0, innerVec28 x0, innerVec29 x0, innerVec30 x0, innerVec31 x0, innerVec32 x0, innerVec33 x0, innerVec34 x0, innerVec35 x0, innerVec36 x0, innerVec37 x0, innerVec38 x0, innerVec39 x0, innerVec40 x0, innerVec41 x0, innerVec42 x0, innerVec43 x0, innerVec44 x0, innerVec45 x0, innerVec46 x0, innerVec47 x0, innerVec48 x0, innerVec49 x0, innerVec50 x0, innerVec51 x0, innerVec52 x0, innerVec53 x0, innerVec54 x0, innerVec55 x0, innerVec56 x0, innerVec57 x0, innerVec58 x0, innerVec59 x0, innerVec60 x0, innerVec61 x0, innerVec62 x0, innerVec63 x0, innerVec64 x0, innerVec65 x0, innerVec66 x0, innerVec67 x0, innerVec68 x0, innerVec69 x0, innerVec70 x0, innerVec71 x0, innerVec72 x0, innerVec73 x0, innerVec74 x0, innerVec75 x0, innerVec76 x0, innerVec77 x0, innerVec78 x0, innerVec79 x0, innerVec80 x0, innerVec81 x0, innerVec82 x0, innerVec83 x0, innerVec84 x0, innerVec85 x0, innerVec86 x0, innerVec87 x0, innerVec88 x0, innerVec89 x0, innerVec90 x0, innerVec91 x0, innerVec92 x0, innerVec93 x0, innerVec94 x0, innerVec95 x0, innerVec96 x0, innerVec97 x0, innerVec98 x0, innerVec99 x0, innerVec100 x0, innerVec101 x0, innerVec102 x0, innerVec103 x0, innerVec104 x0, innerVec105 x0, innerVec106 x0, innerVec107 x0, innerVec108 x0, innerVec109 x0, innerVec110 x0, innerVec111 x0, innerVec112 x0, innerVec113 x0, innerVec114 x0, innerVec115 x0, innerVec116 x0, innerVec117 x0, innerVec118 x0, innerVec119 x0]

/-- The feature block: the 120 vectors side by side, one column each. -/
abbrev features (x0 : Vec F S1024x16x128 .f32) : FVec F S1024x120 .f32 :=
  k0_pay1 (k0_pay123 (k0_pay3 (View.ld x0 r0_0))) (k0_pay124 (k0_pay3 (View.ld x0 r0_0))) (k0_pay125 (k0_pay3 (View.ld x0 r0_0))) (k0_pay126 (k0_pay3 (View.ld x0 r0_0))) (k0_pay128 (k0_pay3 (View.ld x0 r0_0)) (k0_pay127 (k0_pay3 (View.ld x0 r0_0)))) (k0_pay129 (k0_pay3 (View.ld x0 r0_0))) (k0_pay130 (k0_pay3 (View.ld x0 r0_0))) (k0_pay131 (k0_pay3 (View.ld x0 r0_0))) (k0_pay132 (k0_pay3 (View.ld x0 r0_0))) (k0_pay133 (k0_pay3 (View.ld x0 r0_0))) (k0_pay134 (k0_pay3 (View.ld x0 r0_0))) (k0_pay135 (k0_pay3 (View.ld x0 r0_0))) (k0_pay137 (k0_pay136 (k0_pay3 (View.ld x0 r0_0)))) (k0_pay138 (k0_pay3 (View.ld x0 r0_0))) (k0_pay139 (k0_pay3 (View.ld x0 r0_0))) (k0_pay140 (k0_pay4 (View.ld x0 r0_0))) (k0_pay141 (k0_pay5 (View.ld x0 r0_0))) (k0_pay142 (k0_pay6 (View.ld x0 r0_0))) (k0_pay143 (k0_pay7 (View.ld x0 r0_0))) (k0_pay144 (k0_pay8 (View.ld x0 r0_0))) (k0_pay145 (k0_pay9 (View.ld x0 r0_0))) (k0_pay146 (k0_pay12 (k0_pay10 (View.ld x0 r0_0)) (k0_pay11 (View.ld x0 r0_0)))) (k0_pay147 (k0_pay13 (k0_pay3 (View.ld x0 r0_0)))) (k0_pay148 (k0_pay14 (k0_pay3 (View.ld x0 r0_0)))) (k0_pay149 (k0_pay15 (k0_pay3 (View.ld x0 r0_0)))) (k0_pay150 (k0_pay16 (k0_pay3 (View.ld x0 r0_0)))) (k0_pay151 (k0_pay17 (k0_pay3 (View.ld x0 r0_0)))) (k0_pay152 (k0_pay18 (k0_pay3 (View.ld x0 r0_0)))) (k0_pay153 (k0_pay19 (k0_pay3 (View.ld x0 r0_0)))) (k0_pay154 (k0_pay20 (k0_pay3 (View.ld x0 r0_0)))) (k0_pay155 (k0_pay21 (k0_pay3 (View.ld x0 r0_0)))) (k0_pay156 (k0_pay22 (k0_pay3 (View.ld x0 r0_0)))) (k0_pay157 (k0_pay23 (k0_pay3 (View.ld x0 r0_0)))) (k0_pay158 (k0_pay24 (k0_pay3 (View.ld x0 r0_0)))) (k0_pay159 (k0_pay25 (k0_pay3 (View.ld x0 r0_0)))) (k0_pay160 (k0_pay26 (k0_pay3 (View.ld x0 r0_0)))) (k0_pay161 (k0_pay27 (k0_pay3 (View.ld x0 r0_0)))) (k0_pay162 (k0_pay28 (k0_pay3 (View.ld x0 r0_0)))) (k0_pay163 (k0_pay31 (k0_pay29 (k0_pay3 (View.ld x0 r0_0))) (k0_pay30 (k0_pay3 (View.ld x0 r0_0))))) (k0_pay164 (k0_pay32 (k0_pay3 (View.ld x0 r0_0)))) (k0_pay165 (k0_pay33 (k0_pay3 (View.ld x0 r0_0)))) (k0_pay166 (k0_pay34 (k0_pay3 (View.ld x0 r0_0)))) (k0_pay167 (k0_pay35 (k0_pay3 (View.ld x0 r0_0)))) (k0_pay168 (k0_pay36 (k0_pay3 (View.ld x0 r0_0)))) (k0_pay169 (k0_pay37 (k0_pay3 (View.ld x0 r0_0)))) (k0_pay170 (k0_pay38 (k0_pay3 (View.ld x0 r0_0)))) (k0_pay171 (k0_pay39 (k0_pay3 (View.ld x0 r0_0)))) (k0_pay172 (k0_pay41 (k0_pay3 (View.ld x0 r0_0)) (k0_pay40 (k0_pay3 (View.ld x0 r0_0))))) (k0_pay173 (k0_pay42 (k0_pay3 (View.ld x0 r0_0)))) (k0_pay174 (k0_pay43 (k0_pay3 (View.ld x0 r0_0)))) (k0_pay175 (k0_pay44 (k0_pay3 (View.ld x0 r0_0)))) (k0_pay176 (k0_pay45 (k0_pay3 (View.ld x0 r0_0)))) (k0_pay177 (k0_pay46 (k0_pay3 (View.ld x0 r0_0)))) (k0_pay178 (k0_pay47 (k0_pay3 (View.ld x0 r0_0)))) (k0_pay179 (k0_pay48 (k0_pay3 (View.ld x0 r0_0)))) (k0_pay180 (k0_pay50 (k0_pay49 (k0_pay3 (View.ld x0 r0_0))))) (k0_pay181 (k0_pay51 (k0_pay3 (View.ld x0 r0_0)))) (k0_pay182 (k0_pay52 (k0_pay3 (View.ld x0 r0_0)))) (k0_pay183 (k0_pay53 (k0_pay3 (View.ld x0 r0_0)))) (k0_pay184 (k0_pay54 (k0_pay3 (View.ld x0 r0_0)))) (k0_pay185 (k0_pay55 (k0_pay3 (View.ld x0 r0_0)))) (k0_pay186 (k0_pay56 (k0_pay3 (View.ld x0 r0_0)))) (k0_pay187 (k0_pay57 (k0_pay3 (View.ld x0 r0_0)))) (k0_pay188 (k0_pay58 (k0_pay3 (View.ld x0 r0_0)))) (k0_pay189 (k0_pay60 (k0_pay3 (View.ld x0 r0_0)) (k0_pay59 (k0_pay3 (View.ld x0 r0_0))))) (k0_pay190 (k0_pay61 (k0_pay3 (View.ld x0 r0_0)))) (k0_pay191 (k0_pay62 (k0_pay3 (View.ld x0 r0_0)))) (k0_pay192 (k0_pay63 (k0_pay3 (View.ld x0 r0_0)))) (k0_pay193 (k0_pay64 (k0_pay3 (View.ld x0 r0_0)))) (k0_pay194 (k0_pay65 (k0_pay3 (View.ld x0 r0_0)))) (k0_pay195 (k0_pay66 (k0_pay3 (View.ld x0 r0_0)))) (k0_pay196 (k0_pay67 (k0_pay3 (View.ld x0 r0_0)))) (k0_pay197 (k0_pay69 (k0_pay68 (k0_pay3 (View.ld x0 r0_0))))) (k0_pay198 (k0_pay70 (k0_pay3 (View.ld x0 r0_0)))) (k0_pay199 (k0_pay71 (k0_pay3 (View.ld x0 r0_0)))) (k0_pay200 (k0_pay72 (k0_pay3 (View.ld x0 r0_0)))) (k0_pay201 (k0_pay73 (k0_pay3 (View.ld x0 r0_0)))) (k0_pay202 (k0_pay74 (k0_pay3 (View.ld x0 r0_0)))) (k0_pay203 (k0_pay75 (k0_pay3 (View.ld x0 r0_0)))) (k0_pay204 (k0_pay76 (k0_pay3 (View.ld x0 r0_0)))) (k0_pay205 (k0_pay77 (k0_pay3 (View.ld x0 r0_0)))) (k0_pay206 (k0_pay80 (k0_pay78 (k0_pay3 (View.ld x0 r0_0))) (k0_pay79 (k0_pay3 (View.ld x0 r0_0))))) (k0_pay207 (k0_pay81 (k0_pay3 (View.ld x0 r0_0)))) (k0_pay208 (k0_pay82 (k0_pay3 (View.ld x0 r0_0)))) (k0_pay209 (k0_pay83 (k0_pay3 (View.ld x0 r0_0)))) (k0_pay210 (k0_pay84 (k0_pay3 (View.ld x0 r0_0)))) (k0_pay211 (k0_pay85 (k0_pay3 (View.ld x0 r0_0)))) (k0_pay212 (k0_pay86 (k0_pay3 (View.ld x0 r0_0)))) (k0_pay213 (k0_pay87 (k0_pay3 (View.ld x0 r0_0)))) (k0_pay214 (k0_pay88 (k0_pay3 (View.ld x0 r0_0)))) (k0_pay215 (k0_pay89 (k0_pay3 (View.ld x0 r0_0)))) (k0_pay216 (k0_pay90 (k0_pay3 (View.ld x0 r0_0)))) (k0_pay217 (k0_pay91 (k0_pay3 (View.ld x0 r0_0)))) (k0_pay218 (k0_pay92 (k0_pay3 (View.ld x0 r0_0)))) (k0_pay219 (k0_pay93 (k0_pay3 (View.ld x0 r0_0)))) (k0_pay220 (k0_pay94 (k0_pay3 (View.ld x0 r0_0)))) (k0_pay221 (k0_pay95 (k0_pay3 (View.ld x0 r0_0)))) (k0_pay222 (k0_pay96 (k0_pay3 (View.ld x0 r0_0)))) (k0_pay223 (k0_pay99 (k0_pay97 (k0_pay3 (View.ld x0 r0_0))) (k0_pay98 (k0_pay3 (View.ld x0 r0_0))))) (k0_pay224 (k0_pay100 (k0_pay3 (View.ld x0 r0_0)))) (k0_pay225 (k0_pay101 (k0_pay3 (View.ld x0 r0_0)))) (k0_pay226 (k0_pay102 (k0_pay3 (View.ld x0 r0_0)))) (k0_pay227 (k0_pay103 (k0_pay3 (View.ld x0 r0_0)))) (k0_pay228 (k0_pay104 (k0_pay3 (View.ld x0 r0_0)))) (k0_pay229 (k0_pay105 (k0_pay3 (View.ld x0 r0_0)))) (k0_pay230 (k0_pay106 (k0_pay3 (View.ld x0 r0_0)))) (k0_pay231 (k0_pay107 (k0_pay3 (View.ld x0 r0_0)))) (k0_pay232 (k0_pay109 (k0_pay3 (View.ld x0 r0_0)) (k0_pay108 (k0_pay3 (View.ld x0 r0_0))))) (k0_pay233 (k0_pay110 (k0_pay3 (View.ld x0 r0_0)))) (k0_pay234 (k0_pay111 (k0_pay3 (View.ld x0 r0_0)))) (k0_pay235 (k0_pay112 (k0_pay3 (View.ld x0 r0_0)))) (k0_pay236 (k0_pay113 (k0_pay3 (View.ld x0 r0_0)))) (k0_pay237 (k0_pay114 (k0_pay3 (View.ld x0 r0_0)))) (k0_pay238 (k0_pay115 (k0_pay3 (View.ld x0 r0_0)))) (k0_pay239 (k0_pay116 (k0_pay3 (View.ld x0 r0_0)))) (k0_pay240 (k0_pay118 (k0_pay117 (k0_pay3 (View.ld x0 r0_0))))) (k0_pay241 (k0_pay119 (k0_pay3 (View.ld x0 r0_0)))) (k0_pay242 (k0_pay120 (k0_pay3 (View.ld x0 r0_0)))) (k0_pay243 (k0_pay121 (k0_pay3 (View.ld x0 r0_0)))) (k0_pay244 (k0_pay122 (k0_pay3 (View.ld x0 r0_0))))

/-- The value the body stores is the perceptron over the feature block. -/
theorem out0_5_eq (x0 : Vec F S1024x16x128 .f32) (x1 : Vec F S120x128 .f32) (x2 : Vec F S128 .f32) (x3 : Vec F S128x128 .f32) (x4 : Vec F S128 .f32) :
    out0_5 x0 x1 x2 x3 x4 = View.canon [⟨r0_4, k0_pay2 (features x0) (View.ld x1 r0_1) (View.ld x2 r0_2) (View.ld x3 r0_3) (View.ld x4 r0_2)⟩] := rfl

end Cert.KernelIdeal.KTerm

end
-- ==== Proof.Spec.lean ====
/-
  The function both programs compute, one batch row at a time.

  A batch row is sixteen vectors `h k` of 128 numbers. Each is scaled to unit length (divided by the larger of its
  Euclidean norm and a small floor), the 120 inner products of the scaled vectors are taken over the pairs `k < l` in
  row-major order of the strict upper triangle (pair number `p` is `(first p, second p)`), and the 120 numbers pass
  through a two-layer perceptron: an affine map to 128 hidden units, the positive part, an affine map to 128 outputs.
  Everything is read on the extended reals with exact operations, so the order in which a sum is taken does not matter
  and the two programs need only agree on WHICH terms each sum has.
-/
import Idealize.ShloMosaic.PureOps.Ideal
import Idealize.ShloMosaic.Lib.ValueIdx

noncomputable section

open scoped BigOperators

namespace Cert.Spec

open Idealize.ShloMosaic Idealize.ShloMosaic.ValueIdx

/-- First member of pair number `p` of the strict upper triangle of a 16 × 16 matrix, rows first. -/
def first : Fin 120 → Fin 16 :=
  ![0, 0, 0, 0, 0, 0, 0, 0, 0, 0, 0, 0, 0, 0, 0, 1, 1, 1, 1, 1, 1, 1, 1, 1, 1, 1, 1, 1, 1, 2, 2, 2, 2, 2, 2, 2, 2, 2, 2, 2, 2, 2, 3, 3, 3, 3, 3, 3, 3, 3, 3, 3, 3, 3, 4, 4, 4, 4, 4, 4, 4, 4, 4, 4, 4, 5, 5, 5, 5, 5, 5, 5, 5, 5, 5, 6, 6, 6, 6, 6, 6, 6, 6, 6, 7, 7, 7, 7, 7, 7, 7, 7, 8, 8, 8, 8, 8, 8, 8, 9, 9, 9, 9, 9, 9, 10, 10, 10, 10, 10, 11, 11, 11, 11, 12, 12, 12, 13, 13, 14]

/-- Second member of pair number `p`. -/
def second : Fin 120 → Fin 16 :=
  ![1, 2, 3, 4, 5, 6, 7, 8, 9, 10, 11, 12, 13, 14, 15, 2, 3, 4, 5, 6, 7, 8, 9, 10, 11, 12, 13, 14, 15, 3, 4, 5, 6, 7, 8, 9, 10, 11, 12, 13, 14, 15, 4, 5, 6, 7, 8, 9, 10, 11, 12, 13, 14, 15, 5, 6, 7, 8, 9, 10, 11, 12, 13, 14, 15, 6, 7, 8, 9, 10, 11, 12, 13, 14, 15, 7, 8, 9, 10, 11, 12, 13, 14, 15, 8, 9, 10, 11, 12, 13, 14, 15, 9, 10, 11, 12, 13, 14, 15, 10, 11, 12, 13, 14, 15, 11, 12, 13, 14, 15, 12, 13, 14, 15, 13, 14, 15, 14, 15, 15]

/-- The floor under a norm: the single-precision number nearest 1e-12, the same word in both programs. -/
def floorNorm : EReal := Ideal.ofBits .f32 0x2B8CBCCC#32

/-- Vector `k` of the row scaled to unit length: each entry over the larger of the norm and the floor. -/
def unit (h : Fin 16 → Fin 128 → EReal) (k : Fin 16) (d : Fin 128) : EReal :=
  Ideal.div (h k d) (max (Ideal.sqrt (∑ e : Fin 128, h k e * h k e)) floorNorm)

/-- Feature `p`: the inner product of the two scaled vectors of pair `p`. -/
def feature (h : Fin 16 → Fin 128 → EReal) (p : Fin 120) : EReal :=
  ∑ d : Fin 128, unit h (first p) d * unit h (second p) d

/-- Hidden unit `c`: the positive part of the first affine map of the features. -/
def hidden (h : Fin 16 → Fin 128 → EReal) (W1 : Fin 120 → Fin 128 → EReal) (b1 : Fin 128 → EReal) (c : Fin 128) : EReal :=
  max ((∑ p : Fin 120, feature h p * W1 p c) + b1 c) 0

/-- Output `o` of the row: the second affine map of the hidden units. -/
def rowOut (h : Fin 16 → Fin 128 → EReal) (W1 : Fin 120 → Fin 128 → EReal) (b1 : Fin 128 → EReal)
    (W2 : Fin 128 → Fin 128 → EReal) (b2 : Fin 128 → EReal) (o : Fin 128) : EReal :=
  (∑ c : Fin 128, hidden h W1 b1 c * W2 c o) + b2 o

/-- The whole result for a batch of `B` rows: entry `(b, o)` is output `o` of row `b`. -/
def result {B : Nat} (H : (⟨3, ![B, 16, 128]⟩ : Shape).Idx → EReal) (W1 : (⟨2, ![120, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![B, 128]⟩ : Shape).Idx → EReal :=
  fun j => rowOut (fun k d => H (ix3 (j 0) k d)) (fun p c => W1 (ix2 p c)) (fun c => b1 (ix1 c))
    (fun c o => W2 (ix2 c o)) (fun o => b2 (ix1 o)) (j 1)

/-- A result entry depends on its own batch row only: the result of a batch restricted to rows `off + r` is the
    result of the restricted batch. -/
theorem result_rows {B B' : Nat} (H : (⟨3, ![B, 16, 128]⟩ : Shape).Idx → EReal) (H' : (⟨3, ![B', 16, 128]⟩ : Shape).Idx → EReal)
    (W1 : (⟨2, ![120, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (j : (⟨2, ![B, 128]⟩ : Shape).Idx) (j' : (⟨2, ![B', 128]⟩ : Shape).Idx) (ho : (j 1).val = (j' 1).val)
    (hrow : ∀ k d, H (ix3 (j 0) k d) = H' (ix3 (j' 0) k d)) :
    result H W1 b1 W2 b2 j = result H' W1 b1 W2 b2 j' := by
  unfold result
  have h1 : j 1 = j' 1 := Fin.ext ho
  rw [h1]
  exact congrArg (fun h => rowOut h _ _ _ _ (j' 1)) (funext fun k => funext fun d => hrow k d)

end Cert.Spec

end
-- ==== Proof.KernelInner.lean ====
/-
  The kernel's 120 inner-product vectors read at a batch row.

  The kernel scales the sixteen vectors of every row of its block to unit length (each entry over the larger of the
  vector's Euclidean norm and a small floor). Then, for each pair `i < j`, it cuts rows `i` and `j` out of the scaled
  block, multiplies them entry by entry and sums the products over the 128 lanes. Read at batch row `r` that is the
  inner product of the scaled vectors `i` and `j` of row `r`; and pair number `p` of the strict upper triangle, rows
  first, is `(first p, second p)`, so position `p` holds feature `p` of the row.

  The argument is four lemmas: a cut-out row read at an index; the lane sum of the product of two cut-out rows read
  at a batch row; the lane sum of the squares read at a vector; the scaled block read at an index. After them there is
  one instance per position, and the case list that collects the instances.
-/
import proofs.«172230_j20555713478745_1_alg».proof.Proof.KernelTerm
import proofs.«172230_j20555713478745_1_alg».proof.Proof.Spec
import Idealize.ShloMosaic.PureOps.Ideal.Laws
import Idealize.ShloMosaic.Lib.ValueIdx
import Idealize.ShloMosaic.Lib.Pipeline.Value

noncomputable section

namespace Cert.KernelIdeal.KInner

open Cert.KernelIdeal Cert.KernelIdeal.Gen Idealize.ShloMosaic Idealize.ShloMosaic.ValueIdx
open scoped BigOperators

/-- Row `i` of a block, cut out as a [1024, 1, 128] slice and cast to [1024, 128], read at `(r, d)`: the block at
    `(r, i, d)`. -/
theorem rowSlice_apply (v8 : FVec Ideal S1024x16x128 .f32) (i : Fin 16)
    (h1 : S1024x16x128.Slices ![0, i.val, 0] S1024x1x128) (hc : S1024x1x128.ShapeCasts S1024x128)
    (r : Fin 1024) (d : Fin 128) :
    shapeCast S1024x128 (extractStridedSlice S1024x1x128 ![0, i.val, 0] v8 h1) hc (ix2 r d) = v8 (ix3 r i d) := by
  refine (shapeCast_apply _ hc (ix2 r d) (ix3 r (0 : Fin 1) d) ?_).trans ?_
  · rw [Shape.rowMajor_val_three, Shape.rowMajor_val_two]
    show (r.val * 1 + 0) * 128 + d.val = r.val * 128 + d.val
    omega
  · refine extractStridedSlice_apply _ v8 h1 (ix3 r (0 : Fin 1) d) (ix3 r i d) ?_
    intro a
    match a with
    | ⟨0, _⟩ => show r.val = 0 + r.val; omega
    | ⟨1, _⟩ => show i.val = i.val + 0; omega
    | ⟨2, _⟩ => show d.val = 0 + d.val; omega

/-- The lane sum of the product of rows `i` and `j` of a block, read at `r`: the inner product of the two rows. -/
theorem pair_apply (v8 : FVec Ideal S1024x16x128 .f32) (i j : Fin 16)
    (h1 : S1024x16x128.Slices ![0, i.val, 0] S1024x1x128) (h2 : S1024x16x128.Slices ![0, j.val, 0] S1024x1x128)
    (hc1 hc2 : S1024x1x128.ShapeCasts S1024x128) (hr : S1024x128.Reduces [1] S1024)
    (hφ : FKind.Formats .f32) (hacc : (0x00000000#32 : BitVec 32) = FKind.add.neutral .f32 hφ) (r : Fin 1024) :
    multiReduction (F := Ideal) .add [1] S1024
        (mulf (shapeCast S1024x128 (extractStridedSlice S1024x1x128 ![0, i.val, 0] v8 h1) hc1)
          (shapeCast S1024x128 (extractStridedSlice S1024x1x128 ![0, j.val, 0] v8 h2) hc2))
        0x00000000#32 hr hφ hacc (ix1 r)
      = ∑ d : Fin 128, v8 (ix3 r i d) * v8 (ix3 r j d) := by
  refine (Ideal.multiReduction_add_single _ _ hr hφ hacc (ix1 r)).trans ?_
  show ∑ d : Fin 128, _ = _
  refine Finset.sum_congr rfl fun d _ => ?_
  have hl : hr.lift (ix1 r) d = ix2 r d := by
    funext a; refine Fin.ext ?_
    match a with
    | ⟨0, _⟩ => rfl
    | ⟨1, _⟩ => rfl
  rw [hl, mulf_apply, rowSlice_apply v8 i h1 hc1 r d, rowSlice_apply v8 j h2 hc2 r d]

/-- The whole-block load is the block. -/
theorem ld_whole (x0 : Vec Ideal S1024x16x128 .f32) : View.ld x0 r0_0 = x0 :=
  View.ld_unit_zero (by funext a; match a with | ⟨0, _⟩ => rfl | ⟨1, _⟩ => rfl | ⟨2, _⟩ => rfl) _ x0

/-- The lane sum of the squares of a block, read at `(r, k)`: the squared norm of vector `k` of row `r`. -/
theorem sumsq_apply (v0 : FVec Ideal S1024x16x128 .f32) (hr : S1024x16x128.Reduces [2] S1024x16)
    (hφ : FKind.Formats .f32) (hacc : (0x00000000#32 : BitVec 32) = FKind.add.neutral .f32 hφ) (r : Fin 1024) (k : Fin 16) :
    multiReduction (F := Ideal) .add [2] S1024x16 (mulf v0 v0) 0x00000000#32 hr hφ hacc (ix2 r k)
      = ∑ e : Fin 128, v0 (ix3 r k e) * v0 (ix3 r k e) := by
  refine (Ideal.multiReduction_add_single _ _ hr hφ hacc (ix2 r k)).trans ?_
  show ∑ e : Fin 128, _ = _
  refine Finset.sum_congr rfl fun e _ => ?_
  have hl : hr.lift (ix2 r k) e = ix3 r k e := by
    funext a; refine Fin.ext ?_
    match a with
    | ⟨0, _⟩ => rfl
    | ⟨1, _⟩ => rfl
    | ⟨2, _⟩ => rfl
  rw [hl, mulf_apply]

/-- The normalised block at `(r, k, d)`: entry `d` of vector `k` of row `r` over the larger of that vector's norm and the floor. -/
theorem unit_apply (v0 : FVec Ideal S1024x16x128 .f32) (r : Fin 1024) (k : Fin 16) (d : Fin 128) :
    k0_pay3 (F := Ideal) v0 (ix3 r k d) = Cert.Spec.unit (fun k d => v0 (ix3 r k d)) k d := by
  unfold k0_pay3 Cert.Spec.unit
  rw [divf_apply]
  refine congrArg (Ideal.div (v0 (ix3 r k d))) ?_
  refine (broadcastTo_apply _ broadcasts_S1024x16x1_S1024x16x128 (ix3 r k d) (ix3 r k (0 : Fin 1)) ?_).trans ?_
  · intro a
    match a with
    | ⟨0, _⟩ => rfl
    | ⟨1, _⟩ => rfl
    | ⟨2, _⟩ => rfl
  rw [maximumf_apply]
  refine congrArg₂ max ?_ rfl
  show Ideal.sqrt (shapeCast S1024x16x1 _ shapeCasts_S1024x16_S1024x16x1 (ix3 r k (0 : Fin 1))) = _
  refine congrArg Ideal.sqrt ?_
  refine (shapeCast_apply _ shapeCasts_S1024x16_S1024x16x1 (ix3 r k (0 : Fin 1)) (ix2 r k) ?_).trans ?_
  · rw [Shape.rowMajor_val_two, Shape.rowMajor_val_three]
    show r.val * 16 + k.val = (r.val * 16 + k.val) * 1 + 0
    omega
  exact sumsq_apply v0 _ _ _ r k

/-- The inner product of the scaled vectors `i` and `j` of row `r` of a block. -/
def pairOf (x0 : Vec Ideal S1024x16x128 .f32) (r : Fin 1024) (i j : Fin 16) : EReal :=
  ∑ d : Fin 128, Cert.Spec.unit (fun k d => x0 (ix3 r k d)) i d * Cert.Spec.unit (fun k d => x0 (ix3 r k d)) j d

/-- Each of the sixteen rows is a slice of the block. -/
theorem slices_row : ∀ i : Fin 16, S1024x16x128.Slices ![0, i.val, 0] S1024x1x128 := by decide

/-- The lane sum of the product of rows `i` and `j` of the normalised whole block, read at `r`: the inner product of
    the scaled vectors `i` and `j` of row `r`. -/
theorem pair_unit_apply (x0 : Vec Ideal S1024x16x128 .f32) (i j : Fin 16) (r : Fin 1024) :
    multiReduction (F := Ideal) .add [1] S1024
        (mulf (shapeCast S1024x128 (extractStridedSlice S1024x1x128 ![0, i.val, 0] (k0_pay3 (View.ld x0 r0_0)) (slices_row i))
            shapeCasts_S1024x1x128_S1024x128)
          (shapeCast S1024x128 (extractStridedSlice S1024x1x128 ![0, j.val, 0] (k0_pay3 (View.ld x0 r0_0)) (slices_row j))
            shapeCasts_S1024x1x128_S1024x128))
        0x00000000#32 reduces_S1024x128_S1024 (.inl rfl) rfl (ix1 r)
      = pairOf x0 r i j := by
  rw [ld_whole]
  refine (pair_apply _ i j _ _ _ _ _ _ _ r).trans ?_
  refine Finset.sum_congr rfl fun d _ => ?_
  rw [unit_apply, unit_apply]

/-! ### The 120 positions, one lemma each (a table) -/

/-- Position 0 holds the inner product of the scaled vectors 0 and 1. -/
theorem iv0 (x0 : Vec Ideal S1024x16x128 .f32) (r : Fin 1024) : KTerm.innerVec0 x0 (ix1 r) = pairOf x0 r 0 1 :=
  pair_unit_apply x0 0 1 r
/-- Position 1 holds the inner product of the scaled vectors 0 and 2. -/
theorem iv1 (x0 : Vec Ideal S1024x16x128 .f32) (r : Fin 1024) : KTerm.innerVec1 x0 (ix1 r) = pairOf x0 r 0 2 :=
  pair_unit_apply x0 0 2 r
/-- Position 2 holds the inner product of the scaled vectors 0 and 3. -/
theorem iv2 (x0 : Vec Ideal S1024x16x128 .f32) (r : Fin 1024) : KTerm.innerVec2 x0 (ix1 r) = pairOf x0 r 0 3 :=
  pair_unit_apply x0 0 3 r
/-- Position 3 holds the inner product of the scaled vectors 0 and 4. -/
theorem iv3 (x0 : Vec Ideal S1024x16x128 .f32) (r : Fin 1024) : KTerm.innerVec3 x0 (ix1 r) = pairOf x0 r 0 4 :=
  pair_unit_apply x0 0 4 r
/-- Position 4 holds the inner product of the scaled vectors 0 and 5. -/
theorem iv4 (x0 : Vec Ideal S1024x16x128 .f32) (r : Fin 1024) : KTerm.innerVec4 x0 (ix1 r) = pairOf x0 r 0 5 :=
  pair_unit_apply x0 0 5 r
/-- Position 5 holds the inner product of the scaled vectors 0 and 6. -/
theorem iv5 (x0 : Vec Ideal S1024x16x128 .f32) (r : Fin 1024) : KTerm.innerVec5 x0 (ix1 r) = pairOf x0 r 0 6 :=
  pair_unit_apply x0 0 6 r
/-- Position 6 holds the inner product of the scaled vectors 0 and 7. -/
theorem iv6 (x0 : Vec Ideal S1024x16x128 .f32) (r : Fin 1024) : KTerm.innerVec6 x0 (ix1 r) = pairOf x0 r 0 7 :=
  pair_unit_apply x0 0 7 r
/-- Position 7 holds the inner product of the scaled vectors 0 and 8. -/
theorem iv7 (x0 : Vec Ideal S1024x16x128 .f32) (r : Fin 1024) : KTerm.innerVec7 x0 (ix1 r) = pairOf x0 r 0 8 :=
  pair_unit_apply x0 0 8 r
/-- Position 8 holds the inner product of the scaled vectors 0 and 9. -/
theorem iv8 (x0 : Vec Ideal S1024x16x128 .f32) (r : Fin 1024) : KTerm.innerVec8 x0 (ix1 r) = pairOf x0 r 0 9 :=
  pair_unit_apply x0 0 9 r
/-- Position 9 holds the inner product of the scaled vectors 0 and 10. -/
theorem iv9 (x0 : Vec Ideal S1024x16x128 .f32) (r : Fin 1024) : KTerm.innerVec9 x0 (ix1 r) = pairOf x0 r 0 10 :=
  pair_unit_apply x0 0 10 r
/-- Position 10 holds the inner product of the scaled vectors 0 and 11. -/
theorem iv10 (x0 : Vec Ideal S1024x16x128 .f32) (r : Fin 1024) : KTerm.innerVec10 x0 (ix1 r) = pairOf x0 r 0 11 :=
  pair_unit_apply x0 0 11 r
/-- Position 11 holds the inner product of the scaled vectors 0 and 12. -/
theorem iv11 (x0 : Vec Ideal S1024x16x128 .f32) (r : Fin 1024) : KTerm.innerVec11 x0 (ix1 r) = pairOf x0 r 0 12 :=
  pair_unit_apply x0 0 12 r
/-- Position 12 holds the inner product of the scaled vectors 0 and 13. -/
theorem iv12 (x0 : Vec Ideal S1024x16x128 .f32) (r : Fin 1024) : KTerm.innerVec12 x0 (ix1 r) = pairOf x0 r 0 13 :=
  pair_unit_apply x0 0 13 r
/-- Position 13 holds the inner product of the scaled vectors 0 and 14. -/
theorem iv13 (x0 : Vec Ideal S1024x16x128 .f32) (r : Fin 1024) : KTerm.innerVec13 x0 (ix1 r) = pairOf x0 r 0 14 :=
  pair_unit_apply x0 0 14 r
/-- Position 14 holds the inner product of the scaled vectors 0 and 15. -/
theorem iv14 (x0 : Vec Ideal S1024x16x128 .f32) (r : Fin 1024) : KTerm.innerVec14 x0 (ix1 r) = pairOf x0 r 0 15 :=
  pair_unit_apply x0 0 15 r
/-- Position 15 holds the inner product of the scaled vectors 1 and 2. -/
theorem iv15 (x0 : Vec Ideal S1024x16x128 .f32) (r : Fin 1024) : KTerm.innerVec15 x0 (ix1 r) = pairOf x0 r 1 2 :=
  pair_unit_apply x0 1 2 r
/-- Position 16 holds the inner product of the scaled vectors 1 and 3. -/
theorem iv16 (x0 : Vec Ideal S1024x16x128 .f32) (r : Fin 1024) : KTerm.innerVec16 x0 (ix1 r) = pairOf x0 r 1 3 :=
  pair_unit_apply x0 1 3 r
/-- Position 17 holds the inner product of the scaled vectors 1 and 4. -/
theorem iv17 (x0 : Vec Ideal S1024x16x128 .f32) (r : Fin 1024) : KTerm.innerVec17 x0 (ix1 r) = pairOf x0 r 1 4 :=
  pair_unit_apply x0 1 4 r
/-- Position 18 holds the inner product of the scaled vectors 1 and 5. -/
theorem iv18 (x0 : Vec Ideal S1024x16x128 .f32) (r : Fin 1024) : KTerm.innerVec18 x0 (ix1 r) = pairOf x0 r 1 5 :=
  pair_unit_apply x0 1 5 r
/-- Position 19 holds the inner product of the scaled vectors 1 and 6. -/
theorem iv19 (x0 : Vec Ideal S1024x16x128 .f32) (r : Fin 1024) : KTerm.innerVec19 x0 (ix1 r) = pairOf x0 r 1 6 :=
  pair_unit_apply x0 1 6 r
/-- Position 20 holds the inner product of the scaled vectors 1 and 7. -/
theorem iv20 (x0 : Vec Ideal S1024x16x128 .f32) (r : Fin 1024) : KTerm.innerVec20 x0 (ix1 r) = pairOf x0 r 1 7 :=
  pair_unit_apply x0 1 7 r
/-- Position 21 holds the inner product of the scaled vectors 1 and 8. -/
theorem iv21 (x0 : Vec Ideal S1024x16x128 .f32) (r : Fin 1024) : KTerm.innerVec21 x0 (ix1 r) = pairOf x0 r 1 8 :=
  pair_unit_apply x0 1 8 r
/-- Position 22 holds the inner product of the scaled vectors 1 and 9. -/
theorem iv22 (x0 : Vec Ideal S1024x16x128 .f32) (r : Fin 1024) : KTerm.innerVec22 x0 (ix1 r) = pairOf x0 r 1 9 :=
  pair_unit_apply x0 1 9 r
/-- Position 23 holds the inner product of the scaled vectors 1 and 10. -/
theorem iv23 (x0 : Vec Ideal S1024x16x128 .f32) (r : Fin 1024) : KTerm.innerVec23 x0 (ix1 r) = pairOf x0 r 1 10 :=
  pair_unit_apply x0 1 10 r
/-- Position 24 holds the inner product of the scaled vectors 1 and 11. -/
theorem iv24 (x0 : Vec Ideal S1024x16x128 .f32) (r : Fin 1024) : KTerm.innerVec24 x0 (ix1 r) = pairOf x0 r 1 11 :=
  pair_unit_apply x0 1 11 r
/-- Position 25 holds the inner product of the scaled vectors 1 and 12. -/
theorem iv25 (x0 : Vec Ideal S1024x16x128 .f32) (r : Fin 1024) : KTerm.innerVec25 x0 (ix1 r) = pairOf x0 r 1 12 :=
  pair_unit_apply x0 1 12 r
/-- Position 26 holds the inner product of the scaled vectors 1 and 13. -/
theorem iv26 (x0 : Vec Ideal S1024x16x128 .f32) (r : Fin 1024) : KTerm.innerVec26 x0 (ix1 r) = pairOf x0 r 1 13 :=
  pair_unit_apply x0 1 13 r
/-- Position 27 holds the inner product of the scaled vectors 1 and 14. -/
theorem iv27 (x0 : Vec Ideal S1024x16x128 .f32) (r : Fin 1024) : KTerm.innerVec27 x0 (ix1 r) = pairOf x0 r 1 14 :=
  pair_unit_apply x0 1 14 r
/-- Position 28 holds the inner product of the scaled vectors 1 and 15. -/
theorem iv28 (x0 : Vec Ideal S1024x16x128 .f32) (r : Fin 1024) : KTerm.innerVec28 x0 (ix1 r) = pairOf x0 r 1 15 :=
  pair_unit_apply x0 1 15 r
/-- Position 29 holds the inner product of the scaled vectors 2 and 3. -/
theorem iv29 (x0 : Vec Ideal S1024x16x128 .f32) (r : Fin 1024) : KTerm.innerVec29 x0 (ix1 r) = pairOf x0 r 2 3 :=
  pair_unit_apply x0 2 3 r
/-- Position 30 holds the inner product of the scaled vectors 2 and 4. -/
theorem iv30 (x0 : Vec Ideal S1024x16x128 .f32) (r : Fin 1024) : KTerm.innerVec30 x0 (ix1 r) = pairOf x0 r 2 4 :=
  pair_unit_apply x0 2 4 r
/-- Position 31 holds the inner product of the scaled vectors 2 and 5. -/
theorem iv31 (x0 : Vec Ideal S1024x16x128 .f32) (r : Fin 1024) : KTerm.innerVec31 x0 (ix1 r) = pairOf x0 r 2 5 :=
  pair_unit_apply x0 2 5 r
/-- Position 32 holds the inner product of the scaled vectors 2 and 6. -/
theorem iv32 (x0 : Vec Ideal S1024x16x128 .f32) (r : Fin 1024) : KTerm.innerVec32 x0 (ix1 r) = pairOf x0 r 2 6 :=
  pair_unit_apply x0 2 6 r
/-- Position 33 holds the inner product of the scaled vectors 2 and 7. -/
theorem iv33 (x0 : Vec Ideal S1024x16x128 .f32) (r : Fin 1024) : KTerm.innerVec33 x0 (ix1 r) = pairOf x0 r 2 7 :=
  pair_unit_apply x0 2 7 r
/-- Position 34 holds the inner product of the scaled vectors 2 and 8. -/
theorem iv34 (x0 : Vec Ideal S1024x16x128 .f32) (r : Fin 1024) : KTerm.innerVec34 x0 (ix1 r) = pairOf x0 r 2 8 :=
  pair_unit_apply x0 2 8 r
/-- Position 35 holds the inner product of the scaled vectors 2 and 9. -/
theorem iv35 (x0 : Vec Ideal S1024x16x128 .f32) (r : Fin 1024) : KTerm.innerVec35 x0 (ix1 r) = pairOf x0 r 2 9 :=
  pair_unit_apply x0 2 9 r
/-- Position 36 holds the inner product of the scaled vectors 2 and 10. -/
theorem iv36 (x0 : Vec Ideal S1024x16x128 .f32) (r : Fin 1024) : KTerm.innerVec36 x0 (ix1 r) = pairOf x0 r 2 10 :=
  pair_unit_apply x0 2 10 r
/-- Position 37 holds the inner product of the scaled vectors 2 and 11. -/
theorem iv37 (x0 : Vec Ideal S1024x16x128 .f32) (r : Fin 1024) : KTerm.innerVec37 x0 (ix1 r) = pairOf x0 r 2 11 :=
  pair_unit_apply x0 2 11 r
/-- Position 38 holds the inner product of the scaled vectors 2 and 12. -/
theorem iv38 (x0 : Vec Ideal S1024x16x128 .f32) (r : Fin 1024) : KTerm.innerVec38 x0 (ix1 r) = pairOf x0 r 2 12 :=
  pair_unit_apply x0 2 12 r
/-- Position 39 holds the inner product of the scaled vectors 2 and 13. -/
theorem iv39 (x0 : Vec Ideal S1024x16x128 .f32) (r : Fin 1024) : KTerm.innerVec39 x0 (ix1 r) = pairOf x0 r 2 13 :=
  pair_unit_apply x0 2 13 r
/-- Position 40 holds the inner product of the scaled vectors 2 and 14. -/
theorem iv40 (x0 : Vec Ideal S1024x16x128 .f32) (r : Fin 1024) : KTerm.innerVec40 x0 (ix1 r) = pairOf x0 r 2 14 :=
  pair_unit_apply x0 2 14 r
/-- Position 41 holds the inner product of the scaled vectors 2 and 15. -/
theorem iv41 (x0 : Vec Ideal S1024x16x128 .f32) (r : Fin 1024) : KTerm.innerVec41 x0 (ix1 r) = pairOf x0 r 2 15 :=
  pair_unit_apply x0 2 15 r
/-- Position 42 holds the inner product of the scaled vectors 3 and 4. -/
theorem iv42 (x0 : Vec Ideal S1024x16x128 .f32) (r : Fin 1024) : KTerm.innerVec42 x0 (ix1 r) = pairOf x0 r 3 4 :=
  pair_unit_apply x0 3 4 r
/-- Position 43 holds the inner product of the scaled vectors 3 and 5. -/
theorem iv43 (x0 : Vec Ideal S1024x16x128 .f32) (r : Fin 1024) : KTerm.innerVec43 x0 (ix1 r) = pairOf x0 r 3 5 :=
  pair_unit_apply x0 3 5 r
/-- Position 44 holds the inner product of the scaled vectors 3 and 6. -/
theorem iv44 (x0 : Vec Ideal S1024x16x128 .f32) (r : Fin 1024) : KTerm.innerVec44 x0 (ix1 r) = pairOf x0 r 3 6 :=
  pair_unit_apply x0 3 6 r
/-- Position 45 holds the inner product of the scaled vectors 3 and 7. -/
theorem iv45 (x0 : Vec Ideal S1024x16x128 .f32) (r : Fin 1024) : KTerm.innerVec45 x0 (ix1 r) = pairOf x0 r 3 7 :=
  pair_unit_apply x0 3 7 r
/-- Position 46 holds the inner product of the scaled vectors 3 and 8. -/
theorem iv46 (x0 : Vec Ideal S1024x16x128 .f32) (r : Fin 1024) : KTerm.innerVec46 x0 (ix1 r) = pairOf x0 r 3 8 :=
  pair_unit_apply x0 3 8 r
/-- Position 47 holds the inner product of the scaled vectors 3 and 9. -/
theorem iv47 (x0 : Vec Ideal S1024x16x128 .f32) (r : Fin 1024) : KTerm.innerVec47 x0 (ix1 r) = pairOf x0 r 3 9 :=
  pair_unit_apply x0 3 9 r
/-- Position 48 holds the inner product of the scaled vectors 3 and 10. -/
theorem iv48 (x0 : Vec Ideal S1024x16x128 .f32) (r : Fin 1024) : KTerm.innerVec48 x0 (ix1 r) = pairOf x0 r 3 10 :=
  pair_unit_apply x0 3 10 r
/-- Position 49 holds the inner product of the scaled vectors 3 and 11. -/
theorem iv49 (x0 : Vec Ideal S1024x16x128 .f32) (r : Fin 1024) : KTerm.innerVec49 x0 (ix1 r) = pairOf x0 r 3 11 :=
  pair_unit_apply x0 3 11 r
/-- Position 50 holds the inner product of the scaled vectors 3 and 12. -/
theorem iv50 (x0 : Vec Ideal S1024x16x128 .f32) (r : Fin 1024) : KTerm.innerVec50 x0 (ix1 r) = pairOf x0 r 3 12 :=
  pair_unit_apply x0 3 12 r
/-- Position 51 holds the inner product of the scaled vectors 3 and 13. -/
theorem iv51 (x0 : Vec Ideal S1024x16x128 .f32) (r : Fin 1024) : KTerm.innerVec51 x0 (ix1 r) = pairOf x0 r 3 13 :=
  pair_unit_apply x0 3 13 r
/-- Position 52 holds the inner product of the scaled vectors 3 and 14. -/
theorem iv52 (x0 : Vec Ideal S1024x16x128 .f32) (r : Fin 1024) : KTerm.innerVec52 x0 (ix1 r) = pairOf x0 r 3 14 :=
  pair_unit_apply x0 3 14 r
/-- Position 53 holds the inner product of the scaled vectors 3 and 15. -/
theorem iv53 (x0 : Vec Ideal S1024x16x128 .f32) (r : Fin 1024) : KTerm.innerVec53 x0 (ix1 r) = pairOf x0 r 3 15 :=
  pair_unit_apply x0 3 15 r
/-- Position 54 holds the inner product of the scaled vectors 4 and 5. -/
theorem iv54 (x0 : Vec Ideal S1024x16x128 .f32) (r : Fin 1024) : KTerm.innerVec54 x0 (ix1 r) = pairOf x0 r 4 5 :=
  pair_unit_apply x0 4 5 r
/-- Position 55 holds the inner product of the scaled vectors 4 and 6. -/
theorem iv55 (x0 : Vec Ideal S1024x16x128 .f32) (r : Fin 1024) : KTerm.innerVec55 x0 (ix1 r) = pairOf x0 r 4 6 :=
  pair_unit_apply x0 4 6 r
/-- Position 56 holds the inner product of the scaled vectors 4 and 7. -/
theorem iv56 (x0 : Vec Ideal S1024x16x128 .f32) (r : Fin 1024) : KTerm.innerVec56 x0 (ix1 r) = pairOf x0 r 4 7 :=
  pair_unit_apply x0 4 7 r
/-- Position 57 holds the inner product of the scaled vectors 4 and 8. -/
theorem iv57 (x0 : Vec Ideal S1024x16x128 .f32) (r : Fin 1024) : KTerm.innerVec57 x0 (ix1 r) = pairOf x0 r 4 8 :=
  pair_unit_apply x0 4 8 r
/-- Position 58 holds the inner product of the scaled vectors 4 and 9. -/
theorem iv58 (x0 : Vec Ideal S1024x16x128 .f32) (r : Fin 1024) : KTerm.innerVec58 x0 (ix1 r) = pairOf x0 r 4 9 :=
  pair_unit_apply x0 4 9 r
/-- Position 59 holds the inner product of the scaled vectors 4 and 10. -/
theorem iv59 (x0 : Vec Ideal S1024x16x128 .f32) (r : Fin 1024) : KTerm.innerVec59 x0 (ix1 r) = pairOf x0 r 4 10 :=
  pair_unit_apply x0 4 10 r
/-- Position 60 holds the inner product of the scaled vectors 4 and 11. -/
theorem iv60 (x0 : Vec Ideal S1024x16x128 .f32) (r : Fin 1024) : KTerm.innerVec60 x0 (ix1 r) = pairOf x0 r 4 11 :=
  pair_unit_apply x0 4 11 r
/-- Position 61 holds the inner product of the scaled vectors 4 and 12. -/
theorem iv61 (x0 : Vec Ideal S1024x16x128 .f32) (r : Fin 1024) : KTerm.innerVec61 x0 (ix1 r) = pairOf x0 r 4 12 :=
  pair_unit_apply x0 4 12 r
/-- Position 62 holds the inner product of the scaled vectors 4 and 13. -/
theorem iv62 (x0 : Vec Ideal S1024x16x128 .f32) (r : Fin 1024) : KTerm.innerVec62 x0 (ix1 r) = pairOf x0 r 4 13 :=
  pair_unit_apply x0 4 13 r
/-- Position 63 holds the inner product of the scaled vectors 4 and 14. -/
theorem iv63 (x0 : Vec Ideal S1024x16x128 .f32) (r : Fin 1024) : KTerm.innerVec63 x0 (ix1 r) = pairOf x0 r 4 14 :=
  pair_unit_apply x0 4 14 r
/-- Position 64 holds the inner product of the scaled vectors 4 and 15. -/
theorem iv64 (x0 : Vec Ideal S1024x16x128 .f32) (r : Fin 1024) : KTerm.innerVec64 x0 (ix1 r) = pairOf x0 r 4 15 :=
  pair_unit_apply x0 4 15 r
/-- Position 65 holds the inner product of the scaled vectors 5 and 6. -/
theorem iv65 (x0 : Vec Ideal S1024x16x128 .f32) (r : Fin 1024) : KTerm.innerVec65 x0 (ix1 r) = pairOf x0 r 5 6 :=
  pair_unit_apply x0 5 6 r
/-- Position 66 holds the inner product of the scaled vectors 5 and 7. -/
theorem iv66 (x0 : Vec Ideal S1024x16x128 .f32) (r : Fin 1024) : KTerm.innerVec66 x0 (ix1 r) = pairOf x0 r 5 7 :=
  pair_unit_apply x0 5 7 r
/-- Position 67 holds the inner product of the scaled vectors 5 and 8. -/
theorem iv67 (x0 : Vec Ideal S1024x16x128 .f32) (r : Fin 1024) : KTerm.innerVec67 x0 (ix1 r) = pairOf x0 r 5 8 :=
  pair_unit_apply x0 5 8 r
/-- Position 68 holds the inner product of the scaled vectors 5 and 9. -/
theorem iv68 (x0 : Vec Ideal S1024x16x128 .f32) (r : Fin 1024) : KTerm.innerVec68 x0 (ix1 r) = pairOf x0 r 5 9 :=
  pair_unit_apply x0 5 9 r
/-- Position 69 holds the inner product of the scaled vectors 5 and 10. -/
theorem iv69 (x0 : Vec Ideal S1024x16x128 .f32) (r : Fin 1024) : KTerm.innerVec69 x0 (ix1 r) = pairOf x0 r 5 10 :=
  pair_unit_apply x0 5 10 r
/-- Position 70 holds the inner product of the scaled vectors 5 and 11. -/
theorem iv70 (x0 : Vec Ideal S1024x16x128 .f32) (r : Fin 1024) : KTerm.innerVec70 x0 (ix1 r) = pairOf x0 r 5 11 :=
  pair_unit_apply x0 5 11 r
/-- Position 71 holds the inner product of the scaled vectors 5 and 12. -/
theorem iv71 (x0 : Vec Ideal S1024x16x128 .f32) (r : Fin 1024) : KTerm.innerVec71 x0 (ix1 r) = pairOf x0 r 5 12 :=
  pair_unit_apply x0 5 12 r
/-- Position 72 holds the inner product of the scaled vectors 5 and 13. -/
theorem iv72 (x0 : Vec Ideal S1024x16x128 .f32) (r : Fin 1024) : KTerm.innerVec72 x0 (ix1 r) = pairOf x0 r 5 13 :=
  pair_unit_apply x0 5 13 r
/-- Position 73 holds the inner product of the scaled vectors 5 and 14. -/
theorem iv73 (x0 : Vec Ideal S1024x16x128 .f32) (r : Fin 1024) : KTerm.innerVec73 x0 (ix1 r) = pairOf x0 r 5 14 :=
  pair_unit_apply x0 5 14 r
/-- Position 74 holds the inner product of the scaled vectors 5 and 15. -/
theorem iv74 (x0 : Vec Ideal S1024x16x128 .f32) (r : Fin 1024) : KTerm.innerVec74 x0 (ix1 r) = pairOf x0 r 5 15 :=
  pair_unit_apply x0 5 15 r
/-- Position 75 holds the inner product of the scaled vectors 6 and 7. -/
theorem iv75 (x0 : Vec Ideal S1024x16x128 .f32) (r : Fin 1024) : KTerm.innerVec75 x0 (ix1 r) = pairOf x0 r 6 7 :=
  pair_unit_apply x0 6 7 r
/-- Position 76 holds the inner product of the scaled vectors 6 and 8. -/
theorem iv76 (x0 : Vec Ideal S1024x16x128 .f32) (r : Fin 1024) : KTerm.innerVec76 x0 (ix1 r) = pairOf x0 r 6 8 :=
  pair_unit_apply x0 6 8 r
/-- Position 77 holds the inner product of the scaled vectors 6 and 9. -/
theorem iv77 (x0 : Vec Ideal S1024x16x128 .f32) (r : Fin 1024) : KTerm.innerVec77 x0 (ix1 r) = pairOf x0 r 6 9 :=
  pair_unit_apply x0 6 9 r
/-- Position 78 holds the inner product of the scaled vectors 6 and 10. -/
theorem iv78 (x0 : Vec Ideal S1024x16x128 .f32) (r : Fin 1024) : KTerm.innerVec78 x0 (ix1 r) = pairOf x0 r 6 10 :=
  pair_unit_apply x0 6 10 r
/-- Position 79 holds the inner product of the scaled vectors 6 and 11. -/
theorem iv79 (x0 : Vec Ideal S1024x16x128 .f32) (r : Fin 1024) : KTerm.innerVec79 x0 (ix1 r) = pairOf x0 r 6 11 :=
  pair_unit_apply x0 6 11 r
/-- Position 80 holds the inner product of the scaled vectors 6 and 12. -/
theorem iv80 (x0 : Vec Ideal S1024x16x128 .f32) (r : Fin 1024) : KTerm.innerVec80 x0 (ix1 r) = pairOf x0 r 6 12 :=
  pair_unit_apply x0 6 12 r
/-- Position 81 holds the inner product of the scaled vectors 6 and 13. -/
theorem iv81 (x0 : Vec Ideal S1024x16x128 .f32) (r : Fin 1024) : KTerm.innerVec81 x0 (ix1 r) = pairOf x0 r 6 13 :=
  pair_unit_apply x0 6 13 r
/-- Position 82 holds the inner product of the scaled vectors 6 and 14. -/
theorem iv82 (x0 : Vec Ideal S1024x16x128 .f32) (r : Fin 1024) : KTerm.innerVec82 x0 (ix1 r) = pairOf x0 r 6 14 :=
  pair_unit_apply x0 6 14 r
/-- Position 83 holds the inner product of the scaled vectors 6 and 15. -/
theorem iv83 (x0 : Vec Ideal S1024x16x128 .f32) (r : Fin 1024) : KTerm.innerVec83 x0 (ix1 r) = pairOf x0 r 6 15 :=
  pair_unit_apply x0 6 15 r
/-- Position 84 holds the inner product of the scaled vectors 7 and 8. -/
theorem iv84 (x0 : Vec Ideal S1024x16x128 .f32) (r : Fin 1024) : KTerm.innerVec84 x0 (ix1 r) = pairOf x0 r 7 8 :=
  pair_unit_apply x0 7 8 r
/-- Position 85 holds the inner product of the scaled vectors 7 and 9. -/
theorem iv85 (x0 : Vec Ideal S1024x16x128 .f32) (r : Fin 1024) : KTerm.innerVec85 x0 (ix1 r) = pairOf x0 r 7 9 :=
  pair_unit_apply x0 7 9 r
/-- Position 86 holds the inner product of the scaled vectors 7 and 10. -/
theorem iv86 (x0 : Vec Ideal S1024x16x128 .f32) (r : Fin 1024) : KTerm.innerVec86 x0 (ix1 r) = pairOf x0 r 7 10 :=
  pair_unit_apply x0 7 10 r
/-- Position 87 holds the inner product of the scaled vectors 7 and 11. -/
theorem iv87 (x0 : Vec Ideal S1024x16x128 .f32) (r : Fin 1024) : KTerm.innerVec87 x0 (ix1 r) = pairOf x0 r 7 11 :=
  pair_unit_apply x0 7 11 r
/-- Position 88 holds the inner product of the scaled vectors 7 and 12. -/
theorem iv88 (x0 : Vec Ideal S1024x16x128 .f32) (r : Fin 1024) : KTerm.innerVec88 x0 (ix1 r) = pairOf x0 r 7 12 :=
  pair_unit_apply x0 7 12 r
/-- Position 89 holds the inner product of the scaled vectors 7 and 13. -/
theorem iv89 (x0 : Vec Ideal S1024x16x128 .f32) (r : Fin 1024) : KTerm.innerVec89 x0 (ix1 r) = pairOf x0 r 7 13 :=
  pair_unit_apply x0 7 13 r
/-- Position 90 holds the inner product of the scaled vectors 7 and 14. -/
theorem iv90 (x0 : Vec Ideal S1024x16x128 .f32) (r : Fin 1024) : KTerm.innerVec90 x0 (ix1 r) = pairOf x0 r 7 14 :=
  pair_unit_apply x0 7 14 r
/-- Position 91 holds the inner product of the scaled vectors 7 and 15. -/
theorem iv91 (x0 : Vec Ideal S1024x16x128 .f32) (r : Fin 1024) : KTerm.innerVec91 x0 (ix1 r) = pairOf x0 r 7 15 :=
  pair_unit_apply x0 7 15 r
/-- Position 92 holds the inner product of the scaled vectors 8 and 9. -/
theorem iv92 (x0 : Vec Ideal S1024x16x128 .f32) (r : Fin 1024) : KTerm.innerVec92 x0 (ix1 r) = pairOf x0 r 8 9 :=
  pair_unit_apply x0 8 9 r
/-- Position 93 holds the inner product of the scaled vectors 8 and 10. -/
theorem iv93 (x0 : Vec Ideal S1024x16x128 .f32) (r : Fin 1024) : KTerm.innerVec93 x0 (ix1 r) = pairOf x0 r 8 10 :=
  pair_unit_apply x0 8 10 r
/-- Position 94 holds the inner product of the scaled vectors 8 and 11. -/
theorem iv94 (x0 : Vec Ideal S1024x16x128 .f32) (r : Fin 1024) : KTerm.innerVec94 x0 (ix1 r) = pairOf x0 r 8 11 :=
  pair_unit_apply x0 8 11 r
/-- Position 95 holds the inner product of the scaled vectors 8 and 12. -/
theorem iv95 (x0 : Vec Ideal S1024x16x128 .f32) (r : Fin 1024) : KTerm.innerVec95 x0 (ix1 r) = pairOf x0 r 8 12 :=
  pair_unit_apply x0 8 12 r
/-- Position 96 holds the inner product of the scaled vectors 8 and 13. -/
theorem iv96 (x0 : Vec Ideal S1024x16x128 .f32) (r : Fin 1024) : KTerm.innerVec96 x0 (ix1 r) = pairOf x0 r 8 13 :=
  pair_unit_apply x0 8 13 r
/-- Position 97 holds the inner product of the scaled vectors 8 and 14. -/
theorem iv97 (x0 : Vec Ideal S1024x16x128 .f32) (r : Fin 1024) : KTerm.innerVec97 x0 (ix1 r) = pairOf x0 r 8 14 :=
  pair_unit_apply x0 8 14 r
/-- Position 98 holds the inner product of the scaled vectors 8 and 15. -/
theorem iv98 (x0 : Vec Ideal S1024x16x128 .f32) (r : Fin 1024) : KTerm.innerVec98 x0 (ix1 r) = pairOf x0 r 8 15 :=
  pair_unit_apply x0 8 15 r
/-- Position 99 holds the inner product of the scaled vectors 9 and 10. -/
theorem iv99 (x0 : Vec Ideal S1024x16x128 .f32) (r : Fin 1024) : KTerm.innerVec99 x0 (ix1 r) = pairOf x0 r 9 10 :=
  pair_unit_apply x0 9 10 r
/-- Position 100 holds the inner product of the scaled vectors 9 and 11. -/
theorem iv100 (x0 : Vec Ideal S1024x16x128 .f32) (r : Fin 1024) : KTerm.innerVec100 x0 (ix1 r) = pairOf x0 r 9 11 :=
  pair_unit_apply x0 9 11 r
/-- Position 101 holds the inner product of the scaled vectors 9 and 12. -/
theorem iv101 (x0 : Vec Ideal S1024x16x128 .f32) (r : Fin 1024) : KTerm.innerVec101 x0 (ix1 r) = pairOf x0 r 9 12 :=
  pair_unit_apply x0 9 12 r
/-- Position 102 holds the inner product of the scaled vectors 9 and 13. -/
theorem iv102 (x0 : Vec Ideal S1024x16x128 .f32) (r : Fin 1024) : KTerm.innerVec102 x0 (ix1 r) = pairOf x0 r 9 13 :=
  pair_unit_apply x0 9 13 r
/-- Position 103 holds the inner product of the scaled vectors 9 and 14. -/
theorem iv103 (x0 : Vec Ideal S1024x16x128 .f32) (r : Fin 1024) : KTerm.innerVec103 x0 (ix1 r) = pairOf x0 r 9 14 :=
  pair_unit_apply x0 9 14 r
/-- Position 104 holds the inner product of the scaled vectors 9 and 15. -/
theorem iv104 (x0 : Vec Ideal S1024x16x128 .f32) (r : Fin 1024) : KTerm.innerVec104 x0 (ix1 r) = pairOf x0 r 9 15 :=
  pair_unit_apply x0 9 15 r
/-- Position 105 holds the inner product of the scaled vectors 10 and 11. -/
theorem iv105 (x0 : Vec Ideal S1024x16x128 .f32) (r : Fin 1024) : KTerm.innerVec105 x0 (ix1 r) = pairOf x0 r 10 11 :=
  pair_unit_apply x0 10 11 r
/-- Position 106 holds the inner product of the scaled vectors 10 and 12. -/
theorem iv106 (x0 : Vec Ideal S1024x16x128 .f32) (r : Fin 1024) : KTerm.innerVec106 x0 (ix1 r) = pairOf x0 r 10 12 :=
  pair_unit_apply x0 10 12 r
/-- Position 107 holds the inner product of the scaled vectors 10 and 13. -/
theorem iv107 (x0 : Vec Ideal S1024x16x128 .f32) (r : Fin 1024) : KTerm.innerVec107 x0 (ix1 r) = pairOf x0 r 10 13 :=
  pair_unit_apply x0 10 13 r
/-- Position 108 holds the inner product of the scaled vectors 10 and 14. -/
theorem iv108 (x0 : Vec Ideal S1024x16x128 .f32) (r : Fin 1024) : KTerm.innerVec108 x0 (ix1 r) = pairOf x0 r 10 14 :=
  pair_unit_apply x0 10 14 r
/-- Position 109 holds the inner product of the scaled vectors 10 and 15. -/
theorem iv109 (x0 : Vec Ideal S1024x16x128 .f32) (r : Fin 1024) : KTerm.innerVec109 x0 (ix1 r) = pairOf x0 r 10 15 :=
  pair_unit_apply x0 10 15 r
/-- Position 110 holds the inner product of the scaled vectors 11 and 12. -/
theorem iv110 (x0 : Vec Ideal S1024x16x128 .f32) (r : Fin 1024) : KTerm.innerVec110 x0 (ix1 r) = pairOf x0 r 11 12 :=
  pair_unit_apply x0 11 12 r
/-- Position 111 holds the inner product of the scaled vectors 11 and 13. -/
theorem iv111 (x0 : Vec Ideal S1024x16x128 .f32) (r : Fin 1024) : KTerm.innerVec111 x0 (ix1 r) = pairOf x0 r 11 13 :=
  pair_unit_apply x0 11 13 r
/-- Position 112 holds the inner product of the scaled vectors 11 and 14. -/
theorem iv112 (x0 : Vec Ideal S1024x16x128 .f32) (r : Fin 1024) : KTerm.innerVec112 x0 (ix1 r) = pairOf x0 r 11 14 :=
  pair_unit_apply x0 11 14 r
/-- Position 113 holds the inner product of the scaled vectors 11 and 15. -/
theorem iv113 (x0 : Vec Ideal S1024x16x128 .f32) (r : Fin 1024) : KTerm.innerVec113 x0 (ix1 r) = pairOf x0 r 11 15 :=
  pair_unit_apply x0 11 15 r
/-- Position 114 holds the inner product of the scaled vectors 12 and 13. -/
theorem iv114 (x0 : Vec Ideal S1024x16x128 .f32) (r : Fin 1024) : KTerm.innerVec114 x0 (ix1 r) = pairOf x0 r 12 13 :=
  pair_unit_apply x0 12 13 r
/-- Position 115 holds the inner product of the scaled vectors 12 and 14. -/
theorem iv115 (x0 : Vec Ideal S1024x16x128 .f32) (r : Fin 1024) : KTerm.innerVec115 x0 (ix1 r) = pairOf x0 r 12 14 :=
  pair_unit_apply x0 12 14 r
/-- Position 116 holds the inner product of the scaled vectors 12 and 15. -/
theorem iv116 (x0 : Vec Ideal S1024x16x128 .f32) (r : Fin 1024) : KTerm.innerVec116 x0 (ix1 r) = pairOf x0 r 12 15 :=
  pair_unit_apply x0 12 15 r
/-- Position 117 holds the inner product of the scaled vectors 13 and 14. -/
theorem iv117 (x0 : Vec Ideal S1024x16x128 .f32) (r : Fin 1024) : KTerm.innerVec117 x0 (ix1 r) = pairOf x0 r 13 14 :=
  pair_unit_apply x0 13 14 r
/-- Position 118 holds the inner product of the scaled vectors 13 and 15. -/
theorem iv118 (x0 : Vec Ideal S1024x16x128 .f32) (r : Fin 1024) : KTerm.innerVec118 x0 (ix1 r) = pairOf x0 r 13 15 :=
  pair_unit_apply x0 13 15 r
/-- Position 119 holds the inner product of the scaled vectors 14 and 15. -/
theorem iv119 (x0 : Vec Ideal S1024x16x128 .f32) (r : Fin 1024) : KTerm.innerVec119 x0 (ix1 r) = pairOf x0 r 14 15 :=
  pair_unit_apply x0 14 15 r

/-- Every position holds the inner product of the scaled vectors of its pair. -/
theorem iv_all (x0 : Vec Ideal S1024x16x128 .f32) (r : Fin 1024) (p : Fin 120) :
    KTerm.innerVec x0 p (ix1 r) = pairOf x0 r (Cert.Spec.first p) (Cert.Spec.second p) := by
  fin_cases p
  · exact iv0 x0 r
  · exact iv1 x0 r
  · exact iv2 x0 r
  · exact iv3 x0 r
  · exact iv4 x0 r
  · exact iv5 x0 r
  · exact iv6 x0 r
  · exact iv7 x0 r
  · exact iv8 x0 r
  · exact iv9 x0 r
  · exact iv10 x0 r
  · exact iv11 x0 r
  · exact iv12 x0 r
  · exact iv13 x0 r
  · exact iv14 x0 r
  · exact iv15 x0 r
  · exact iv16 x0 r
  · exact iv17 x0 r
  · exact iv18 x0 r
  · exact iv19 x0 r
  · exact iv20 x0 r
  · exact iv21 x0 r
  · exact iv22 x0 r
  · exact iv23 x0 r
  · exact iv24 x0 r
  · exact iv25 x0 r
  · exact iv26 x0 r
  · exact iv27 x0 r
  · exact iv28 x0 r
  · exact iv29 x0 r
  · exact iv30 x0 r
  · exact iv31 x0 r
  · exact iv32 x0 r
  · exact iv33 x0 r
  · exact iv34 x0 r
  · exact iv35 x0 r
  · exact iv36 x0 r
  · exact iv37 x0 r
  · exact iv38 x0 r
  · exact iv39 x0 r
  · exact iv40 x0 r
  · exact iv41 x0 r
  · exact iv42 x0 r
  · exact iv43 x0 r
  · exact iv44 x0 r
  · exact iv45 x0 r
  · exact iv46 x0 r
  · exact iv47 x0 r
  · exact iv48 x0 r
  · exact iv49 x0 r
  · exact iv50 x0 r
  · exact iv51 x0 r
  · exact iv52 x0 r
  · exact iv53 x0 r
  · exact iv54 x0 r
  · exact iv55 x0 r
  · exact iv56 x0 r
  · exact iv57 x0 r
  · exact iv58 x0 r
  · exact iv59 x0 r
  · exact iv60 x0 r
  · exact iv61 x0 r
  · exact iv62 x0 r
  · exact iv63 x0 r
  · exact iv64 x0 r
  · exact iv65 x0 r
  · exact iv66 x0 r
  · exact iv67 x0 r
  · exact iv68 x0 r
  · exact iv69 x0 r
  · exact iv70 x0 r
  · exact iv71 x0 r
  · exact iv72 x0 r
  · exact iv73 x0 r
  · exact iv74 x0 r
  · exact iv75 x0 r
  · exact iv76 x0 r
  · exact iv77 x0 r
  · exact iv78 x0 r
  · exact iv79 x0 r
  · exact iv80 x0 r
  · exact iv81 x0 r
  · exact iv82 x0 r
  · exact iv83 x0 r
  · exact iv84 x0 r
  · exact iv85 x0 r
  · exact iv86 x0 r
  · exact iv87 x0 r
  · exact iv88 x0 r
  · exact iv89 x0 r
  · exact iv90 x0 r
  · exact iv91 x0 r
  · exact iv92 x0 r
  · exact iv93 x0 r
  · exact iv94 x0 r
  · exact iv95 x0 r
  · exact iv96 x0 r
  · exact iv97 x0 r
  · exact iv98 x0 r
  · exact iv99 x0 r
  · exact iv100 x0 r
  · exact iv101 x0 r
  · exact iv102 x0 r
  · exact iv103 x0 r
  · exact iv104 x0 r
  · exact iv105 x0 r
  · exact iv106 x0 r
  · exact iv107 x0 r
  · exact iv108 x0 r
  · exact iv109 x0 r
  · exact iv110 x0 r
  · exact iv111 x0 r
  · exact iv112 x0 r
  · exact iv113 x0 r
  · exact iv114 x0 r
  · exact iv115 x0 r
  · exact iv116 x0 r
  · exact iv117 x0 r
  · exact iv118 x0 r
  · exact iv119 x0 r

/-! ### End of the table -/

/-- Position `p` of the kernel's table of inner-product vectors, read at batch row `r`, is feature `p` of that row:
    a feature is by definition the inner product of the scaled vectors of its pair. -/
theorem innerVec_apply (x0 : Vec Ideal S1024x16x128 .f32) (p : Fin 120) (r : Fin 1024) :
    KTerm.innerVec x0 p (ix1 r) = Cert.Spec.feature (fun k d => x0 (ix3 r k d)) p :=
  iv_all x0 r p

end Cert.KernelIdeal.KInner

end
-- ==== Proof.KernelConcat.lean ====
import proofs.«172230_j20555713478745_1_alg».proof.Proof.KernelTerm
import Idealize.ShloMosaic.Lib.ValueIdx
import Idealize.ShloMosaic.Lib.Pipeline.Value

/-! The feature block read at an index.

The feature block is the concatenation, along axis 1, of 120 columns of shape [1024, 1]; column number `p` is the
inner-product vector at position `p` (shape [1024]) with a unit axis added behind. Every column has extent 1 on the
axis, so the entry at row `r` and column `p` lies in piece number `p`, at row `r` and column 0 of that piece, and
the shape cast [1024] → [1024, 1] keeps the row-major position: that entry is entry `r` of the vector at position `p`. -/

noncomputable section

namespace Cert.KernelIdeal.KConcat

open Cert.KernelIdeal Cert.KernelIdeal.Gen Idealize.ShloMosaic Idealize.ShloMosaic.ValueIdx

variable {F : FTy → Type} [FloatOps F]

/-- The piece list of a table `w` of 120 vectors: piece `n` is the vector `w n` as a column of shape [1024, 1]. -/
abbrev cols (w : Fin 120 → FVec F S1024 .f32) : List ((s : Shape) × (s.Idx → F .f32)) :=
  List.ofFn fun n : Fin 120 => (⟨S1024x1, shapeCast S1024x1 (w n) shapeCasts_S1024_S1024x1⟩ : (s : Shape) × (s.Idx → F .f32))

/-- The columns of any table of 120 vectors laid side by side, read at row `r` and column `p`: entry `r` of vector
    `p`. The axis coordinate `p` names the piece (all extents along the axis are 1, so the extents before piece `p`
    add up to `p`); inside the piece the index is `(r, 0)`, whose row-major position `r * 1 + 0` is the position `r`
    of the index `(r)` in the vector before the cast. -/
theorem cols_apply (w : Fin 120 → FVec F S1024 .f32)
    (h : Shape.Concatenates ((cols w).map (·.1)) S1024x120 1) (r : Fin 1024) (p : Fin 120) :
    concatenate S1024x120 1 (cols w) h (ix2 r p) = w p (ix1 r) := by
  refine (concatenate_ofFn_unit_apply (t := S1024x120) (s₁ := S1024x1) 1
    (fun n => shapeCast S1024x1 (w n) shapeCasts_S1024_S1024x1) h rfl rfl (ix2 r p) p rfl (ix2 r (0 : Fin 1)) ?_).trans ?_
  · -- off the axis (axis 0) the piece index has the same coordinate, `r`
    intro b hb
    match b, hb with
    | ⟨0, _⟩, _ => rfl
    | ⟨1, _⟩, hb => exact absurd rfl hb
  · -- the cast [1024] → [1024, 1] at (r, 0) is the vector at (r): both have row-major position r
    refine shapeCast_apply (w p) shapeCasts_S1024_S1024x1 (ix2 r 0) (ix1 r) ?_
    rw [Shape.rowMajor_val_one, Shape.rowMajor_val_two]
    show r.val = r.val * 1 + 0
    omega

/-- The feature block is the concatenation of the columns of the table of inner-product vectors: the 120 pieces of
    the stored term, in order, are the columns of positions 0 to 119. -/
theorem features_eq_cols (x0 : Vec F S1024x16x128 .f32) :
    KTerm.features x0 = concatenate S1024x120 1 (cols (KTerm.innerVec x0))
      concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x120_d1 := rfl

theorem features_apply (x0 : Vec F S1024x16x128 .f32) (r : Fin 1024) (p : Fin 120) :
    KTerm.features x0 (ix2 r p) = KTerm.innerVec x0 p (ix1 r) :=
  (congrFun (features_eq_cols x0) (ix2 r p)).trans (cols_apply (KTerm.innerVec x0) _ r p)

end Cert.KernelIdeal.KConcat

end
-- ==== Proof.KernelPay.lean ====
import proofs.«172230_j20555713478745_1_alg».proof.Proof.KernelInner
import proofs.«172230_j20555713478745_1_alg».proof.Proof.KernelConcat
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

/-
  The value the kernel body stores is the specification of its input blocks.

  The stored block is a two-layer perceptron over the feature block: entry (r, o) is
    (∑ c, max ((∑ p, features (r, p) · W1 (p, c)) + b1 c) 0 · W2 (c, o)) + b2 o.
  Each matrix product accumulates into a zero block, so at an entry it is the plain sum over the contracted
  coordinate; each bias is a vector laid under every row; the positive part is a maximum with the zero word. Entry
  (r, p) of the feature block is feature p of row r of the batch block, so the whole sum is the specification's
  output o of row r, term by term, with no rearrangement of any sum.
-/

noncomputable section

namespace Cert.KernelIdeal.KPay

open Cert.KernelIdeal Cert.KernelIdeal.Gen Idealize.ShloMosaic Idealize.ShloMosaic.ValueIdx
open scoped BigOperators

/-! ## Whole-block rectangles: their offsets are zero on every axis -/

/-- The offsets of a whole rank-2 block. -/
theorem zeros2 : (![0, 0] : Fin 2 → Nat) = fun _ => 0 :=
  funext fun a => match a with | ⟨0, _⟩ => rfl | ⟨1, _⟩ => rfl

/-- The offsets of a whole rank-1 block. -/
theorem zeros1 : (![0] : Fin 1 → Nat) = fun _ => 0 :=
  funext fun a => match a with | ⟨0, _⟩ => rfl

/-! ## The two matrix products

Both contract the left operand's columns with the right operand's rows and have no batch axis: they are the plain
product of an m × k by a k × n matrix. -/

/-- The first product's dimension numbers are those of the plain 1024 × 120 by 120 × 128 product. -/
theorem dot1_plain : dot_S1024x120_S120x128_S1024x128_1_0_0_1_n_n = DotDims.plain 1024 120 128 := rfl

/-- The second product's dimension numbers are those of the plain 1024 × 128 by 128 × 128 product. -/
theorem dot2_plain : dot_S1024x128_S128x128_S1024x128_1_0_0_1_n_n = DotDims.plain 1024 128 128 := rfl

/-- The first product into a zero block, at entry (r, o): row r of the left operand against column o of the right. -/
theorem matmul1_apply (c : FVec Ideal S1024x120 .f32) (w : Vec Ideal S120x128 .f32) (r : Fin 1024) (o : Fin 128) :
    matmul (F := Ideal) (φ₂ := .f32) dot_S1024x120_S120x128_S1024x128_1_0_0_1_n_n none c w
        (constant S1024x128 .f32 0x00000000#32) (ix2 r o)
      = ∑ p : Fin 120, c (ix2 r p) * w (ix2 p o) := by
  rw [matmul_zero_eq_dotGeneral, dot1_plain]
  exact StackMember.dotGeneral_plain_apply none c w r o

/-- The second product into a zero block, at entry (r, o). -/
theorem matmul2_apply (h : FVec Ideal S1024x128 .f32) (w : Vec Ideal S128x128 .f32) (r : Fin 1024) (o : Fin 128) :
    matmul (F := Ideal) (φ₂ := .f32) dot_S1024x128_S128x128_S1024x128_1_0_0_1_n_n none h w
        (constant S1024x128 .f32 0x00000000#32) (ix2 r o)
      = ∑ c : Fin 128, h (ix2 r c) * w (ix2 c o) := by
  rw [matmul_zero_eq_dotGeneral, dot2_plain]
  exact StackMember.dotGeneral_plain_apply none h w r o

/-! ## A bias: a vector of 128 entries laid under each of the 1024 rows -/

/-- Entry (r, o) of the bias block is entry o of the vector: the broadcast reads row 0 of the one-row matrix, whose
    entry o is the vector's. -/
theorem bias_apply (b : Vec Ideal S128 .f32) (r : Fin 1024) (o : Fin 128) :
    broadcastTo S1024x128 (shapeCast S1x128 b shapeCasts_S128_S1x128) broadcasts_S1x128_S1024x128 (ix2 r o)
      = b (ix1 o) := by
  refine (broadcastTo_apply _ broadcasts_S1x128_S1024x128 (ix2 r o) (ix2 (0 : Fin 1) o) ?_).trans
    (shapeCast_a_1a_apply b shapeCasts_S128_S1x128 0 o)
  intro a
  match a with
  | ⟨0, _⟩ => rfl
  | ⟨1, _⟩ => rfl

/-! ## The perceptron at an entry -/

/-- Entry (r, o) of the stored block over any feature block `f`: the second affine map of the positive parts of the
    first affine map of row r of `f`. The zero the positive part is taken against is the zero word, the extended
    real 0. -/
theorem pay_apply (f : FVec Ideal S1024x120 .f32) (w1 : Vec Ideal S120x128 .f32) (b1 : Vec Ideal S128 .f32)
    (w2 : Vec Ideal S128x128 .f32) (b2 : Vec Ideal S128 .f32) (r : Fin 1024) (o : Fin 128) :
    k0_pay2 (F := Ideal) f w1 b1 w2 b2 (ix2 r o)
      = (∑ c : Fin 128, max ((∑ p : Fin 120, f (ix2 r p) * w1 (ix2 p c)) + b1 (ix1 c)) 0 * w2 (ix2 c o))
          + b2 (ix1 o) := by
  unfold k0_pay2
  rw [addf_apply, matmul2_apply, bias_apply]
  refine congrArg (· + b2 (ix1 o)) (Finset.sum_congr rfl fun c _ => ?_)
  rw [maximumf_apply, addf_apply, matmul1_apply, bias_apply, broadcast_apply]
  show max _ (Ideal.ofBits .f32 0x00000000#32) * _ = _
  rw [Ideal.ofBits_zero_f32]

/-! ## The stored block is the specification -/

theorem out_apply (x0 : Vec Ideal S1024x16x128 .f32) (x1 : Vec Ideal S120x128 .f32) (x2 : Vec Ideal S128 .f32)
    (x3 : Vec Ideal S128x128 .f32) (x4 : Vec Ideal S128 .f32) :
    out0_5 (F := Ideal) x0 x1 x2 x3 x4 = Cert.Spec.result (B := 1024) x0 x1 x2 x3 x4 := by
  -- one store over the whole output block leaves its payload; a load of a whole block reads the block
  rw [KTerm.out0_5_eq, View.canon_unit_zero zeros2]
  simp only [View.ld_unit_zero (S := S120x128) zeros2, View.ld_unit_zero (S := S128) zeros1,
    View.ld_unit_zero (S := S128x128) zeros2]
  funext j
  obtain ⟨r, o, rfl⟩ : ∃ (r : Fin 1024) (o : Fin 128), j = ix2 r o := ⟨j 0, j 1, eq_ix2 j⟩
  refine (pay_apply (KTerm.features x0) x1 x2 x3 x4 r o).trans ?_
  -- the specification's output o of row r is the same sum of sums; only the features remain to be identified
  unfold Cert.Spec.result Cert.Spec.rowOut Cert.Spec.hidden
  show _ = (∑ c : Fin 128, max ((∑ p : Fin 120, Cert.Spec.feature (fun k d => x0 (ix3 r k d)) p * x1 (ix2 p c))
    + x2 (ix1 c)) 0 * x3 (ix2 c o)) + x4 (ix1 o)
  refine congrArg (· + x4 (ix1 o)) (Finset.sum_congr rfl fun c _ => ?_)
  refine congrArg (fun s => max (s + x2 (ix1 c)) 0 * x3 (ix2 c o)) (Finset.sum_congr rfl fun p _ => ?_)
  -- entry (r, p) of the feature block is inner-product vector p at r, which is feature p of row r
  exact congrArg (· * x1 (ix2 p c)) ((KConcat.features_apply x0 r p).trans (KInner.innerVec_apply x0 p r))

end Cert.KernelIdeal.KPay

end
-- ==== Proof.KernelValue.lean ====
/-
  From the blocks to the array: the kernel's result array after the run.

  The grid has 64 points; point `t` reads rows `1024 t … 1024 t + 1023` of the batch (all sixteen vectors of each, whole)
  and the four parameter arrays whole, and writes back rows `1024 t … 1024 t + 1023` of the result. What it writes is the
  specification's result of its own block of rows, and a result row depends on its own batch row only, so block `t` of the
  written data is block `t` of the specification's result of the whole batch; the 64 blocks tile the result array.
-/
import proofs.«172230_j20555713478745_1_alg».proof.Proof.Gen.KernelIdeal.Value
import proofs.«172230_j20555713478745_1_alg».proof.Proof.KernelPay
import proofs.«172230_j20555713478745_1_alg».proof.Proof.Spec

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Two results agree at two entries when the entries' batch rows agree, the parameters agree entry by entry, and the output
    coordinates are the same number. -/
theorem result_congr {B B' : Nat} (H : (⟨3, ![B, 16, 128]⟩ : Shape).Idx → EReal) (H' : (⟨3, ![B', 16, 128]⟩ : Shape).Idx → EReal)
    (W1 W1' : (⟨2, ![120, 128]⟩ : Shape).Idx → EReal) (b1 b1' : (⟨1, ![128]⟩ : Shape).Idx → EReal)
    (W2 W2' : (⟨2, ![128, 128]⟩ : Shape).Idx → EReal) (b2 b2' : (⟨1, ![128]⟩ : Shape).Idx → EReal)
    (r : Fin B) (r' : Fin B') (o : Fin 128)
    (hrow : ∀ k d, H (ix3 r k d) = H' (ix3 r' k d)) (hW1 : W1 = W1') (hb1 : b1 = b1') (hW2 : W2 = W2') (hb2 : b2 = b2') :
    Cert.Spec.result H W1 b1 W2 b2 (ix2 r o) = Cert.Spec.result H' W1' b1' W2' b2' (ix2 r' o) := by
  subst hW1 hb1 hW2 hb2
  unfold Cert.Spec.result
  exact congrArg (fun h => Cert.Spec.rowOut h _ _ _ _ o) (funext fun k => funext fun d => hrow k d)

/-- The printed index maps over the grid: the batch window and the result window move together along the rows, every other
    coordinate of every window's block index is zero. -/
theorem idx_facts : ∀ t : Fin cfg0.N, win0_0.index t (0 : Fin 3) = win0_5.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 63 :=
  (by decide +kernel : ∀ t : Fin grid0.N, _)

/-- Every block of rows is some point's. -/
theorem idx_onto : ∀ q : Fin 64, ∃ t : Fin cfg0.N, win0_5.index t = ![q.val, 0] :=
  (by decide +kernel : ∀ q : Fin 64, ∃ t : Fin grid0.N, win0_5.index t = ![q.val, 0])

/-- The specification's result of the argument arrays as the region finds them. -/
abbrev whole (c : Dev nD) : S65536x128.Idx → Elt Ideal .f32 :=
  Cert.Spec.result (B := 65536) (V m c main_arg0) (V m c main_arg1) (V m c main_arg2) (V m c main_arg3) (V m c main_arg4)

/-- The batch window's block at point `t`, at row `r` of the block: row `1024 · (block index) + r` of the batch. -/
theorem batch_block (c : Dev nD) (t : Fin cfg0.N) (r : Fin 1024) (g : Fin 65536) (hg : g.val = win0_5.index t (0 : Fin 2) * 1024 + r.val)
    (k : Fin 16) (d : Fin 128) :
    iblk m c 0 t (ix3 r k d) = V m c main_arg0 (ix3 g k d) := by
  obtain ⟨e0, e1, e2, -⟩ := idx_facts t
  show V m c main_arg0 (((cfg0.win 0).blk t).view.emb (ix3 r k d)) = V m c main_arg0 (ix3 g k d)
  refine congrArg (V m c main_arg0) (funext fun a => Fin.ext ?_)
  match a with
  | ⟨0, _⟩ => show win0_0.index t (0 : Fin 3) * 1024 + 1 * r.val = g.val; omega
  | ⟨1, _⟩ => show win0_0.index t (1 : Fin 3) * 16 + 1 * k.val = k.val; omega
  | ⟨2, _⟩ => show win0_0.index t (2 : Fin 3) * 128 + 1 * d.val = d.val; omega

/-- The first weight window's one block is the whole array. -/
theorem w1_block (c : Dev nD) (t : Fin cfg0.N) : (iblk m c 1 t : S120x128.Idx → Elt Ideal .f32) = V m c main_arg1 := by
  obtain ⟨-, -, -, e3, e4, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 120 + 1 * (y 0).val = (y 0).val; omega
  | ⟨1, _⟩ => show win0_1.index t (1 : Fin 2) * 128 + 1 * (y 1).val = (y 1).val; omega

/-- The first bias window's one block is the whole array. -/
theorem b1_block (c : Dev nD) (t : Fin cfg0.N) : (iblk m c 2 t : S128.Idx → Elt Ideal .f32) = V m c main_arg2 := by
  obtain ⟨-, -, -, -, -, e5, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 128 + 1 * (y 0).val = (y 0).val; omega

/-- The second weight window's one block is the whole array. -/
theorem w2_block (c : Dev nD) (t : Fin cfg0.N) : (iblk m c 3 t : S128x128.Idx → Elt Ideal .f32) = V m c main_arg3 := by
  obtain ⟨-, -, -, -, -, -, e6, e7, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias window's one block is the whole array. -/
theorem b2_block (c : Dev nD) (t : Fin cfg0.N) : (iblk m c 4 t : S128.Idx → Elt Ideal .f32) = V m c main_arg4 := by
  obtain ⟨-, -, -, -, -, -, -, -, e8, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 128 + 1 * (y 0).val = (y 0).val; omega

/-- What point `t` writes back is block `t` of the specification's result of the whole arrays. -/
theorem flushed_eq (c : Dev nD) (t : Fin cfg0.N) :
    (dats m 0 c).flushed 5 t = ((cfg0.win 5).blk t).view.read (Elt Ideal) (whole m c) := by
  rw [Cert.KernelIdeal.Value.flushed5,
    Cert.KernelIdeal.KPay.out_apply (iblk m c 0 t) (iblk m c 1 t) (iblk m c 2 t) (iblk m c 3 t) (iblk m c 4 t)]
  obtain ⟨-, -, -, -, -, -, -, -, -, e9, e10⟩ := idx_facts t
  funext j
  obtain ⟨r, o, rfl⟩ : ∃ (r : Fin 1024) (o : Fin 128), j = ix2 r o := ⟨j 0, j 1, eq_ix2 j⟩
  have hg : win0_5.index t (0 : Fin 2) * 1024 + r.val < 65536 := by have := r.isLt; omega
  have hemb : ((cfg0.win 5).blk t).view.emb (ix2 r o) = ix2 (⟨win0_5.index t (0 : Fin 2) * 1024 + r.val, hg⟩ : Fin 65536) o := by
    funext a; apply Fin.ext
    match a with
    | ⟨0, _⟩ => show win0_5.index t (0 : Fin 2) * 1024 + 1 * r.val = win0_5.index t (0 : Fin 2) * 1024 + r.val; omega
    | ⟨1, _⟩ => show win0_5.index t (1 : Fin 2) * 128 + 1 * o.val = o.val; omega
  show Cert.Spec.result (B := 1024) (iblk m c 0 t) (iblk m c 1 t) (iblk m c 2 t) (iblk m c 3 t) (iblk m c 4 t) (ix2 r o)
    = whole m c (((cfg0.win 5).blk t).view.emb (ix2 r o))
  rw [hemb]
  exact result_congr _ _ _ _ _ _ _ _ _ _ r _ o (fun k d => batch_block m c t r _ rfl k d)
    (w1_block m c t) (b1_block m c t) (w2_block m c t) (b2_block m c t)

/-- An index of the result array is in point `t`'s block iff each coordinate is in the block's range on its axis. -/
theorem mem_blk (t : Fin cfg0.N) (i : S65536x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0).slice (win0_5.rect t)).set ↔ _
  rw [View.set_slice_whole, Rect.mem_set_unit]
  exact Iff.rfl

/-- The 64 blocks of rows tile the result array. -/
theorem cover (i : S65536x128.Idx) : ∃ t : Fin cfg0.N, (cfg0.win 5).flush t = true ∧ i ∈ ((cfg0.win 5).blk t).view.set := by
  have hi0 : (i 0).val < 65536 := (i 0).isLt
  have hi1 : (i 1).val < 128 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The result array after the run is the specification's result of the argument arrays. -/
theorem final (c : Dev nD) : (dats m 0 c).arrAt 5 cfg0.N = whole m c :=
  (dats m 0 c).arrAt_eq_of_cover 5 (whole m c) (fun t _ => flushed_eq m c t) (cover)

/-- The kernel's run: every weakly fair execution ends with the result array at the specification's result of the argument
    arrays as launched, and the arguments unchanged. -/
theorem run : θ_run defs (onTc (τ := τ) (main (F := Ideal))) ⟨m, fun _ => 0, ρ⟩ fun r => ∀ c : Dev nD,
      r.2.mem ((c : Thread nD τ).loc main_v0)
          = Cert.Spec.result (B := 65536) (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KValue

end
-- ==== Proof.RefOps.lean ====
/- The reference program's host operations as ONE list (the bodies of the functions it calls written out at their call
   sites, over each call's buffer record), and, per buffer, the value its operation computes from its operands' values:
   the reference's result is `refOut`, the table of index pairs its gather reads is `pairTable`. -/
import proofs.«172230_j20555713478745_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's 157 host operations, in program order. -/
abbrev ops : List (HloOp τ sig (Elt F)) :=
  [ TRef.binary (TRef.of main_arg0 : TRef sig ⟨S65536x16x128, .f32⟩) (TRef.of main_arg0 : TRef sig ⟨S65536x16x128, .f32⟩) main_call0.v0 mulf,
    TRef.nullary main_call0.cst (constant S_ .f32 0x00000000#32),
    TRef.binary main_call0.v0 main_call0.cst main_call0.v1 (fun x v => Host.reduceAdd x v reducesTo_S65536x16x128_S65536x16_d2 h_S_),
    TRef.unary main_call0.v1 main_call0.v2 (broadcastInDim S65536x16x1 ![0, 1] bcast_S65536x16_S65536x16x1_0_1),
    TRef.unary main_call0.v2 main_call0.v3 Host.sqrt,
    nullary main_cst (constant S_ .f32 0x2B8CBCCC#32),
    unary main_cst main_v1 (broadcastInDim S65536x16x1 ![] bcast_S_S65536x16x1 : (⟨S_, .f32⟩ : BufTy).Contents (Elt F) → (⟨S65536x16x1, .f32⟩ : BufTy).Contents (Elt F)),
    binary main_v0 main_v1 main_v2 (maximumf : (⟨S65536x16x1, .f32⟩ : BufTy).Contents (Elt F) → (⟨S65536x16x1, .f32⟩ : BufTy).Contents (Elt F) → (⟨S65536x16x1, .f32⟩ : BufTy).Contents (Elt F)),
    unary main_v2 main_v3 (broadcastInDim S65536x16x128 ![0, 1, 2] bcast_S65536x16x1_S65536x16x128_0_1_2 : (⟨S65536x16x1, .f32⟩ : BufTy).Contents (Elt F) → (⟨S65536x16x128, .f32⟩ : BufTy).Contents (Elt F)),
    binary main_arg0 main_v3 main_v4 (Host.divf : (⟨S65536x16x128, .f32⟩ : BufTy).Contents (Elt F) → (⟨S65536x16x128, .f32⟩ : BufTy).Contents (Elt F) → (⟨S65536x16x128, .f32⟩ : BufTy).Contents (Elt F)),
    binary main_v4 main_v4 main_v5 ((fun l r => Host.dotGeneral dot_S65536x16x128_S65536x16x128_S65536x16x16_2_2_1_1_0_0 none l r) : (⟨S65536x16x128, .f32⟩ : BufTy).Contents (Elt F) → (⟨S65536x16x128, .f32⟩ : BufTy).Contents (Elt F) → (⟨S65536x16x16, .f32⟩ : BufTy).Contents (Elt F)),
    nullary main_cst_0 (constant S_ .f32 0x3F800000#32),
    unary main_cst_0 main_v6 (broadcastInDim S16x16 ![] bcast_S_S16x16 : (⟨S_, .f32⟩ : BufTy).Contents (Elt F) → (⟨S16x16, .f32⟩ : BufTy).Contents (Elt F)),
    TRef.nullary main_call1.v0 (iotaInDim S16x16 32 0),
    TRef.nullary main_call1.c (constantI S_ 32 0#32),
    TRef.unary main_call1.c main_call1.v1 (broadcastInDim S16x16 ![] bcast_S_S16x16),
    TRef.binary main_call1.v0 main_call1.v1 main_call1.v2 addi,
    TRef.nullary main_call1.v3 (iotaInDim S16x16 32 1),
    TRef.binary main_call1.v2 main_call1.v3 main_call1.v4 (cmpi .sge),
    TRef.nullary main_call1.cst (constant S_ .f32 0x00000000#32),
    TRef.unary main_call1.cst main_call1.v5 (broadcastInDim S16x16 ![] bcast_S_S16x16),
    TRef.ternary main_call1.v4 main_call1.v5 (TRef.of main_v6 : TRef sig ⟨S16x16, .f32⟩) main_call1.v6 select,
    nullary main_cst_1 (constant S_ .f32 0x00000000#32),
    unary main_cst_1 main_v8 (broadcastInDim S16x16 ![] bcast_S_S16x16 : (⟨S_, .f32⟩ : BufTy).Contents (Elt F) → (⟨S16x16, .f32⟩ : BufTy).Contents (Elt F)),
    binary main_v7 main_v8 main_v9 (cmpf .une : (⟨S16x16, .f32⟩ : BufTy).Contents (Elt F) → (⟨S16x16, .f32⟩ : BufTy).Contents (Elt F) → (⟨S16x16, .i1⟩ : BufTy).Contents (Elt F)),
    TRef.reshape (TRef.of main_v9 : TRef sig ⟨S16x16, .i1⟩) main_call2.v0 rfl shapeCasts_S16x16_S256,
    TRef.unary main_call2.v0 main_call2.v1 (extui 32 · natLt_1_32),
    TRef.nullary main_call2.call0.c (constantI S_ 32 0#32),
    TRef.unary main_call2.call0.c main_call2.call0.v0 (broadcastInDim S_ ![] bcast_S_S_),
    TRef.binary main_call2.v1 main_call2.call0.v0 main_call2.call0.v1 (fun x v => Host.reduceWindow IntOp.addi ![256] ![1] ![255] ![0] x v reduceWindows_S256_S256_w256s1p255_0 h_S_),
    nullary main_c (constantI S_ 32 0#32),
    unary main_c main_v11 (broadcastInDim S120 ![] bcast_S_S120 : (⟨S_, .i32⟩ : BufTy).Contents (Elt F) → (⟨S120, .i32⟩ : BufTy).Contents (Elt F)),
    nullary main_c_2 (constantI S_ 32 0#32),
    TRef.unary (TRef.of main_c_2 : TRef sig ⟨S_, .i32⟩) main_call3.v0 id,
    TRef.unary main_call3.v0 main_call3.v1 (broadcastInDim S256 ![] bcast_S_S256),
    TRef.binary main_call3.v1 (TRef.of main_v10 : TRef sig ⟨S256, .i32⟩) main_call3.v2 maxsi,
    nullary main_c_3 (constantI S_ 32 0#32),
    unary main_c_3 main_v13 (broadcastInDim S256 ![] bcast_S_S256 : (⟨S_, .i32⟩ : BufTy).Contents (Elt F) → (⟨S256, .i32⟩ : BufTy).Contents (Elt F)),
    binary main_v12 main_v13 main_v14 (cmpi .slt : (⟨S256, .i32⟩ : BufTy).Contents (Elt F) → (⟨S256, .i32⟩ : BufTy).Contents (Elt F) → (⟨S256, .i1⟩ : BufTy).Contents (Elt F)),
    nullary main_c_4 (constantI S_ 32 120#32),
    unary main_c_4 main_v15 (broadcastInDim S256 ![] bcast_S_S256 : (⟨S_, .i32⟩ : BufTy).Contents (Elt F) → (⟨S256, .i32⟩ : BufTy).Contents (Elt F)),
    binary main_v12 main_v15 main_v16 (addi : (⟨S256, .i32⟩ : BufTy).Contents (Elt F) → (⟨S256, .i32⟩ : BufTy).Contents (Elt F) → (⟨S256, .i32⟩ : BufTy).Contents (Elt F)),
    ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v17 main_v18 (broadcastInDim S256x1 ![0] bcast_S256_S256x1_0 : (⟨S256, .i32⟩ : BufTy).Contents (Elt F) → (⟨S256x1, .i32⟩ : BufTy).Contents (Elt F)),
    nullary main_c_5 (constantI S_ 32 1#32),
    unary main_c_5 main_v19 (broadcastInDim S256 ![] bcast_S_S256 : (⟨S_, .i32⟩ : BufTy).Contents (Elt F) → (⟨S256, .i32⟩ : BufTy).Contents (Elt F)),
    ternary main_v11 main_v18 main_v19 main_v20 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)),
    TRef.nullary main_call4.call0.c (constantI S_ 32 0#32),
    TRef.unary main_call4.call0.c main_call4.call0.v0 (broadcastInDim S_ ![] bcast_S_S_),
    TRef.binary (TRef.of main_v20 : TRef sig ⟨S120, .i32⟩) main_call4.call0.v0 main_call4.call0.v1 (fun x v => Host.reduceWindow IntOp.addi ![120] ![1] ![119] ![0] x v reduceWindows_S120_S120_w120s1p119_0 h_S_),
    nullary main_c_6 (constantI S_ 32 16#32),
    TRef.unary (TRef.of main_c_6 : TRef sig ⟨S_, .i32⟩) main_call5.v0 (broadcastInDim S120 ![] bcast_S_S120),
    TRef.binary (TRef.of main_v21 : TRef sig ⟨S120, .i32⟩) main_call5.v0 main_call5.v1 Host.divsi,
    TRef.unary (TRef.of main_v21 : TRef sig ⟨S120, .i32⟩) main_call5.v2 signi,
    TRef.unary (TRef.of main_c_6 : TRef sig ⟨S_, .i32⟩) main_call5.v3 signi,
    TRef.unary main_call5.v3 main_call5.v4 (broadcastInDim S120 ![] bcast_S_S120),
    TRef.binary main_call5.v2 main_call5.v4 main_call5.v5 (cmpi .ne),
    TRef.unary (TRef.of main_c_6 : TRef sig ⟨S_, .i32⟩) main_call5.v6 (broadcastInDim S120 ![] bcast_S_S120),
    TRef.binary (TRef.of main_v21 : TRef sig ⟨S120, .i32⟩) main_call5.v6 main_call5.v7 Host.remsi,
    TRef.nullary main_call5.c (constantI S_ 32 0#32),
    TRef.unary main_call5.c main_call5.v8 (broadcastInDim S120 ![] bcast_S_S120),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S120 ![] bcast_S_S120),
    TRef.binary main_call5.v1 main_call5.v11 main_call5.v12 subi,
    TRef.ternary main_call5.v10 main_call5.v12 main_call5.v1 main_call5.call0.v0 select,
    nullary main_c_7 (constantI S_ 32 16#32),
    TRef.unary (TRef.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S120 ![] bcast_S_S120),
    TRef.binary (TRef.of main_v22 : TRef sig ⟨S120, .i32⟩) main_call6.v3 main_call6.v4 Host.remsi,
    TRef.nullary main_call6.c_1 (constantI S_ 32 0#32),
    TRef.unary main_call6.c_1 main_call6.v5 (broadcastInDim S120 ![] bcast_S_S120),
    TRef.binary main_call6.v4 main_call6.v5 main_call6.v6 (cmpi .ne),
    TRef.nullary main_call6.c_2 (constantI S_ 32 0#32),
    TRef.unary main_call6.c_2 main_call6.v7 (broadcastInDim S120 ![] bcast_S_S120),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S120 ![] bcast_S_S120),
    TRef.binary main_call6.v8 main_call6.v10 main_call6.v11 (cmpi .ne),
    TRef.binary main_call6.v11 main_call6.v6 main_call6.v12 andi,
    TRef.unary main_call6.call0.v0 main_call6.v13 (broadcastInDim S120 ![] bcast_S_S120),
    TRef.binary main_call6.v4 main_call6.v13 main_call6.v14 addi,
    TRef.ternary main_call6.v12 main_call6.v14 main_call6.v4 main_call6.v15 select,
    nullary main_c_8 (constantI S_ 32 1#32),
    TRef.unary (TRef.of main_c_8 : TRef sig ⟨S_, .i32⟩) main_call7.v0 (broadcastInDim S120 ![] bcast_S_S120),
    TRef.binary (TRef.of main_v21 : TRef sig ⟨S120, .i32⟩) main_call7.v0 main_call7.v1 Host.divsi,
    TRef.unary (TRef.of main_v21 : TRef sig ⟨S120, .i32⟩) main_call7.v2 signi,
    TRef.unary (TRef.of main_c_8 : TRef sig ⟨S_, .i32⟩) main_call7.v3 signi,
    TRef.unary main_call7.v3 main_call7.v4 (broadcastInDim S120 ![] bcast_S_S120),
    TRef.binary main_call7.v2 main_call7.v4 main_call7.v5 (cmpi .ne),
    TRef.unary (TRef.of main_c_8 : TRef sig ⟨S_, .i32⟩) main_call7.v6 (broadcastInDim S120 ![] bcast_S_S120),
    TRef.binary (TRef.of main_v21 : TRef sig ⟨S120, .i32⟩) main_call7.v6 main_call7.v7 Host.remsi,
    TRef.nullary main_call7.c (constantI S_ 32 0#32),
    TRef.unary main_call7.c main_call7.v8 (broadcastInDim S120 ![] bcast_S_S120),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S120 ![] bcast_S_S120),
    TRef.binary main_call7.v1 main_call7.v11 main_call7.v12 subi,
    TRef.ternary main_call7.v10 main_call7.v12 main_call7.v1 main_call7.call0.v0 select,
    nullary main_c_9 (constantI S_ 32 16#32),
    TRef.unary (TRef.of main_c_9 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S120 ![] bcast_S_S120),
    TRef.binary (TRef.of main_v24 : TRef sig ⟨S120, .i32⟩) main_call8.v3 main_call8.v4 Host.remsi,
    TRef.nullary main_call8.c_1 (constantI S_ 32 0#32),
    TRef.unary main_call8.c_1 main_call8.v5 (broadcastInDim S120 ![] bcast_S_S120),
    TRef.binary main_call8.v4 main_call8.v5 main_call8.v6 (cmpi .ne),
    TRef.nullary main_call8.c_2 (constantI S_ 32 0#32),
    TRef.unary main_call8.c_2 main_call8.v7 (broadcastInDim S120 ![] bcast_S_S120),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S120 ![] bcast_S_S120),
    TRef.binary main_call8.v8 main_call8.v10 main_call8.v11 (cmpi .ne),
    TRef.binary main_call8.v11 main_call8.v6 main_call8.v12 andi,
    TRef.unary main_call8.call0.v0 main_call8.v13 (broadcastInDim S120 ![] bcast_S_S120),
    TRef.binary main_call8.v4 main_call8.v13 main_call8.v14 addi,
    TRef.ternary main_call8.v12 main_call8.v14 main_call8.v4 main_call8.v15 select,
    nullary main_c_10 (constantI S_ 32 0#32),
    unary main_c_10 main_v26 (broadcastInDim S120 ![] bcast_S_S120 : (⟨S_, .i32⟩ : BufTy).Contents (Elt F) → (⟨S120, .i32⟩ : BufTy).Contents (Elt F)),
    binary main_v23 main_v26 main_v27 (cmpi .slt : (⟨S120, .i32⟩ : BufTy).Contents (Elt F) → (⟨S120, .i32⟩ : BufTy).Contents (Elt F) → (⟨S120, .i1⟩ : BufTy).Contents (Elt F)),
    nullary main_c_11 (constantI S_ 32 16#32),
    unary main_c_11 main_v28 (broadcastInDim S120 ![] bcast_S_S120 : (⟨S_, .i32⟩ : BufTy).Contents (Elt F) → (⟨S120, .i32⟩ : BufTy).Contents (Elt F)),
    binary main_v23 main_v28 main_v29 (addi : (⟨S120, .i32⟩ : BufTy).Contents (Elt F) → (⟨S120, .i32⟩ : BufTy).Contents (Elt F) → (⟨S120, .i32⟩ : BufTy).Contents (Elt F)),
    ternary main_v27 main_v29 main_v23 main_v30 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    nullary main_c_12 (constantI S_ 32 0#32),
    unary main_c_12 main_v31 (broadcastInDim S120 ![] bcast_S_S120 : (⟨S_, .i32⟩ : BufTy).Contents (Elt F) → (⟨S120, .i32⟩ : BufTy).Contents (Elt F)),
    binary main_v25 main_v31 main_v32 (cmpi .slt : (⟨S120, .i32⟩ : BufTy).Contents (Elt F) → (⟨S120, .i32⟩ : BufTy).Contents (Elt F) → (⟨S120, .i1⟩ : BufTy).Contents (Elt F)),
    nullary main_c_13 (constantI S_ 32 16#32),
    unary main_c_13 main_v33 (broadcastInDim S120 ![] bcast_S_S120 : (⟨S_, .i32⟩ : BufTy).Contents (Elt F) → (⟨S120, .i32⟩ : BufTy).Contents (Elt F)),
    binary main_v25 main_v33 main_v34 (addi : (⟨S120, .i32⟩ : BufTy).Contents (Elt F) → (⟨S120, .i32⟩ : BufTy).Contents (Elt F) → (⟨S120, .i32⟩ : BufTy).Contents (Elt F)),
    ternary main_v32 main_v34 main_v25 main_v35 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v30 main_v36 (broadcastInDim S120x1 ![0] bcast_S120_S120x1_0 : (⟨S120, .i32⟩ : BufTy).Contents (Elt F) → (⟨S120x1, .i32⟩ : BufTy).Contents (Elt F)),
    unary main_v35 main_v37 (broadcastInDim S120x1 ![0] bcast_S120_S120x1_0 : (⟨S120, .i32⟩ : BufTy).Contents (Elt F) → (⟨S120x1, .i32⟩ : BufTy).Contents (Elt F)),
    binary main_v36 main_v37 main_v38 ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)),
    binary main_v5 main_v38 main_v39 ((fun x i => Host.gather gather_S65536x16x16_S120x2_S65536x120_0_12_n_n_12_1_6553611 x i) : (⟨S65536x16x16, .f32⟩ : BufTy).Contents (Elt F) → (⟨S120x2, .i32⟩ : BufTy).Contents (Elt F) → (⟨S65536x120, .f32⟩ : BufTy).Contents (Elt F)),
    binary main_v39 main_arg1 main_v40 ((fun l r => Host.dotGeneral dot_S65536x120_S120x128_S65536x128_1_0_0_1_n_n none l r) : (⟨S65536x120, .f32⟩ : BufTy).Contents (Elt F) → (⟨S120x128, .f32⟩ : BufTy).Contents (Elt F) → (⟨S65536x128, .f32⟩ : BufTy).Contents (Elt F)),
    unary main_arg2 main_v41 (broadcastInDim S1x128 ![1] bcast_S128_S1x128_1 : (⟨S128, .f32⟩ : BufTy).Contents (Elt F) → (⟨S1x128, .f32⟩ : BufTy).Contents (Elt F)),
    unary main_v41 main_v42 (broadcastInDim S65536x128 ![0, 1] bcast_S1x128_S65536x128_0_1 : (⟨S1x128, .f32⟩ : BufTy).Contents (Elt F) → (⟨S65536x128, .f32⟩ : BufTy).Contents (Elt F)),
    binary main_v40 main_v42 main_v43 (addf : (⟨S65536x128, .f32⟩ : BufTy).Contents (Elt F) → (⟨S65536x128, .f32⟩ : BufTy).Contents (Elt F) → (⟨S65536x128, .f32⟩ : BufTy).Contents (Elt F)),
    TRef.nullary main_call9.cst (constant S_ .f32 0x00000000#32),
    TRef.unary main_call9.cst main_call9.v0 (broadcastInDim S65536x128 ![] bcast_S_S65536x128),
    TRef.binary (TRef.of main_v43 : TRef sig ⟨S65536x128, .f32⟩) main_call9.v0 main_call9.v1 maximumf,
    binary main_v44 main_arg3 main_v45 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S65536x128 ![0, 1] bcast_S1x128_S65536x128_0_1 : (⟨S1x128, .f32⟩ : BufTy).Contents (Elt F) → (⟨S65536x128, .f32⟩ : BufTy).Contents (Elt F)),
    binary main_v45 main_v47 main_v48 (addf : (⟨S65536x128, .f32⟩ : BufTy).Contents (Elt F) → (⟨S65536x128, .f32⟩ : BufTy).Contents (Elt F) → (⟨S65536x128, .f32⟩ : BufTy).Contents (Elt F)) ]

/-- The value of buffer `main_call0_v0`. -/
def s_main_call0_v0 (a0 : (⟨S65536x16x128, .f32⟩ : BufTy).Contents (Elt F)) : (⟨S65536x16x128, .f32⟩ : BufTy).Contents (Elt F) :=
  mulf a0 a0

/-- The value of buffer `main_call0_cst`. -/
def s_main_call0_cst : (⟨S_, .f32⟩ : BufTy).Contents (Elt F) :=
  (constant S_ .f32 0x00000000#32)

/-- The value of buffer `main_call0_v1`. -/
def s_main_call0_v1 (a0 : (⟨S65536x16x128, .f32⟩ : BufTy).Contents (Elt F)) : (⟨S65536x16, .f32⟩ : BufTy).Contents (Elt F) :=
  (fun x v => Host.reduceAdd x v reducesTo_S65536x16x128_S65536x16_d2 h_S_) (s_main_call0_v0 a0) (s_main_call0_cst (F := F))

/-- The value of buffer `main_call0_v2`. -/
def s_main_call0_v2 (a0 : (⟨S65536x16x128, .f32⟩ : BufTy).Contents (Elt F)) : (⟨S65536x16x1, .f32⟩ : BufTy).Contents (Elt F) :=
  (broadcastInDim S65536x16x1 ![0, 1] bcast_S65536x16_S65536x16x1_0_1) (s_main_call0_v1 a0)

/-- The value of buffer `main_v0`. -/
def s_main_v0 (a0 : (⟨S65536x16x128, .f32⟩ : BufTy).Contents (Elt F)) : (⟨S65536x16x1, .f32⟩ : BufTy).Contents (Elt F) :=
  Host.sqrt (s_main_call0_v2 a0)

/-- The value of buffer `main_cst`. -/
def s_main_cst : (⟨S_, .f32⟩ : BufTy).Contents (Elt F) :=
  (constant S_ .f32 0x2B8CBCCC#32)

/-- The value of buffer `main_v1`. -/
def s_main_v1 : (⟨S65536x16x1, .f32⟩ : BufTy).Contents (Elt F) :=
  (broadcastInDim S65536x16x1 ![] bcast_S_S65536x16x1 : (⟨S_, .f32⟩ : BufTy).Contents (Elt F) → (⟨S65536x16x1, .f32⟩ : BufTy).Contents (Elt F)) (s_main_cst (F := F))

/-- The value of buffer `main_v2`. -/
def s_main_v2 (a0 : (⟨S65536x16x128, .f32⟩ : BufTy).Contents (Elt F)) : (⟨S65536x16x1, .f32⟩ : BufTy).Contents (Elt F) :=
  (maximumf : (⟨S65536x16x1, .f32⟩ : BufTy).Contents (Elt F) → (⟨S65536x16x1, .f32⟩ : BufTy).Contents (Elt F) → (⟨S65536x16x1, .f32⟩ : BufTy).Contents (Elt F)) (s_main_v0 a0) (s_main_v1 (F := F))

/-- The value of buffer `main_v3`. -/
def s_main_v3 (a0 : (⟨S65536x16x128, .f32⟩ : BufTy).Contents (Elt F)) : (⟨S65536x16x128, .f32⟩ : BufTy).Contents (Elt F) :=
  (broadcastInDim S65536x16x128 ![0, 1, 2] bcast_S65536x16x1_S65536x16x128_0_1_2 : (⟨S65536x16x1, .f32⟩ : BufTy).Contents (Elt F) → (⟨S65536x16x128, .f32⟩ : BufTy).Contents (Elt F)) (s_main_v2 a0)

/-- The value of buffer `main_v4`. -/
def s_main_v4 (a0 : (⟨S65536x16x128, .f32⟩ : BufTy).Contents (Elt F)) : (⟨S65536x16x128, .f32⟩ : BufTy).Contents (Elt F) :=
  (Host.divf : (⟨S65536x16x128, .f32⟩ : BufTy).Contents (Elt F) → (⟨S65536x16x128, .f32⟩ : BufTy).Contents (Elt F) → (⟨S65536x16x128, .f32⟩ : BufTy).Contents (Elt F)) a0 (s_main_v3 a0)

/-- The value of buffer `main_v5`. -/
def s_main_v5 (a0 : (⟨S65536x16x128, .f32⟩ : BufTy).Contents (Elt F)) : (⟨S65536x16x16, .f32⟩ : BufTy).Contents (Elt F) :=
  ((fun l r => Host.dotGeneral dot_S65536x16x128_S65536x16x128_S65536x16x16_2_2_1_1_0_0 none l r) : (⟨S65536x16x128, .f32⟩ : BufTy).Contents (Elt F) → (⟨S65536x16x128, .f32⟩ : BufTy).Contents (Elt F) → (⟨S65536x16x16, .f32⟩ : BufTy).Contents (Elt F)) (s_main_v4 a0) (s_main_v4 a0)

/-- The value of buffer `main_cst_0`. -/
def s_main_cst_0 : (⟨S_, .f32⟩ : BufTy).Contents (Elt F) :=
  (constant S_ .f32 0x3F800000#32)

/-- The value of buffer `main_v6`. -/
def s_main_v6 : (⟨S16x16, .f32⟩ : BufTy).Contents (Elt F) :=
  (broadcastInDim S16x16 ![] bcast_S_S16x16 : (⟨S_, .f32⟩ : BufTy).Contents (Elt F) → (⟨S16x16, .f32⟩ : BufTy).Contents (Elt F)) (s_main_cst_0 (F := F))

/-- The value of buffer `main_call1_v0`. -/
def s_main_call1_v0 : (⟨S16x16, .i32⟩ : BufTy).Contents (Elt F) :=
  (iotaInDim S16x16 32 0)

/-- The value of buffer `main_call1_c`. -/
def s_main_call1_c : (⟨S_, .i32⟩ : BufTy).Contents (Elt F) :=
  (constantI S_ 32 0#32)

/-- The value of buffer `main_call1_v1`. -/
def s_main_call1_v1 : (⟨S16x16, .i32⟩ : BufTy).Contents (Elt F) :=
  (broadcastInDim S16x16 ![] bcast_S_S16x16) (s_main_call1_c (F := F))

/-- The value of buffer `main_call1_v2`. -/
def s_main_call1_v2 : (⟨S16x16, .i32⟩ : BufTy).Contents (Elt F) :=
  addi (s_main_call1_v0 (F := F)) (s_main_call1_v1 (F := F))

/-- The value of buffer `main_call1_v3`. -/
def s_main_call1_v3 : (⟨S16x16, .i32⟩ : BufTy).Contents (Elt F) :=
  (iotaInDim S16x16 32 1)

/-- The value of buffer `main_call1_v4`. -/
def s_main_call1_v4 : (⟨S16x16, .i1⟩ : BufTy).Contents (Elt F) :=
  (cmpi .sge) (s_main_call1_v2 (F := F)) (s_main_call1_v3 (F := F))

/-- The value of buffer `main_call1_cst`. -/
def s_main_call1_cst : (⟨S_, .f32⟩ : BufTy).Contents (Elt F) :=
  (constant S_ .f32 0x00000000#32)

/-- The value of buffer `main_call1_v5`. -/
def s_main_call1_v5 : (⟨S16x16, .f32⟩ : BufTy).Contents (Elt F) :=
  (broadcastInDim S16x16 ![] bcast_S_S16x16) (s_main_call1_cst (F := F))

/-- The value of buffer `main_v7`. -/
def s_main_v7 : (⟨S16x16, .f32⟩ : BufTy).Contents (Elt F) :=
  select (s_main_call1_v4 (F := F)) (s_main_call1_v5 (F := F)) (s_main_v6 (F := F))

/-- The value of buffer `main_cst_1`. -/
def s_main_cst_1 : (⟨S_, .f32⟩ : BufTy).Contents (Elt F) :=
  (constant S_ .f32 0x00000000#32)

/-- The value of buffer `main_v8`. -/
def s_main_v8 : (⟨S16x16, .f32⟩ : BufTy).Contents (Elt F) :=
  (broadcastInDim S16x16 ![] bcast_S_S16x16 : (⟨S_, .f32⟩ : BufTy).Contents (Elt F) → (⟨S16x16, .f32⟩ : BufTy).Contents (Elt F)) (s_main_cst_1 (F := F))

/-- The value of buffer `main_v9`. -/
def s_main_v9 : (⟨S16x16, .i1⟩ : BufTy).Contents (Elt F) :=
  (cmpf .une : (⟨S16x16, .f32⟩ : BufTy).Contents (Elt F) → (⟨S16x16, .f32⟩ : BufTy).Contents (Elt F) → (⟨S16x16, .i1⟩ : BufTy).Contents (Elt F)) (s_main_v7 (F := F)) (s_main_v8 (F := F))

/-- The value of buffer `main_call2_v0`. -/
def s_main_call2_v0 : (⟨S256, .i1⟩ : BufTy).Contents (Elt F) :=
  (fun x => shapeCast S256 x shapeCasts_S16x16_S256) (s_main_v9 (F := F))

/-- The value of buffer `main_call2_v1`. -/
def s_main_call2_v1 : (⟨S256, .i32⟩ : BufTy).Contents (Elt F) :=
  (extui 32 · natLt_1_32) (s_main_call2_v0 (F := F))

/-- The value of buffer `main_call2_call0_c`. -/
def s_main_call2_call0_c : (⟨S_, .i32⟩ : BufTy).Contents (Elt F) :=
  (constantI S_ 32 0#32)

/-- The value of buffer `main_call2_call0_v0`. -/
def s_main_call2_call0_v0 : (⟨S_, .i32⟩ : BufTy).Contents (Elt F) :=
  (broadcastInDim S_ ![] bcast_S_S_) (s_main_call2_call0_c (F := F))

/-- The value of buffer `main_v10`. -/
def s_main_v10 : (⟨S256, .i32⟩ : BufTy).Contents (Elt F) :=
  (fun x v => Host.reduceWindow IntOp.addi ![256] ![1] ![255] ![0] x v reduceWindows_S256_S256_w256s1p255_0 h_S_) (s_main_call2_v1 (F := F)) (s_main_call2_call0_v0 (F := F))

/-- The value of buffer `main_c`. -/
def s_main_c : (⟨S_, .i32⟩ : BufTy).Contents (Elt F) :=
  (constantI S_ 32 0#32)

/-- The value of buffer `main_v11`. -/
def s_main_v11 : (⟨S120, .i32⟩ : BufTy).Contents (Elt F) :=
  (broadcastInDim S120 ![] bcast_S_S120 : (⟨S_, .i32⟩ : BufTy).Contents (Elt F) → (⟨S120, .i32⟩ : BufTy).Contents (Elt F)) (s_main_c (F := F))

/-- The value of buffer `main_c_2`. -/
def s_main_c_2 : (⟨S_, .i32⟩ : BufTy).Contents (Elt F) :=
  (constantI S_ 32 0#32)

/-- The value of buffer `main_call3_v0`. -/
def s_main_call3_v0 : (⟨S_, .i32⟩ : BufTy).Contents (Elt F) :=
  id (s_main_c_2 (F := F))

/-- The value of buffer `main_call3_v1`. -/
def s_main_call3_v1 : (⟨S256, .i32⟩ : BufTy).Contents (Elt F) :=
  (broadcastInDim S256 ![] bcast_S_S256) (s_main_call3_v0 (F := F))

/-- The value of buffer `main_v12`. -/
def s_main_v12 : (⟨S256, .i32⟩ : BufTy).Contents (Elt F) :=
  maxsi (s_main_call3_v1 (F := F)) (s_main_v10 (F := F))

/-- The value of buffer `main_c_3`. -/
def s_main_c_3 : (⟨S_, .i32⟩ : BufTy).Contents (Elt F) :=
  (constantI S_ 32 0#32)

/-- The value of buffer `main_v13`. -/
def s_main_v13 : (⟨S256, .i32⟩ : BufTy).Contents (Elt F) :=
  (broadcastInDim S256 ![] bcast_S_S256 : (⟨S_, .i32⟩ : BufTy).Contents (Elt F) → (⟨S256, .i32⟩ : BufTy).Contents (Elt F)) (s_main_c_3 (F := F))

/-- The value of buffer `main_v14`. -/
def s_main_v14 : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (s_main_v12 (F := F)) (s_main_v13 (F := F))

/-- The value of buffer `main_c_4`. -/
def s_main_c_4 : (⟨S_, .i32⟩ : BufTy).Contents (Elt F) :=
  (constantI S_ 32 120#32)

/-- The value of buffer `main_v15`. -/
def s_main_v15 : (⟨S256, .i32⟩ : BufTy).Contents (Elt F) :=
  (broadcastInDim S256 ![] bcast_S_S256 : (⟨S_, .i32⟩ : BufTy).Contents (Elt F) → (⟨S256, .i32⟩ : BufTy).Contents (Elt F)) (s_main_c_4 (F := F))

/-- The value of buffer `main_v16`. -/
def s_main_v16 : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (s_main_v12 (F := F)) (s_main_v15 (F := F))

/-- The value of buffer `main_v17`. -/
def s_main_v17 : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (s_main_v14 (F := F)) (s_main_v16 (F := F)) (s_main_v12 (F := F))

/-- The value of buffer `main_v18`. -/
def s_main_v18 : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (s_main_v17 (F := F))

/-- The value of buffer `main_c_5`. -/
def s_main_c_5 : (⟨S_, .i32⟩ : BufTy).Contents (Elt F) :=
  (constantI S_ 32 1#32)

/-- The value of buffer `main_v19`. -/
def s_main_v19 : (⟨S256, .i32⟩ : BufTy).Contents (Elt F) :=
  (broadcastInDim S256 ![] bcast_S_S256 : (⟨S_, .i32⟩ : BufTy).Contents (Elt F) → (⟨S256, .i32⟩ : BufTy).Contents (Elt F)) (s_main_c_5 (F := F))

/-- The value of buffer `main_v20`. -/
def s_main_v20 : (⟨S120, .i32⟩ : BufTy).Contents (Elt F) :=
  ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)) (s_main_v11 (F := F)) (s_main_v18 (F := F)) (s_main_v19 (F := F))

/-- The value of buffer `main_call4_call0_c`. -/
def s_main_call4_call0_c : (⟨S_, .i32⟩ : BufTy).Contents (Elt F) :=
  (constantI S_ 32 0#32)

/-- The value of buffer `main_call4_call0_v0`. -/
def s_main_call4_call0_v0 : (⟨S_, .i32⟩ : BufTy).Contents (Elt F) :=
  (broadcastInDim S_ ![] bcast_S_S_) (s_main_call4_call0_c (F := F))

/-- The value of buffer `main_v21`. -/
def s_main_v21 : (⟨S120, .i32⟩ : BufTy).Contents (Elt F) :=
  (fun x v => Host.reduceWindow IntOp.addi ![120] ![1] ![119] ![0] x v reduceWindows_S120_S120_w120s1p119_0 h_S_) (s_main_v20 (F := F)) (s_main_call4_call0_v0 (F := F))

/-- The value of buffer `main_c_6`. -/
def s_main_c_6 : (⟨S_, .i32⟩ : BufTy).Contents (Elt F) :=
  (constantI S_ 32 16#32)

/-- The value of buffer `main_call5_v0`. -/
def s_main_call5_v0 : (⟨S120, .i32⟩ : BufTy).Contents (Elt F) :=
  (broadcastInDim S120 ![] bcast_S_S120) (s_main_c_6 (F := F))

/-- The value of buffer `main_call5_v1`. -/
def s_main_call5_v1 : (⟨S120, .i32⟩ : BufTy).Contents (Elt F) :=
  Host.divsi (s_main_v21 (F := F)) (s_main_call5_v0 (F := F))

/-- The value of buffer `main_call5_v2`. -/
def s_main_call5_v2 : (⟨S120, .i32⟩ : BufTy).Contents (Elt F) :=
  signi (s_main_v21 (F := F))

/-- The value of buffer `main_call5_v3`. -/
def s_main_call5_v3 : (⟨S_, .i32⟩ : BufTy).Contents (Elt F) :=
  signi (s_main_c_6 (F := F))

/-- The value of buffer `main_call5_v4`. -/
def s_main_call5_v4 : (⟨S120, .i32⟩ : BufTy).Contents (Elt F) :=
  (broadcastInDim S120 ![] bcast_S_S120) (s_main_call5_v3 (F := F))

/-- The value of buffer `main_call5_v5`. -/
def s_main_call5_v5 : (⟨S120, .i1⟩ : BufTy).Contents (Elt F) :=
  (cmpi .ne) (s_main_call5_v2 (F := F)) (s_main_call5_v4 (F := F))

/-- The value of buffer `main_call5_v6`. -/
def s_main_call5_v6 : (⟨S120, .i32⟩ : BufTy).Contents (Elt F) :=
  (broadcastInDim S120 ![] bcast_S_S120) (s_main_c_6 (F := F))

/-- The value of buffer `main_call5_v7`. -/
def s_main_call5_v7 : (⟨S120, .i32⟩ : BufTy).Contents (Elt F) :=
  Host.remsi (s_main_v21 (F := F)) (s_main_call5_v6 (F := F))

/-- The value of buffer `main_call5_c`. -/
def s_main_call5_c : (⟨S_, .i32⟩ : BufTy).Contents (Elt F) :=
  (constantI S_ 32 0#32)

/-- The value of buffer `main_call5_v8`. -/
def s_main_call5_v8 : (⟨S120, .i32⟩ : BufTy).Contents (Elt F) :=
  (broadcastInDim S120 ![] bcast_S_S120) (s_main_call5_c (F := F))

/-- The value of buffer `main_call5_v9`. -/
def s_main_call5_v9 : (⟨S120, .i1⟩ : BufTy).Contents (Elt F) :=
  (cmpi .ne) (s_main_call5_v7 (F := F)) (s_main_call5_v8 (F := F))

/-- The value of buffer `main_call5_v10`. -/
def s_main_call5_v10 : (⟨S120, .i1⟩ : BufTy).Contents (Elt F) :=
  andi (s_main_call5_v5 (F := F)) (s_main_call5_v9 (F := F))

/-- The value of buffer `main_call5_c_0`. -/
def s_main_call5_c_0 : (⟨S_, .i32⟩ : BufTy).Contents (Elt F) :=
  (constantI S_ 32 1#32)

/-- The value of buffer `main_call5_v11`. -/
def s_main_call5_v11 : (⟨S120, .i32⟩ : BufTy).Contents (Elt F) :=
  (broadcastInDim S120 ![] bcast_S_S120) (s_main_call5_c_0 (F := F))

/-- The value of buffer `main_call5_v12`. -/
def s_main_call5_v12 : (⟨S120, .i32⟩ : BufTy).Contents (Elt F) :=
  subi (s_main_call5_v1 (F := F)) (s_main_call5_v11 (F := F))

/-- The value of buffer `main_v22`. -/
def s_main_v22 : (⟨S120, .i32⟩ : BufTy).Contents (Elt F) :=
  select (s_main_call5_v10 (F := F)) (s_main_call5_v12 (F := F)) (s_main_call5_v1 (F := F))

/-- The value of buffer `main_c_7`. -/
def s_main_c_7 : (⟨S_, .i32⟩ : BufTy).Contents (Elt F) :=
  (constantI S_ 32 16#32)

/-- The value of buffer `main_call6_v0`. -/
def s_main_call6_v0 : (⟨S_, .i32⟩ : BufTy).Contents (Elt F) :=
  id (s_main_c_7 (F := F))

/-- The value of buffer `main_call6_c`. -/
def s_main_call6_c : (⟨S_, .i32⟩ : BufTy).Contents (Elt F) :=
  (constantI S_ 32 0#32)

/-- The value of buffer `main_call6_v1`. -/
def s_main_call6_v1 : (⟨S_, .i1⟩ : BufTy).Contents (Elt F) :=
  (cmpi .eq) (s_main_call6_v0 (F := F)) (s_main_call6_c (F := F))

/-- The value of buffer `main_call6_c_0`. -/
def s_main_call6_c_0 : (⟨S_, .i32⟩ : BufTy).Contents (Elt F) :=
  (constantI S_ 32 1#32)

/-- The value of buffer `main_call6_v2`. -/
def s_main_call6_v2 : (⟨S_, .i32⟩ : BufTy).Contents (Elt F) :=
  select (s_main_call6_v1 (F := F)) (s_main_call6_c_0 (F := F)) (s_main_call6_v0 (F := F))

/-- The value of buffer `main_call6_v3`. -/
def s_main_call6_v3 : (⟨S120, .i32⟩ : BufTy).Contents (Elt F) :=
  (broadcastInDim S120 ![] bcast_S_S120) (s_main_call6_v2 (F := F))

/-- The value of buffer `main_call6_v4`. -/
def s_main_call6_v4 : (⟨S120, .i32⟩ : BufTy).Contents (Elt F) :=
  Host.remsi (s_main_v22 (F := F)) (s_main_call6_v3 (F := F))

/-- The value of buffer `main_call6_c_1`. -/
def s_main_call6_c_1 : (⟨S_, .i32⟩ : BufTy).Contents (Elt F) :=
  (constantI S_ 32 0#32)

/-- The value of buffer `main_call6_v5`. -/
def s_main_call6_v5 : (⟨S120, .i32⟩ : BufTy).Contents (Elt F) :=
  (broadcastInDim S120 ![] bcast_S_S120) (s_main_call6_c_1 (F := F))

/-- The value of buffer `main_call6_v6`. -/
def s_main_call6_v6 : (⟨S120, .i1⟩ : BufTy).Contents (Elt F) :=
  (cmpi .ne) (s_main_call6_v4 (F := F)) (s_main_call6_v5 (F := F))

/-- The value of buffer `main_call6_c_2`. -/
def s_main_call6_c_2 : (⟨S_, .i32⟩ : BufTy).Contents (Elt F) :=
  (constantI S_ 32 0#32)

/-- The value of buffer `main_call6_v7`. -/
def s_main_call6_v7 : (⟨S120, .i32⟩ : BufTy).Contents (Elt F) :=
  (broadcastInDim S120 ![] bcast_S_S120) (s_main_call6_c_2 (F := F))

/-- The value of buffer `main_call6_v8`. -/
def s_main_call6_v8 : (⟨S120, .i1⟩ : BufTy).Contents (Elt F) :=
  (cmpi .slt) (s_main_call6_v4 (F := F)) (s_main_call6_v7 (F := F))

/-- The value of buffer `main_call6_c_3`. -/
def s_main_call6_c_3 : (⟨S_, .i32⟩ : BufTy).Contents (Elt F) :=
  (constantI S_ 32 0#32)

/-- The value of buffer `main_call6_v9`. -/
def s_main_call6_v9 : (⟨S_, .i1⟩ : BufTy).Contents (Elt F) :=
  (cmpi .slt) (s_main_call6_v2 (F := F)) (s_main_call6_c_3 (F := F))

/-- The value of buffer `main_call6_v10`. -/
def s_main_call6_v10 : (⟨S120, .i1⟩ : BufTy).Contents (Elt F) :=
  (broadcastInDim S120 ![] bcast_S_S120) (s_main_call6_v9 (F := F))

/-- The value of buffer `main_call6_v11`. -/
def s_main_call6_v11 : (⟨S120, .i1⟩ : BufTy).Contents (Elt F) :=
  (cmpi .ne) (s_main_call6_v8 (F := F)) (s_main_call6_v10 (F := F))

/-- The value of buffer `main_call6_v12`. -/
def s_main_call6_v12 : (⟨S120, .i1⟩ : BufTy).Contents (Elt F) :=
  andi (s_main_call6_v11 (F := F)) (s_main_call6_v6 (F := F))

/-- The value of buffer `main_call6_v13`. -/
def s_main_call6_v13 : (⟨S120, .i32⟩ : BufTy).Contents (Elt F) :=
  (broadcastInDim S120 ![] bcast_S_S120) (s_main_call6_v2 (F := F))

/-- The value of buffer `main_call6_v14`. -/
def s_main_call6_v14 : (⟨S120, .i32⟩ : BufTy).Contents (Elt F) :=
  addi (s_main_call6_v4 (F := F)) (s_main_call6_v13 (F := F))

/-- The value of buffer `main_v23`. -/
def s_main_v23 : (⟨S120, .i32⟩ : BufTy).Contents (Elt F) :=
  select (s_main_call6_v12 (F := F)) (s_main_call6_v14 (F := F)) (s_main_call6_v4 (F := F))

/-- The value of buffer `main_c_8`. -/
def s_main_c_8 : (⟨S_, .i32⟩ : BufTy).Contents (Elt F) :=
  (constantI S_ 32 1#32)

/-- The value of buffer `main_call7_v0`. -/
def s_main_call7_v0 : (⟨S120, .i32⟩ : BufTy).Contents (Elt F) :=
  (broadcastInDim S120 ![] bcast_S_S120) (s_main_c_8 (F := F))

/-- The value of buffer `main_call7_v1`. -/
def s_main_call7_v1 : (⟨S120, .i32⟩ : BufTy).Contents (Elt F) :=
  Host.divsi (s_main_v21 (F := F)) (s_main_call7_v0 (F := F))

/-- The value of buffer `main_call7_v2`. -/
def s_main_call7_v2 : (⟨S120, .i32⟩ : BufTy).Contents (Elt F) :=
  signi (s_main_v21 (F := F))

/-- The value of buffer `main_call7_v3`. -/
def s_main_call7_v3 : (⟨S_, .i32⟩ : BufTy).Contents (Elt F) :=
  signi (s_main_c_8 (F := F))

/-- The value of buffer `main_call7_v4`. -/
def s_main_call7_v4 : (⟨S120, .i32⟩ : BufTy).Contents (Elt F) :=
  (broadcastInDim S120 ![] bcast_S_S120) (s_main_call7_v3 (F := F))

/-- The value of buffer `main_call7_v5`. -/
def s_main_call7_v5 : (⟨S120, .i1⟩ : BufTy).Contents (Elt F) :=
  (cmpi .ne) (s_main_call7_v2 (F := F)) (s_main_call7_v4 (F := F))

/-- The value of buffer `main_call7_v6`. -/
def s_main_call7_v6 : (⟨S120, .i32⟩ : BufTy).Contents (Elt F) :=
  (broadcastInDim S120 ![] bcast_S_S120) (s_main_c_8 (F := F))

/-- The value of buffer `main_call7_v7`. -/
def s_main_call7_v7 : (⟨S120, .i32⟩ : BufTy).Contents (Elt F) :=
  Host.remsi (s_main_v21 (F := F)) (s_main_call7_v6 (F := F))

/-- The value of buffer `main_call7_c`. -/
def s_main_call7_c : (⟨S_, .i32⟩ : BufTy).Contents (Elt F) :=
  (constantI S_ 32 0#32)

/-- The value of buffer `main_call7_v8`. -/
def s_main_call7_v8 : (⟨S120, .i32⟩ : BufTy).Contents (Elt F) :=
  (broadcastInDim S120 ![] bcast_S_S120) (s_main_call7_c (F := F))

/-- The value of buffer `main_call7_v9`. -/
def s_main_call7_v9 : (⟨S120, .i1⟩ : BufTy).Contents (Elt F) :=
  (cmpi .ne) (s_main_call7_v7 (F := F)) (s_main_call7_v8 (F := F))

/-- The value of buffer `main_call7_v10`. -/
def s_main_call7_v10 : (⟨S120, .i1⟩ : BufTy).Contents (Elt F) :=
  andi (s_main_call7_v5 (F := F)) (s_main_call7_v9 (F := F))

/-- The value of buffer `main_call7_c_0`. -/
def s_main_call7_c_0 : (⟨S_, .i32⟩ : BufTy).Contents (Elt F) :=
  (constantI S_ 32 1#32)

/-- The value of buffer `main_call7_v11`. -/
def s_main_call7_v11 : (⟨S120, .i32⟩ : BufTy).Contents (Elt F) :=
  (broadcastInDim S120 ![] bcast_S_S120) (s_main_call7_c_0 (F := F))

/-- The value of buffer `main_call7_v12`. -/
def s_main_call7_v12 : (⟨S120, .i32⟩ : BufTy).Contents (Elt F) :=
  subi (s_main_call7_v1 (F := F)) (s_main_call7_v11 (F := F))

/-- The value of buffer `main_v24`. -/
def s_main_v24 : (⟨S120, .i32⟩ : BufTy).Contents (Elt F) :=
  select (s_main_call7_v10 (F := F)) (s_main_call7_v12 (F := F)) (s_main_call7_v1 (F := F))

/-- The value of buffer `main_c_9`. -/
def s_main_c_9 : (⟨S_, .i32⟩ : BufTy).Contents (Elt F) :=
  (constantI S_ 32 16#32)

/-- The value of buffer `main_call8_v0`. -/
def s_main_call8_v0 : (⟨S_, .i32⟩ : BufTy).Contents (Elt F) :=
  id (s_main_c_9 (F := F))

/-- The value of buffer `main_call8_c`. -/
def s_main_call8_c : (⟨S_, .i32⟩ : BufTy).Contents (Elt F) :=
  (constantI S_ 32 0#32)

/-- The value of buffer `main_call8_v1`. -/
def s_main_call8_v1 : (⟨S_, .i1⟩ : BufTy).Contents (Elt F) :=
  (cmpi .eq) (s_main_call8_v0 (F := F)) (s_main_call8_c (F := F))

/-- The value of buffer `main_call8_c_0`. -/
def s_main_call8_c_0 : (⟨S_, .i32⟩ : BufTy).Contents (Elt F) :=
  (constantI S_ 32 1#32)

/-- The value of buffer `main_call8_v2`. -/
def s_main_call8_v2 : (⟨S_, .i32⟩ : BufTy).Contents (Elt F) :=
  select (s_main_call8_v1 (F := F)) (s_main_call8_c_0 (F := F)) (s_main_call8_v0 (F := F))

/-- The value of buffer `main_call8_v3`. -/
def s_main_call8_v3 : (⟨S120, .i32⟩ : BufTy).Contents (Elt F) :=
  (broadcastInDim S120 ![] bcast_S_S120) (s_main_call8_v2 (F := F))

/-- The value of buffer `main_call8_v4`. -/
def s_main_call8_v4 : (⟨S120, .i32⟩ : BufTy).Contents (Elt F) :=
  Host.remsi (s_main_v24 (F := F)) (s_main_call8_v3 (F := F))

/-- The value of buffer `main_call8_c_1`. -/
def s_main_call8_c_1 : (⟨S_, .i32⟩ : BufTy).Contents (Elt F) :=
  (constantI S_ 32 0#32)

/-- The value of buffer `main_call8_v5`. -/
def s_main_call8_v5 : (⟨S120, .i32⟩ : BufTy).Contents (Elt F) :=
  (broadcastInDim S120 ![] bcast_S_S120) (s_main_call8_c_1 (F := F))

/-- The value of buffer `main_call8_v6`. -/
def s_main_call8_v6 : (⟨S120, .i1⟩ : BufTy).Contents (Elt F) :=
  (cmpi .ne) (s_main_call8_v4 (F := F)) (s_main_call8_v5 (F := F))

/-- The value of buffer `main_call8_c_2`. -/
def s_main_call8_c_2 : (⟨S_, .i32⟩ : BufTy).Contents (Elt F) :=
  (constantI S_ 32 0#32)

/-- The value of buffer `main_call8_v7`. -/
def s_main_call8_v7 : (⟨S120, .i32⟩ : BufTy).Contents (Elt F) :=
  (broadcastInDim S120 ![] bcast_S_S120) (s_main_call8_c_2 (F := F))

/-- The value of buffer `main_call8_v8`. -/
def s_main_call8_v8 : (⟨S120, .i1⟩ : BufTy).Contents (Elt F) :=
  (cmpi .slt) (s_main_call8_v4 (F := F)) (s_main_call8_v7 (F := F))

/-- The value of buffer `main_call8_c_3`. -/
def s_main_call8_c_3 : (⟨S_, .i32⟩ : BufTy).Contents (Elt F) :=
  (constantI S_ 32 0#32)

/-- The value of buffer `main_call8_v9`. -/
def s_main_call8_v9 : (⟨S_, .i1⟩ : BufTy).Contents (Elt F) :=
  (cmpi .slt) (s_main_call8_v2 (F := F)) (s_main_call8_c_3 (F := F))

/-- The value of buffer `main_call8_v10`. -/
def s_main_call8_v10 : (⟨S120, .i1⟩ : BufTy).Contents (Elt F) :=
  (broadcastInDim S120 ![] bcast_S_S120) (s_main_call8_v9 (F := F))

/-- The value of buffer `main_call8_v11`. -/
def s_main_call8_v11 : (⟨S120, .i1⟩ : BufTy).Contents (Elt F) :=
  (cmpi .ne) (s_main_call8_v8 (F := F)) (s_main_call8_v10 (F := F))

/-- The value of buffer `main_call8_v12`. -/
def s_main_call8_v12 : (⟨S120, .i1⟩ : BufTy).Contents (Elt F) :=
  andi (s_main_call8_v11 (F := F)) (s_main_call8_v6 (F := F))

/-- The value of buffer `main_call8_v13`. -/
def s_main_call8_v13 : (⟨S120, .i32⟩ : BufTy).Contents (Elt F) :=
  (broadcastInDim S120 ![] bcast_S_S120) (s_main_call8_v2 (F := F))

/-- The value of buffer `main_call8_v14`. -/
def s_main_call8_v14 : (⟨S120, .i32⟩ : BufTy).Contents (Elt F) :=
  addi (s_main_call8_v4 (F := F)) (s_main_call8_v13 (F := F))

/-- The value of buffer `main_v25`. -/
def s_main_v25 : (⟨S120, .i32⟩ : BufTy).Contents (Elt F) :=
  select (s_main_call8_v12 (F := F)) (s_main_call8_v14 (F := F)) (s_main_call8_v4 (F := F))

/-- The value of buffer `main_c_10`. -/
def s_main_c_10 : (⟨S_, .i32⟩ : BufTy).Contents (Elt F) :=
  (constantI S_ 32 0#32)

/-- The value of buffer `main_v26`. -/
def s_main_v26 : (⟨S120, .i32⟩ : BufTy).Contents (Elt F) :=
  (broadcastInDim S120 ![] bcast_S_S120 : (⟨S_, .i32⟩ : BufTy).Contents (Elt F) → (⟨S120, .i32⟩ : BufTy).Contents (Elt F)) (s_main_c_10 (F := F))

/-- The value of buffer `main_v27`. -/
def s_main_v27 : (⟨S120, .i1⟩ : BufTy).Contents (Elt F) :=
  (cmpi .slt : (⟨S120, .i32⟩ : BufTy).Contents (Elt F) → (⟨S120, .i32⟩ : BufTy).Contents (Elt F) → (⟨S120, .i1⟩ : BufTy).Contents (Elt F)) (s_main_v23 (F := F)) (s_main_v26 (F := F))

/-- The value of buffer `main_c_11`. -/
def s_main_c_11 : (⟨S_, .i32⟩ : BufTy).Contents (Elt F) :=
  (constantI S_ 32 16#32)

/-- The value of buffer `main_v28`. -/
def s_main_v28 : (⟨S120, .i32⟩ : BufTy).Contents (Elt F) :=
  (broadcastInDim S120 ![] bcast_S_S120 : (⟨S_, .i32⟩ : BufTy).Contents (Elt F) → (⟨S120, .i32⟩ : BufTy).Contents (Elt F)) (s_main_c_11 (F := F))

/-- The value of buffer `main_v29`. -/
def s_main_v29 : (⟨S120, .i32⟩ : BufTy).Contents (Elt F) :=
  (addi : (⟨S120, .i32⟩ : BufTy).Contents (Elt F) → (⟨S120, .i32⟩ : BufTy).Contents (Elt F) → (⟨S120, .i32⟩ : BufTy).Contents (Elt F)) (s_main_v23 (F := F)) (s_main_v28 (F := F))

/-- The value of buffer `main_v30`. -/
def s_main_v30 : (⟨S120, .i32⟩ : BufTy).Contents (Elt F) :=
  (select : (⟨S120, .i1⟩ : BufTy).Contents (Elt F) → (⟨S120, .i32⟩ : BufTy).Contents (Elt F) → (⟨S120, .i32⟩ : BufTy).Contents (Elt F) → (⟨S120, .i32⟩ : BufTy).Contents (Elt F)) (s_main_v27 (F := F)) (s_main_v29 (F := F)) (s_main_v23 (F := F))

/-- The value of buffer `main_c_12`. -/
def s_main_c_12 : (⟨S_, .i32⟩ : BufTy).Contents (Elt F) :=
  (constantI S_ 32 0#32)

/-- The value of buffer `main_v31`. -/
def s_main_v31 : (⟨S120, .i32⟩ : BufTy).Contents (Elt F) :=
  (broadcastInDim S120 ![] bcast_S_S120 : (⟨S_, .i32⟩ : BufTy).Contents (Elt F) → (⟨S120, .i32⟩ : BufTy).Contents (Elt F)) (s_main_c_12 (F := F))

/-- The value of buffer `main_v32`. -/
def s_main_v32 : (⟨S120, .i1⟩ : BufTy).Contents (Elt F) :=
  (cmpi .slt : (⟨S120, .i32⟩ : BufTy).Contents (Elt F) → (⟨S120, .i32⟩ : BufTy).Contents (Elt F) → (⟨S120, .i1⟩ : BufTy).Contents (Elt F)) (s_main_v25 (F := F)) (s_main_v31 (F := F))

/-- The value of buffer `main_c_13`. -/
def s_main_c_13 : (⟨S_, .i32⟩ : BufTy).Contents (Elt F) :=
  (constantI S_ 32 16#32)

/-- The value of buffer `main_v33`. -/
def s_main_v33 : (⟨S120, .i32⟩ : BufTy).Contents (Elt F) :=
  (broadcastInDim S120 ![] bcast_S_S120 : (⟨S_, .i32⟩ : BufTy).Contents (Elt F) → (⟨S120, .i32⟩ : BufTy).Contents (Elt F)) (s_main_c_13 (F := F))

/-- The value of buffer `main_v34`. -/
def s_main_v34 : (⟨S120, .i32⟩ : BufTy).Contents (Elt F) :=
  (addi : (⟨S120, .i32⟩ : BufTy).Contents (Elt F) → (⟨S120, .i32⟩ : BufTy).Contents (Elt F) → (⟨S120, .i32⟩ : BufTy).Contents (Elt F)) (s_main_v25 (F := F)) (s_main_v33 (F := F))

/-- The value of buffer `main_v35`. -/
def s_main_v35 : (⟨S120, .i32⟩ : BufTy).Contents (Elt F) :=
  (select : (⟨S120, .i1⟩ : BufTy).Contents (Elt F) → (⟨S120, .i32⟩ : BufTy).Contents (Elt F) → (⟨S120, .i32⟩ : BufTy).Contents (Elt F) → (⟨S120, .i32⟩ : BufTy).Contents (Elt F)) (s_main_v32 (F := F)) (s_main_v34 (F := F)) (s_main_v25 (F := F))

/-- The value of buffer `main_v36`. -/
def s_main_v36 : (⟨S120x1, .i32⟩ : BufTy).Contents (Elt F) :=
  (broadcastInDim S120x1 ![0] bcast_S120_S120x1_0 : (⟨S120, .i32⟩ : BufTy).Contents (Elt F) → (⟨S120x1, .i32⟩ : BufTy).Contents (Elt F)) (s_main_v30 (F := F))

/-- The value of buffer `main_v37`. -/
def s_main_v37 : (⟨S120x1, .i32⟩ : BufTy).Contents (Elt F) :=
  (broadcastInDim S120x1 ![0] bcast_S120_S120x1_0 : (⟨S120, .i32⟩ : BufTy).Contents (Elt F) → (⟨S120x1, .i32⟩ : BufTy).Contents (Elt F)) (s_main_v35 (F := F))

/-- The value of buffer `main_v38`. -/
def s_main_v38 : (⟨S120x2, .i32⟩ : BufTy).Contents (Elt F) :=
  ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)) (s_main_v36 (F := F)) (s_main_v37 (F := F))

/-- The value of buffer `main_v39`. -/
def s_main_v39 (a0 : (⟨S65536x16x128, .f32⟩ : BufTy).Contents (Elt F)) : (⟨S65536x120, .f32⟩ : BufTy).Contents (Elt F) :=
  ((fun x i => Host.gather gather_S65536x16x16_S120x2_S65536x120_0_12_n_n_12_1_6553611 x i) : (⟨S65536x16x16, .f32⟩ : BufTy).Contents (Elt F) → (⟨S120x2, .i32⟩ : BufTy).Contents (Elt F) → (⟨S65536x120, .f32⟩ : BufTy).Contents (Elt F)) (s_main_v5 a0) (s_main_v38 (F := F))

/-- The value of buffer `main_v40`. -/
def s_main_v40 (a0 : (⟨S65536x16x128, .f32⟩ : BufTy).Contents (Elt F)) (a1 : (⟨S120x128, .f32⟩ : BufTy).Contents (Elt F)) : (⟨S65536x128, .f32⟩ : BufTy).Contents (Elt F) :=
  ((fun l r => Host.dotGeneral dot_S65536x120_S120x128_S65536x128_1_0_0_1_n_n none l r) : (⟨S65536x120, .f32⟩ : BufTy).Contents (Elt F) → (⟨S120x128, .f32⟩ : BufTy).Contents (Elt F) → (⟨S65536x128, .f32⟩ : BufTy).Contents (Elt F)) (s_main_v39 a0) a1

/-- The value of buffer `main_v41`. -/
def s_main_v41 (a2 : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) a2

/-- The value of buffer `main_v42`. -/
def s_main_v42 (a2 : (⟨S128, .f32⟩ : BufTy).Contents (Elt F)) : (⟨S65536x128, .f32⟩ : BufTy).Contents (Elt F) :=
  (broadcastInDim S65536x128 ![0, 1] bcast_S1x128_S65536x128_0_1 : (⟨S1x128, .f32⟩ : BufTy).Contents (Elt F) → (⟨S65536x128, .f32⟩ : BufTy).Contents (Elt F)) (s_main_v41 a2)

/-- The value of buffer `main_v43`. -/
def s_main_v43 (a0 : (⟨S65536x16x128, .f32⟩ : BufTy).Contents (Elt F)) (a1 : (⟨S120x128, .f32⟩ : BufTy).Contents (Elt F)) (a2 : (⟨S128, .f32⟩ : BufTy).Contents (Elt F)) : (⟨S65536x128, .f32⟩ : BufTy).Contents (Elt F) :=
  (addf : (⟨S65536x128, .f32⟩ : BufTy).Contents (Elt F) → (⟨S65536x128, .f32⟩ : BufTy).Contents (Elt F) → (⟨S65536x128, .f32⟩ : BufTy).Contents (Elt F)) (s_main_v40 a0 a1) (s_main_v42 a2)

/-- The value of buffer `main_call9_cst`. -/
def s_main_call9_cst : (⟨S_, .f32⟩ : BufTy).Contents (Elt F) :=
  (constant S_ .f32 0x00000000#32)

/-- The value of buffer `main_call9_v0`. -/
def s_main_call9_v0 : (⟨S65536x128, .f32⟩ : BufTy).Contents (Elt F) :=
  (broadcastInDim S65536x128 ![] bcast_S_S65536x128) (s_main_call9_cst (F := F))

/-- The value of buffer `main_v44`. -/
def s_main_v44 (a0 : (⟨S65536x16x128, .f32⟩ : BufTy).Contents (Elt F)) (a1 : (⟨S120x128, .f32⟩ : BufTy).Contents (Elt F)) (a2 : (⟨S128, .f32⟩ : BufTy).Contents (Elt F)) : (⟨S65536x128, .f32⟩ : BufTy).Contents (Elt F) :=
  maximumf (s_main_v43 a0 a1 a2) (s_main_call9_v0 (F := F))

/-- The value of buffer `main_v45`. -/
def s_main_v45 (a0 : (⟨S65536x16x128, .f32⟩ : BufTy).Contents (Elt F)) (a1 : (⟨S120x128, .f32⟩ : BufTy).Contents (Elt F)) (a2 : (⟨S128, .f32⟩ : BufTy).Contents (Elt F)) (a3 : (⟨S128x128, .f32⟩ : BufTy).Contents (Elt F)) : (⟨S65536x128, .f32⟩ : BufTy).Contents (Elt F) :=
  ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)) (s_main_v44 a0 a1 a2) a3

/-- The value of buffer `main_v46`. -/
def s_main_v46 (a4 : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) a4

/-- The value of buffer `main_v47`. -/
def s_main_v47 (a4 : (⟨S128, .f32⟩ : BufTy).Contents (Elt F)) : (⟨S65536x128, .f32⟩ : BufTy).Contents (Elt F) :=
  (broadcastInDim S65536x128 ![0, 1] bcast_S1x128_S65536x128_0_1 : (⟨S1x128, .f32⟩ : BufTy).Contents (Elt F) → (⟨S65536x128, .f32⟩ : BufTy).Contents (Elt F)) (s_main_v46 a4)

/-- The value of buffer `main_v48`. -/
def s_main_v48 (a0 : (⟨S65536x16x128, .f32⟩ : BufTy).Contents (Elt F)) (a1 : (⟨S120x128, .f32⟩ : BufTy).Contents (Elt F)) (a2 : (⟨S128, .f32⟩ : BufTy).Contents (Elt F)) (a3 : (⟨S128x128, .f32⟩ : BufTy).Contents (Elt F)) (a4 : (⟨S128, .f32⟩ : BufTy).Contents (Elt F)) : (⟨S65536x128, .f32⟩ : BufTy).Contents (Elt F) :=
  (addf : (⟨S65536x128, .f32⟩ : BufTy).Contents (Elt F) → (⟨S65536x128, .f32⟩ : BufTy).Contents (Elt F) → (⟨S65536x128, .f32⟩ : BufTy).Contents (Elt F)) (s_main_v45 a0 a1 a2 a3) (s_main_v47 a4)

/-- The reference's result as a function of its five arguments. -/
abbrev refOut (a0 : (⟨S65536x16x128, .f32⟩ : BufTy).Contents (Elt F)) (a1 : (⟨S120x128, .f32⟩ : BufTy).Contents (Elt F)) (a2 : (⟨S128, .f32⟩ : BufTy).Contents (Elt F)) (a3 : (⟨S128x128, .f32⟩ : BufTy).Contents (Elt F)) (a4 : (⟨S128, .f32⟩ : BufTy).Contents (Elt F)) : (⟨S65536x128, .f32⟩ : BufTy).Contents (Elt F) :=
  s_main_v48 a0 a1 a2 a3 a4

/-- The table of index pairs the reference's gather reads: it depends on no argument. -/
abbrev pairTable : (⟨S120x2, .i32⟩ : BufTy).Contents (Elt F) := s_main_v38 (F := F)

end Cert.ReferenceIdeal.RefOps

end
-- ==== Proof.RefRun.lean ====
/-
  The reference program's run.

  The printed program is a straight line of 157 host operations once the functions it calls (and those they call in
  turn) are unfolded at their calls; a straight line ends with every buffer at the fold of its operations' results over the launch contents. What
  the fold leaves in the result buffer is read in stretches. The table of index pairs (columns `main_v36`,
  `main_v37`) comes out of a chain of integer stages that depend on no argument and are each read several times by
  the next (the running count by both floor divisions, a first remainder four times, a reduced index three times), so
  the chain is read stage by stage, each stage over ANY contents that hold the stage before it: no term then repeats
  an earlier stage. The float side of the first 144 operations is the matrix of inner products `main_v5`. The last
  thirteen operations — the two columns joined, the gather through the table, the two affine layers — are read over
  any contents holding those three values and the four parameter arrays, and the three readings compose to `refOut`.
-/
import proofs.«172230_j20555713478745_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The program is the straight line of its operations -/

set_option maxRecDepth 8192 in
set_option maxHeartbeats 1000000 in
/-- @main is the straight line `ops`: its two windows and the functions it calls unfolded at their calls, the call
    records at their fields, the sequencing reassociated. -/
theorem main_eq (c : Dev nD) : main (F := F) c = seq ops := by
  simp only [main, main_part0, main_part1, fn_norm.body, fn_triu.body, fn_cumsum.body, fn_cumsum_0.body, fn_clip.body,
    fn_cumsum_1.body, fn_cumsum_2.body, fn_floor_divide.body, fn_where.body, fn_remainder.body, fn_where_3.body, fn_relu.body,
    seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: one fact per operation, in the line's order. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    unary_bufs_sub .., nullary_bufs_sub .., nullary_bufs_sub .., unary_bufs_sub .., binary_bufs_sub .., nullary_bufs_sub ..,
    binary_bufs_sub .., nullary_bufs_sub .., unary_bufs_sub .., ternary_bufs_sub .., nullary_bufs_sub .., unary_bufs_sub ..,
    binary_bufs_sub .., reshape_bufs_sub .., unary_bufs_sub .., nullary_bufs_sub .., unary_bufs_sub .., binary_bufs_sub ..,
    nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-! ## Cutting the line

The contents after a line run from `V` are those after its second part run from the contents after its first. -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first `k + n` operations are the first `k`, then the next `n`. -/
theorem after_take_add (l : List (HloOp τ sig (Elt F))) (k n : ℕ) (V : Valuation τ sig (Elt F)) :
    after (l.take (k + n)) V = after ((l.drop k).take n) (after (l.take k) V) := by
  rw [List.take_add, after_append]

section Stages

-- the reductions, searches and elementwise host functions stay folded: both sides of every equation below apply them
-- to the same operands, and no equation looks inside one
attribute [local irreducible] Host.reduceAdd Host.gather Host.scatter Host.reduceWindow Host.sqrt Host.divf Host.divsi Host.remsi
set_option maxRecDepth 8192
set_option maxHeartbeats 400000

/-- Reads one stretch of the line at one buffer: the stretch as a literal list, each operation's result at its own
    buffer and every other buffer passed over, the identity casts of the typed references dropped, the earlier
    stage's value put in; what is left are the same operations on both sides. -/
local macro "read_stage" h:ident : tactic => `(tactic| (
  simp only [ops, List.drop_succ_cons, List.drop_zero, List.take_succ_cons, List.take_zero]
  after_results_simp
  simp only [cast_eq, $h:ident]
  rfl))

/-! ## The index chain, stage by stage -/

/-- The first thirty operations, read at the running count of the strict upper triangle's mask (row-major, 256 entries). -/
theorem pre_v10 (V : Valuation τ sig (Elt F)) :
    after (ops.take 30) V (main_v10 : DevRef τ sig) = s_main_v10 (F := F) := by
  simp only [ops, List.take_succ_cons, List.take_zero]
  after_results_simp
  simp only [cast_eq]
  rfl

/-- Operations 30 … 46: the count clipped below at zero and wrapped by the table's length, and one added at each such index into a table of 120 zeros. -/
theorem stage_v20 (W : Valuation τ sig (Elt F)) (h : W (main_v10 : DevRef τ sig) = s_main_v10 (F := F)) :
    after ((ops.drop 30).take 17) W (main_v20 : DevRef τ sig) = s_main_v20 (F := F) := by
  read_stage h

theorem pre_v20 (V : Valuation τ sig (Elt F)) :
    after (ops.take 47) V (main_v20 : DevRef τ sig) = s_main_v20 (F := F) := by
  rw [show (47 : ℕ) = 30 + 17 from rfl, after_take_add]
  exact stage_v20 _ (pre_v10 V)

/-- Operations 47 … 49: the running sum of that table. -/
theorem stage_v21 (W : Valuation τ sig (Elt F)) (h : W (main_v20 : DevRef τ sig) = s_main_v20 (F := F)) :
    after ((ops.drop 47).take 3) W (main_v21 : DevRef τ sig) = s_main_v21 (F := F) := by
  read_stage h

theorem pre_v21 (V : Valuation τ sig (Elt F)) :
    after (ops.take 50) V (main_v21 : DevRef τ sig) = s_main_v21 (F := F) := by
  rw [show (50 : ℕ) = 47 + 3 from rfl, after_take_add]
  exact stage_v21 _ (pre_v20 V)

/-- Operations 50 … 88: the running sum floor-divided by sixteen, then reduced modulo sixteen. -/
theorem stage_v23 (W : Valuation τ sig (Elt F)) (h : W (main_v21 : DevRef τ sig) = s_main_v21 (F := F)) :
    after ((ops.drop 50).take 39) W (main_v23 : DevRef τ sig) = s_main_v23 (F := F) := by
  read_stage h

theorem pre_v23 (V : Valuation τ sig (Elt F)) :
    after (ops.take 89) V (main_v23 : DevRef τ sig) = s_main_v23 (F := F) := by
  rw [show (89 : ℕ) = 50 + 39 from rfl, after_take_add]
  exact stage_v23 _ (pre_v21 V)

/-- Operations 50 … 127, read at the second reduced index: the running sum floor-divided by one, then reduced modulo sixteen. -/
theorem stage_v25 (W : Valuation τ sig (Elt F)) (h : W (main_v21 : DevRef τ sig) = s_main_v21 (F := F)) :
    after ((ops.drop 50).take 78) W (main_v25 : DevRef τ sig) = s_main_v25 (F := F) := by
  read_stage h

theorem pre_v25 (V : Valuation τ sig (Elt F)) :
    after (ops.take 128) V (main_v25 : DevRef τ sig) = s_main_v25 (F := F) := by
  rw [show (128 : ℕ) = 50 + 78 from rfl, after_take_add]
  exact stage_v25 _ (pre_v21 V)

/-- Operations 89 … 143, read at the table's first column: the first reduced index wrapped into range. -/
theorem stage_v36 (W : Valuation τ sig (Elt F)) (h : W (main_v23 : DevRef τ sig) = s_main_v23 (F := F)) :
    after ((ops.drop 89).take 55) W (main_v36 : DevRef τ sig) = s_main_v36 (F := F) := by
  read_stage h

theorem pre_v36 (V : Valuation τ sig (Elt F)) :
    after (ops.take 144) V (main_v36 : DevRef τ sig) = s_main_v36 (F := F) := by
  rw [show (144 : ℕ) = 89 + 55 from rfl, after_take_add]
  exact stage_v36 _ (pre_v23 V)

/-- Operations 128 … 143, read at the table's second column: the second reduced index wrapped into range. -/
theorem stage_v37 (W : Valuation τ sig (Elt F)) (h : W (main_v25 : DevRef τ sig) = s_main_v25 (F := F)) :
    after ((ops.drop 128).take 16) W (main_v37 : DevRef τ sig) = s_main_v37 (F := F) := by
  read_stage h

theorem pre_v37 (V : Valuation τ sig (Elt F)) :
    after (ops.take 144) V (main_v37 : DevRef τ sig) = s_main_v37 (F := F) := by
  rw [show (144 : ℕ) = 128 + 16 from rfl, after_take_add]
  exact stage_v37 _ (pre_v25 V)

/-! ## The float side of the first 144 operations -/

/-- The matrix of inner products of the scaled vectors: written by the eleventh operation, untouched after. -/
theorem head_v5 (V : Valuation τ sig (Elt F)) :
    after (ops.take 144) V (main_v5 : DevRef τ sig) = s_main_v5 (V (main_arg0 : DevRef τ sig)) := by
  simp only [ops, List.take_succ_cons, List.take_zero]
  after_results_simp
  simp only [cast_eq]
  rfl

/-- The four parameter arrays are written by no operation. -/
theorem head_arg1 (V : Valuation τ sig (Elt F)) :
    after (ops.take 144) V (main_arg1 : DevRef τ sig) = V (main_arg1 : DevRef τ sig) := by
  simp only [ops, List.take_succ_cons, List.take_zero]
  after_results_simp

theorem head_arg2 (V : Valuation τ sig (Elt F)) :
    after (ops.take 144) V (main_arg2 : DevRef τ sig) = V (main_arg2 : DevRef τ sig) := by
  simp only [ops, List.take_succ_cons, List.take_zero]
  after_results_simp

theorem head_arg3 (V : Valuation τ sig (Elt F)) :
    after (ops.take 144) V (main_arg3 : DevRef τ sig) = V (main_arg3 : DevRef τ sig) := by
  simp only [ops, List.take_succ_cons, List.take_zero]
  after_results_simp

theorem head_arg4 (V : Valuation τ sig (Elt F)) :
    after (ops.take 144) V (main_arg4 : DevRef τ sig) = V (main_arg4 : DevRef τ sig) := by
  simp only [ops, List.take_succ_cons, List.take_zero]
  after_results_simp

/-! ## The last thirteen operations, and the whole line -/

/-- The last thirteen operations — the table's two columns joined, the gather of the 120 products through it, the two
    affine layers — over any contents `W` that hold the products, the two columns and the four parameter arrays. -/
theorem tail_eq (W : Valuation τ sig (Elt F)) (a0 : (⟨S65536x16x128, .f32⟩ : BufTy).Contents (Elt F))
    (a1 : (⟨S120x128, .f32⟩ : BufTy).Contents (Elt F)) (a2 : (⟨S128, .f32⟩ : BufTy).Contents (Elt F))
    (a3 : (⟨S128x128, .f32⟩ : BufTy).Contents (Elt F)) (a4 : (⟨S128, .f32⟩ : BufTy).Contents (Elt F))
    (h5 : W (main_v5 : DevRef τ sig) = s_main_v5 a0)
    (h36 : W (main_v36 : DevRef τ sig) = s_main_v36 (F := F)) (h37 : W (main_v37 : DevRef τ sig) = s_main_v37 (F := F))
    (h1 : W (main_arg1 : DevRef τ sig) = a1) (h2 : W (main_arg2 : DevRef τ sig) = a2)
    (h3 : W (main_arg3 : DevRef τ sig) = a3) (h4 : W (main_arg4 : DevRef τ sig) = a4) :
    after (ops.drop 144) W (main_v48 : DevRef τ sig) = refOut a0 a1 a2 a3 a4 := by
  simp only [ops, List.drop_succ_cons, List.drop_zero]
  after_results_simp
  simp only [cast_eq, h5, h1, h2, h3, h4]
  rw [h36, h37]
  rfl

/-- The result buffer after the whole line holds `refOut` of the five arguments' contents. -/
theorem out_eq (V : Valuation τ sig (Elt F)) :
    after ops V (main_v48 : DevRef τ sig)
      = refOut (V (main_arg0 : DevRef τ sig)) (V (main_arg1 : DevRef τ sig)) (V (main_arg2 : DevRef τ sig))
          (V (main_arg3 : DevRef τ sig)) (V (main_arg4 : DevRef τ sig)) := by
  have h : after ops V = after (ops.drop 144) (after (ops.take 144) V) := by
    rw [← after_append, List.take_append_drop]
  rw [h]
  exact tail_eq _ _ _ _ _ _ (head_v5 V) (pre_v36 V) (pre_v37 V) (head_arg1 V) (head_arg2 V) (head_arg3 V) (head_arg4 V)

/-! ## The arguments -/

/-- No operation of the line writes argument 0. -/
theorem arg0_eq (V : Valuation τ sig (Elt F)) :
    after ops V (main_arg0 : DevRef τ sig) = V (main_arg0 : DevRef τ sig) := by
  after_results_simp

/-- No operation of the line writes argument 1. -/
theorem arg1_eq (V : Valuation τ sig (Elt F)) :
    after ops V (main_arg1 : DevRef τ sig) = V (main_arg1 : DevRef τ sig) := by
  after_results_simp

/-- No operation of the line writes argument 2. -/
theorem arg2_eq (V : Valuation τ sig (Elt F)) :
    after ops V (main_arg2 : DevRef τ sig) = V (main_arg2 : DevRef τ sig) := by
  after_results_simp

/-- No operation of the line writes argument 3. -/
theorem arg3_eq (V : Valuation τ sig (Elt F)) :
    after ops V (main_arg3 : DevRef τ sig) = V (main_arg3 : DevRef τ sig) := by
  after_results_simp

/-- No operation of the line writes argument 4. -/
theorem arg4_eq (V : Valuation τ sig (Elt F)) :
    after ops V (main_arg4 : DevRef τ sig) = V (main_arg4 : DevRef τ sig) := by
  after_results_simp

end Stages

/-! ## The run -/

/-- On every device, at any float instance, from any memory with zero counters: every weakly fair execution of the
    reference program terminates with the result buffer at `refOut` of the five arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v48).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.RefTable.lean ====
/- The literal tables `t10`, `t20` and `t21` below were computed by this directory's script scratch/b_tables.js (a table
   of values, no argument); full invocation, from the unit directory: bun scratch/b_tables.js -/
/-
  The table of index pairs the reference's gather reads is the list of the pairs `k < l` of the strict upper triangle of
  a 16 × 16 matrix, rows first: entry `(p, 0)` is `first p` and entry `(p, 1)` is `second p`.

  The reference builds the table at run time from a mask. The mask is 1 above the diagonal and 0 elsewhere (the one
  step on numbers: "the entry is not 0.0" of a matrix of 0.0 and 1.0). Everything after it is arithmetic on 32-bit words
  of closed terms, read here stage by stage, each stage's value a literal table checked entry by entry:
  the running count of the mask over its 256 positions in row-major order; for each `k < 120` the number of positions
  whose running count is `k`; the running sum of those numbers, which is the flat position of set entry number `p`;
  that position's quotient and remainder by 16 (with the sign corrections of a floor division and of a negative index,
  none of which fires on these values); the two columns side by side.
-/
import proofs.«172230_j20555713478745_1_alg».proof.Proof.RefOps
import proofs.«172230_j20555713478745_1_alg».proof.Proof.Spec
import Idealize.ShloMosaic.Lib.ValueIdx
import Idealize.ShloMosaic.PureOps.Ideal.Laws

set_option Elab.async false

noncomputable section

namespace Cert.ReferenceIdeal.RefTable

open Cert.ReferenceIdeal Cert.ReferenceIdeal.Gen Cert.ReferenceIdeal.RefOps Idealize.ShloMosaic Idealize.ShloMosaic.ValueIdx

/-! ## The mask -/

/-- The single-precision word of 1.0 denotes the number one: exponent field 127, fraction 0, so `2²³ · 2⁻²³`. -/
theorem one_f32 : Ideal.ofBits .f32 1065353216#32 = 1 := by
  simp [Ideal.ofBits, Ideal.ieee]
  rw [← EReal.coe_mul]; norm_num

/-- On coordinates below 16 the signed comparison `row + 0 ≥ column` of 32-bit words is the comparison of the numbers. -/
theorem sge_key : ∀ i j : Fin 16, IntOp.cmpi .sge (IntOp.addi (BitVec.ofNat 32 i.val) 0#32) (BitVec.ofNat 32 j.val)
    = if i.val < j.val then 0#1 else 1#1 := by decide

/-- The mask at `(i, j)`: the matrix holds 0.0 where `i ≥ j` and 1.0 where `i < j`, and "differs from 0.0" is the bit
    `1` exactly at the entries 1.0, because `1 ≠ 0` on the extended reals. -/
theorem v9_apply (i j : Fin 16) : s_main_v9 (F := Ideal) (ix2 i j) = if i.val < j.val then 1#1 else 0#1 := by
  unfold s_main_v9 s_main_v8 s_main_cst_1 s_main_v7 s_main_call1_v5 s_main_call1_cst s_main_v6 s_main_cst_0
    s_main_call1_v4 s_main_call1_v3 s_main_call1_v2 s_main_call1_v1 s_main_call1_c s_main_call1_v0
  show Ideal.cmp .une (Scalar.select (IntOp.cmpi .sge (IntOp.addi (BitVec.ofNat 32 i.val) 0#32) (BitVec.ofNat 32 j.val))
    (Ideal.ofBits .f32 0#32) (Ideal.ofBits .f32 1065353216#32)) (Ideal.ofBits .f32 0#32) = _
  rw [Ideal.ofBits_zero_f32, one_f32, sge_key]
  by_cases h : i.val < j.val
  · rw [if_pos h, if_pos h, select_zero]
    simp [Ideal.cmp]
  · rw [if_neg h, if_neg h, select_one]
    simp [Ideal.cmp]

theorem v9_fun : s_main_v9 (F := Ideal) = fun j => if (j 0).val < (j 1).val then 1#1 else 0#1 := by
  funext j
  obtain ⟨a, b, rfl⟩ : ∃ a b, j = ix2 a b := ⟨j 0, j 1, eq_ix2 j⟩
  exact v9_apply a b

/-- The mask as a vector of 256 words in row-major order: entry `n` is 1 exactly when its column `n % 16` exceeds its
    row `n / 16`. -/
theorem v1_tab : ∀ n : Fin 256, s_main_call2_v1 (F := Ideal) (ix1 n) = if n.val / 16 < n.val % 16 then 1#32 else 0#32 := by
  unfold s_main_call2_v1 s_main_call2_v0
  rw [v9_fun]
  decide +kernel

theorem v1_fun : s_main_call2_v1 (F := Ideal) = fun j => if (j 0).val / 16 < (j 0).val % 16 then 1#32 else 0#32 := by
  funext j
  obtain ⟨n, rfl⟩ : ∃ n, j = ix1 n := ⟨j 0, eq_ix1 j⟩
  exact v1_tab n

/-! ## The running count of the mask -/

/-- Running count of the mask: entry `n` is the number of set mask entries at positions `0 … n`. -/
def t10 : Fin 256 → BitVec 32 :=
  ![0, 1, 2, 3, 4, 5, 6, 7, 8, 9, 10, 11, 12, 13, 14, 15, 15, 15, 16, 17, 18, 19, 20, 21, 22, 23, 24, 25, 26, 27, 28, 29, 29, 29, 29, 30, 31, 32, 33, 34, 35, 36, 37, 38, 39, 40, 41, 42, 42, 42, 42, 42, 43, 44, 45, 46, 47, 48, 49, 50, 51, 52, 53, 54, 54, 54, 54, 54, 54, 55, 56, 57, 58, 59, 60, 61, 62, 63, 64, 65, 65, 65, 65, 65, 65, 65, 66, 67, 68, 69, 70, 71, 72, 73, 74, 75, 75, 75, 75, 75, 75, 75, 75, 76, 77, 78, 79, 80, 81, 82, 83, 84, 84, 84, 84, 84, 84, 84, 84, 84, 85, 86, 87, 88, 89, 90, 91, 92, 92, 92, 92, 92, 92, 92, 92, 92, 92, 93, 94, 95, 96, 97, 98, 99, 99, 99, 99, 99, 99, 99, 99, 99, 99, 99, 100, 101, 102, 103, 104, 105, 105, 105, 105, 105, 105, 105, 105, 105, 105, 105, 105, 106, 107, 108, 109, 110, 110, 110, 110, 110, 110, 110, 110, 110, 110, 110, 110, 110, 111, 112, 113, 114, 114, 114, 114, 114, 114, 114, 114, 114, 114, 114, 114, 114, 114, 115, 116, 117, 117, 117, 117, 117, 117, 117, 117, 117, 117, 117, 117, 117, 117, 117, 118, 119, 119, 119, 119, 119, 119, 119, 119, 119, 119, 119, 119, 119, 119, 119, 119, 120, 120, 120, 120, 120, 120, 120, 120, 120, 120, 120, 120, 120, 120, 120, 120, 120]

/-- The windowed sum (a window of 256 positions ending at `p`, zeros in front) is the running count. -/
theorem v10_tab : ∀ p : Fin 256, s_main_v10 (F := Ideal) (ix1 p) = t10 p := by
  unfold s_main_v10 s_main_call2_call0_v0 s_main_call2_call0_c
  rw [v1_fun]
  decide +kernel

theorem v10_fun : s_main_v10 (F := Ideal) = fun j => t10 (j 0) := by
  funext j
  obtain ⟨n, rfl⟩ : ∃ n, j = ix1 n := ⟨j 0, eq_ix1 j⟩
  exact v10_tab n

/-- No running count is negative, so the clip at zero and the wrap of negative indices leave it as it is; as a column of
    256 one-word index vectors it is the same table. -/
theorem v18_tab : ∀ (n : Fin 256) (b : Fin 1), s_main_v18 (F := Ideal) (ix2 n b) = t10 n := by
  unfold s_main_v18 s_main_v17 s_main_v16 s_main_v15 s_main_c_4 s_main_v14 s_main_v13 s_main_c_3 s_main_v12
    s_main_call3_v1 s_main_call3_v0 s_main_c_2
  rw [v10_fun]
  decide +kernel

theorem v18_fun : s_main_v18 (F := Ideal) = fun j => t10 (j 0) := by
  funext j
  obtain ⟨n, b, rfl⟩ : ∃ n b, j = ix2 n b := ⟨j 0, j 1, eq_ix2 j⟩
  exact v18_tab n b

/-! ## How many positions have each running count, and the running sum of those numbers -/

/-- Entry `k` is the number of positions whose running count is `k`: one for each position from set entry number `k`
    (counted from one) up to just before the next set entry; positions before the first set entry count for `0`, and
    the positions from the last set entry on have count 120, which lies outside the 120 entries and is dropped. -/
def t20 : Fin 120 → BitVec 32 :=
  ![1, 1, 1, 1, 1, 1, 1, 1, 1, 1, 1, 1, 1, 1, 1, 3, 1, 1, 1, 1, 1, 1, 1, 1, 1, 1, 1, 1, 1, 4, 1, 1, 1, 1, 1, 1, 1, 1, 1, 1, 1, 1, 5, 1, 1, 1, 1, 1, 1, 1, 1, 1, 1, 1, 6, 1, 1, 1, 1, 1, 1, 1, 1, 1, 1, 7, 1, 1, 1, 1, 1, 1, 1, 1, 1, 8, 1, 1, 1, 1, 1, 1, 1, 1, 9, 1, 1, 1, 1, 1, 1, 1, 10, 1, 1, 1, 1, 1, 1, 11, 1, 1, 1, 1, 1, 12, 1, 1, 1, 1, 13, 1, 1, 1, 14, 1, 1, 15, 1, 16]

/-- Adding 1 at index (running count of `n`) for each of the 256 positions `n`, into 120 zeros, out-of-range indices
    dropped. -/
theorem v20_tab : ∀ k : Fin 120, s_main_v20 (F := Ideal) (ix1 k) = t20 k := by
  unfold s_main_v20 s_main_v19 s_main_c_5 s_main_v11 s_main_c
  rw [v18_fun]
  decide +kernel

theorem v20_fun : s_main_v20 (F := Ideal) = fun j => t20 (j 0) := by
  funext j
  obtain ⟨k, rfl⟩ : ∃ k, j = ix1 k := ⟨j 0, eq_ix1 j⟩
  exact v20_tab k

/-- Entry `p` is the number of positions whose running count is at most `p`: the flat position `16 · row + column`
    of set entry number `p` (counted from zero). -/
def t21 : Fin 120 → BitVec 32 :=
  ![1, 2, 3, 4, 5, 6, 7, 8, 9, 10, 11, 12, 13, 14, 15, 18, 19, 20, 21, 22, 23, 24, 25, 26, 27, 28, 29, 30, 31, 35, 36, 37, 38, 39, 40, 41, 42, 43, 44, 45, 46, 47, 52, 53, 54, 55, 56, 57, 58, 59, 60, 61, 62, 63, 69, 70, 71, 72, 73, 74, 75, 76, 77, 78, 79, 86, 87, 88, 89, 90, 91, 92, 93, 94, 95, 103, 104, 105, 106, 107, 108, 109, 110, 111, 120, 121, 122, 123, 124, 125, 126, 127, 137, 138, 139, 140, 141, 142, 143, 154, 155, 156, 157, 158, 159, 171, 172, 173, 174, 175, 188, 189, 190, 191, 205, 206, 207, 222, 223, 239]

/-- The windowed sum of `t20` (a window of 120 entries ending at `p`, zeros in front) is its running sum. -/
theorem v21_tab : ∀ p : Fin 120, s_main_v21 (F := Ideal) (ix1 p) = t21 p := by
  unfold s_main_v21 s_main_call4_call0_v0 s_main_call4_call0_c
  rw [v20_fun]
  decide +kernel

theorem v21_fun : s_main_v21 (F := Ideal) = fun j => t21 (j 0) := by
  funext j
  obtain ⟨p, rfl⟩ : ∃ p, j = ix1 p := ⟨j 0, eq_ix1 j⟩
  exact v21_tab p

/-! ## Row and column of each flat position -/

/-- The row of set entry `p`: its flat position floor-divided by 16, then reduced modulo 16 (both with the sign
    corrections a floor division and a modulus carry, and the wrap of a negative index; the positions are between 1 and
    239, so every correction is the identity) is `first p`. -/
theorem v30_tab : ∀ p : Fin 120, s_main_v30 (F := Ideal) (ix1 p) = BitVec.ofNat 32 (Cert.Spec.first p).val := by
  unfold s_main_v30 s_main_v29 s_main_v28 s_main_c_11 s_main_v27 s_main_v26 s_main_c_10 s_main_v23
    s_main_call6_v14 s_main_call6_v13 s_main_call6_v12 s_main_call6_v6 s_main_call6_v5 s_main_call6_c_1
    s_main_call6_v11 s_main_call6_v10 s_main_call6_v9 s_main_call6_c_3 s_main_call6_v8 s_main_call6_v7
    s_main_call6_c_2 s_main_call6_v4 s_main_call6_v3 s_main_call6_v2 s_main_call6_c_0 s_main_call6_v1
    s_main_call6_c s_main_call6_v0 s_main_c_7 s_main_v22 s_main_call5_v12 s_main_call5_v11 s_main_call5_c_0
    s_main_call5_v1 s_main_call5_v0 s_main_call5_v10 s_main_call5_v9 s_main_call5_v8 s_main_call5_c
    s_main_call5_v7 s_main_call5_v6 s_main_call5_v5 s_main_call5_v4 s_main_call5_v3 s_main_c_6
    s_main_call5_v2
  rw [v21_fun]
  decide +kernel

/-- The column of set entry `p`: its flat position floor-divided by 1, then reduced modulo 16 (the same corrections, the
    identity again) is `second p`. -/
theorem v35_tab : ∀ p : Fin 120, s_main_v35 (F := Ideal) (ix1 p) = BitVec.ofNat 32 (Cert.Spec.second p).val := by
  unfold s_main_v35 s_main_v34 s_main_v33 s_main_c_13 s_main_v32 s_main_v31 s_main_c_12 s_main_v25
    s_main_call8_v14 s_main_call8_v13 s_main_call8_v12 s_main_call8_v6 s_main_call8_v5 s_main_call8_c_1
    s_main_call8_v11 s_main_call8_v10 s_main_call8_v9 s_main_call8_c_3 s_main_call8_v8 s_main_call8_v7
    s_main_call8_c_2 s_main_call8_v4 s_main_call8_v3 s_main_call8_v2 s_main_call8_c_0 s_main_call8_v1
    s_main_call8_c s_main_call8_v0 s_main_c_9 s_main_v24 s_main_call7_v12 s_main_call7_v11 s_main_call7_c_0
    s_main_call7_v1 s_main_call7_v0 s_main_call7_v10 s_main_call7_v9 s_main_call7_v8 s_main_call7_c
    s_main_call7_v7 s_main_call7_v6 s_main_call7_v5 s_main_call7_v4 s_main_call7_v3 s_main_c_8
    s_main_call7_v2
  rw [v21_fun]
  decide +kernel

theorem v30_fun : s_main_v30 (F := Ideal) = fun j => BitVec.ofNat 32 (Cert.Spec.first (j 0)).val := by
  funext j
  obtain ⟨p, rfl⟩ : ∃ p, j = ix1 p := ⟨j 0, eq_ix1 j⟩
  exact v30_tab p

theorem v35_fun : s_main_v35 (F := Ideal) = fun j => BitVec.ofNat 32 (Cert.Spec.second (j 0)).val := by
  funext j
  obtain ⟨p, rfl⟩ : ∃ p, j = ix1 p := ⟨j 0, eq_ix1 j⟩
  exact v35_tab p

/-! ## The two columns side by side -/

/-- Row `p` of the table: the rows' column first, the columns' column second. -/
theorem v38_tab : ∀ p : Fin 120,
    s_main_v38 (F := Ideal) (ix2 p (0 : Fin 2)) = BitVec.ofNat 32 (Cert.Spec.first p).val ∧
    s_main_v38 (F := Ideal) (ix2 p (1 : Fin 2)) = BitVec.ofNat 32 (Cert.Spec.second p).val := by
  unfold s_main_v38 s_main_v36 s_main_v37
  rw [v30_fun, v35_fun]
  decide +kernel

theorem pairTable_first (p : Fin 120) :
    pairTable (F := Ideal) (ix2 p (0 : Fin 2)) = BitVec.ofNat 32 (Cert.Spec.first p).val :=
  (v38_tab p).1

theorem pairTable_second (p : Fin 120) :
    pairTable (F := Ideal) (ix2 p (1 : Fin 2)) = BitVec.ofNat 32 (Cert.Spec.second p).val :=
  (v38_tab p).2

end Cert.ReferenceIdeal.RefTable

end
-- ==== Proof.RefValue.lean ====
/-
  The reference's result read at an index. Its float chain is, per batch row `b`: the squares of the row's entries
  summed over the last axis, the square root, the larger of that and the floor, each entry divided by it (the sixteen
  unit vectors); the batched product of the unit vectors with themselves over the last axis (the row's 16 × 16 Gram
  block); the gather of the 120 Gram entries at the index pairs of a constant table, which are the pairs
  `(first p, second p)` of the strict upper triangle; and two affine layers with the positive part between them.
  Each stage is read at `(b, ·)` by one small lemma, outermost last, and the stages compose to the specification's
  `rowOut` of row `b`: the sums on the two sides have the same terms in the same order, so nothing beyond dropping
  the zero a sum starts from is used of the arithmetic.
-/
import proofs.«172230_j20555713478745_1_alg».proof.Proof.RefTable
import Idealize.ShloMosaic.PureOps.Ideal.Laws
import Idealize.ShloMosaic.Lib.Pipeline.Value
import Idealize.ShloMosaic.Lib.IdealHost
import Idealize.ShloMosaic.Lib.StackMember

noncomputable section

namespace Cert.ReferenceIdeal.RefValue

open Cert.ReferenceIdeal Cert.ReferenceIdeal.Gen Cert.ReferenceIdeal.RefOps Idealize.ShloMosaic Idealize.ShloMosaic.ValueIdx
open scoped BigOperators

/-! ### The unit vectors -/

/-- The reference's square root at an index is the extended reals' square root of the element. -/
theorem hostSqrt_apply {s : Shape} {φ : FTy} (x : FVec Ideal s φ) (i : s.Idx) : Host.sqrt x i = Ideal.sqrt (x i) := rfl

/-- The squared norm of vector `k` of row `b`: the reference's add-reduction over the last axis from a zero
    initial value is the sum over that axis's 128 coordinates of the squares. -/
theorem sumsq_apply (a0 : (⟨S65536x16x128, .f32⟩ : BufTy).Contents (Elt Ideal)) (b : Fin 65536) (k : Fin 16) :
    s_main_call0_v1 (F := Ideal) a0 (ix2 b k) = ∑ e : Fin 128, a0 (ix3 b k e) * a0 (ix3 b k e) := by
  unfold s_main_call0_v1
  have hR : S65536x16x128.Reduces [2] S65536x16 := by decide
  show Host.reduceAdd (F := Ideal) (s_main_call0_v0 a0) (s_main_call0_cst (F := Ideal))
    reducesTo_S65536x16x128_S65536x16_d2 h_S_ (ix2 b k) = _
  rw [hostReduceAdd_apply, Ideal.hostReduceAdd_single _ hR]
  have h0 : s_main_call0_cst (F := Ideal) (Shape.Idx.first h_S_) = 0 := Ideal.ofBits_zero_f32
  rw [h0, zero_add]
  refine Finset.sum_congr rfl fun e _ => ?_
  have hl : hR.lift (ix2 b k) e = ix3 b k e := by
    funext a; apply Fin.ext
    match a with
    | ⟨0, _⟩ => rfl
    | ⟨1, _⟩ => rfl
    | ⟨2, _⟩ => rfl
  rw [hl]
  rfl

/-- The clamped norm of vector `k` of row `b` (kept as a column of width one): the square root of the squared norm,
    or the floor where that is larger. -/
theorem norm_apply (a0 : (⟨S65536x16x128, .f32⟩ : BufTy).Contents (Elt Ideal)) (b : Fin 65536) (k : Fin 16) :
    s_main_v2 (F := Ideal) a0 (ix3 b k (0 : Fin 1))
      = max (Ideal.sqrt (∑ e : Fin 128, a0 (ix3 b k e) * a0 (ix3 b k e))) Cert.Spec.floorNorm := by
  unfold s_main_v2
  rw [maximumf_apply]
  have hs : s_main_v0 (F := Ideal) a0 (ix3 b k (0 : Fin 1)) = Ideal.sqrt (s_main_call0_v1 (F := Ideal) a0 (ix2 b k)) := by
    unfold s_main_v0
    rw [hostSqrt_apply]
    unfold s_main_call0_v2
    rw [broadcastInDim_apply _ _ _ _ (ix2 b k) (fun a => by
      match a with
      | ⟨0, _⟩ => rfl
      | ⟨1, _⟩ => rfl)]
  have hf : s_main_v1 (F := Ideal) (ix3 b k (0 : Fin 1)) = Cert.Spec.floorNorm := by
    unfold s_main_v1
    rw [broadcastInDim_scalar_apply]
    rfl
  rw [hs, hf, sumsq_apply]

/-- Entry `d` of vector `k` of row `b` scaled to unit length. -/
theorem unit_apply (a0 : (⟨S65536x16x128, .f32⟩ : BufTy).Contents (Elt Ideal)) (b : Fin 65536) (k : Fin 16) (d : Fin 128) :
    s_main_v4 (F := Ideal) a0 (ix3 b k d) = Cert.Spec.unit (fun k d => a0 (ix3 b k d)) k d := by
  unfold s_main_v4
  rw [hostDivf_apply]
  unfold s_main_v3
  rw [broadcastInDim_apply _ _ _ _ (ix3 b k (0 : Fin 1)) (fun a => by
    match a with
    | ⟨0, _⟩ => rfl
    | ⟨1, _⟩ => rfl
    | ⟨2, _⟩ => rfl), norm_apply]
  rfl

/-! ### The Gram block: a batched product, rows are batches, the last axis of both operands is contracted -/

/-- The record of the batched product, under a short name. -/
abbrev gramDims : DotDims S65536x16x128 S65536x16x128 S65536x16x16 :=
  dot_S65536x16x128_S65536x16x128_S65536x16x16_2_2_1_1_0_0

/-- The left operand's index at result index `j` and contraction index `q`: the batch axis reads `j`'s row … -/
theorem gram_lhs_0 (j : S65536x16x16.Idx) (q : gramDims.contr.Idx) : (gramDims.lhsIdx j q 0).val = (j 0).val := by
  unfold DotDims.lhsIdx
  rw [dif_pos (show (0 : Fin S65536x16x128.rank) ∈ gramDims.lhsBatch by decide)]
  rfl

/-- … its second axis reads `j`'s second coordinate (the third axis reads `q`). -/
theorem gram_lhs_1 (j : S65536x16x16.Idx) (q : gramDims.contr.Idx) : (gramDims.lhsIdx j q 1).val = (j 1).val := by
  unfold DotDims.lhsIdx
  rw [dif_neg (show ¬(1 : Fin S65536x16x128.rank) ∈ gramDims.lhsBatch by decide),
    dif_pos (show (1 : Fin S65536x16x128.rank) ∈ gramDims.lhsNonContracting by decide)]
  rfl

/-- The right operand's index: the batch axis reads `j`'s row … -/
theorem gram_rhs_0 (j : S65536x16x16.Idx) (q : gramDims.contr.Idx) : (gramDims.rhsIdx j q 0).val = (j 0).val := by
  unfold DotDims.rhsIdx
  rw [dif_pos (show (0 : Fin S65536x16x128.rank) ∈ gramDims.rhsBatch by decide)]
  rfl

/-- … its second axis reads `j`'s THIRD coordinate (the third axis reads `q`). -/
theorem gram_rhs_1 (j : S65536x16x16.Idx) (q : gramDims.contr.Idx) : (gramDims.rhsIdx j q 1).val = (j 2).val := by
  unfold DotDims.rhsIdx
  rw [dif_neg (show ¬(1 : Fin S65536x16x128.rank) ∈ gramDims.rhsBatch by decide),
    dif_pos (show (1 : Fin S65536x16x128.rank) ∈ gramDims.rhsNonContracting by decide)]
  rfl

/-- The batched product at `(b, k, l)`: the inner product over the last axis of rows `(b, k)` and `(b, l)`. -/
theorem gram_dot_apply (A B : FVec Ideal S65536x16x128 .f32) (b : Fin 65536) (k l : Fin 16) :
    Host.dotGeneral gramDims none A B (ix3 b k l) = ∑ d : Fin 128, A (ix3 b k d) * B (ix3 b l d) := by
  show FloatOps.dotGeneral gramDims none _ A B (ix3 b k l) = _
  rw [Ideal.dotGeneral_apply, ← Equiv.sum_comp (contrEquiv1 gramDims 128 rfl rfl).symm]
  refine Finset.sum_congr rfl fun d _ => ?_
  have hq := contrEquiv1_symm_val gramDims 128 rfl rfl d
  have hl : gramDims.lhsIdx (ix3 b k l) ((contrEquiv1 gramDims 128 rfl rfl).symm d) = ix3 b k d := by
    funext a; apply Fin.ext
    match a with
    | ⟨0, _⟩ => exact gram_lhs_0 _ _
    | ⟨1, _⟩ => exact gram_lhs_1 _ _
    | ⟨2, _⟩ => exact (gramDims.lhsIdx_val_of_single rfl _ _).trans hq
  have hr : gramDims.rhsIdx (ix3 b k l) ((contrEquiv1 gramDims 128 rfl rfl).symm d) = ix3 b l d := by
    funext a; apply Fin.ext
    match a with
    | ⟨0, _⟩ => exact gram_rhs_0 _ _
    | ⟨1, _⟩ => exact gram_rhs_1 _ _
    | ⟨2, _⟩ => exact (gramDims.rhsIdx_val_of_single rfl _ _).trans hq
  rw [hl, hr]

/-- Entry `(k, l)` of row `b`'s Gram block: the inner product of its unit vectors `k` and `l`. -/
theorem gram_apply (a0 : (⟨S65536x16x128, .f32⟩ : BufTy).Contents (Elt Ideal)) (b : Fin 65536) (k l : Fin 16) :
    s_main_v5 (F := Ideal) a0 (ix3 b k l)
      = ∑ d : Fin 128, Cert.Spec.unit (fun k d => a0 (ix3 b k d)) k d * Cert.Spec.unit (fun k d => a0 (ix3 b k d)) l d := by
  unfold s_main_v5
  refine (gram_dot_apply _ _ b k l).trans ?_
  refine Finset.sum_congr rfl fun d _ => ?_
  rw [unit_apply, unit_apply]

/-! ### The gather: for each row, the Gram entries at the table's index pairs -/

/-- The record of the gather, under a short name. -/
abbrev pairGather : GatherDims S65536x16x16 S120x2 S65536x120 :=
  gather_S65536x16x16_S120x2_S65536x120_0_12_n_n_12_1_6553611

/-- A word that holds a number below 16, read signed and clamped to `[0, 15]`, is that number. -/
theorem clamp_fin16 (k : Fin 16) : min (BitVec.ofNat 32 k.val).toInt.toNat (16 - 1) = k.val := by
  revert k; decide

/-- On the row axis the gather reads the result's own row: no start index, the whole axis is the slice. -/
theorem pair_op_0 (j : S65536x120.Idx) (idx : IVec S120x2 32) : (pairGather.operandIdx j idx 0).val = (j 0).val := by
  show pairGather.start j idx 0 + pairGather.batchCoord j 0 + pairGather.offCoord j 0 = _
  rw [GatherDims.batchCoord_eq_zero _ _ _ List.not_mem_nil]
  unfold GatherDims.start GatherDims.offCoord
  rw [dif_neg (show ¬(0 : Fin S65536x16x16.rank) ∈ pairGather.startIndexMap by decide),
    dif_pos (show (0 : Fin S65536x16x16.rank) ∈ pairGather.sKept by decide)]
  simp only [Nat.zero_add, Nat.add_zero]
  rfl

/-- On the second axis the gather starts at the first member of the result column's index pair, read signed and
    clamped; the slice there has width one. -/
theorem pair_op_1 (b : Fin 65536) (p : Fin 120) (idx : IVec S120x2 32) :
    (pairGather.operandIdx (ix2 b p) idx 1).val = min (idx (ix2 p (0 : Fin 2))).toInt.toNat (16 - 1) := by
  show pairGather.start (ix2 b p) idx 1 + pairGather.batchCoord (ix2 b p) 1 + pairGather.offCoord (ix2 b p) 1 = _
  rw [GatherDims.batchCoord_eq_zero _ _ _ List.not_mem_nil,
    GatherDims.offCoord_eq_zero _ _ _ (show ¬(1 : Fin S65536x16x16.rank) ∈ pairGather.sKept by decide)]
  simp only [Nat.add_zero]
  unfold GatherDims.start
  rw [dif_pos (show (1 : Fin S65536x16x16.rank) ∈ pairGather.startIndexMap by decide)]
  have hsi : pairGather.siIdx (ix2 b p) ⟨List.idxOf (1 : Fin S65536x16x16.rank) pairGather.startIndexMap,
      List.idxOf_lt_length_iff.2 (by decide)⟩ = ix2 p (0 : Fin 2) := by
    funext c; apply Fin.ext
    match c with
    | ⟨0, _⟩ => rfl
    | ⟨1, _⟩ => rfl
  rw [hsi]
  rfl

/-- On the third axis it starts at the pair's second member. -/
theorem pair_op_2 (b : Fin 65536) (p : Fin 120) (idx : IVec S120x2 32) :
    (pairGather.operandIdx (ix2 b p) idx 2).val = min (idx (ix2 p (1 : Fin 2))).toInt.toNat (16 - 1) := by
  show pairGather.start (ix2 b p) idx 2 + pairGather.batchCoord (ix2 b p) 2 + pairGather.offCoord (ix2 b p) 2 = _
  rw [GatherDims.batchCoord_eq_zero _ _ _ List.not_mem_nil,
    GatherDims.offCoord_eq_zero _ _ _ (show ¬(2 : Fin S65536x16x16.rank) ∈ pairGather.sKept by decide)]
  simp only [Nat.add_zero]
  unfold GatherDims.start
  rw [dif_pos (show (2 : Fin S65536x16x16.rank) ∈ pairGather.startIndexMap by decide)]
  have hsi : pairGather.siIdx (ix2 b p) ⟨List.idxOf (2 : Fin S65536x16x16.rank) pairGather.startIndexMap,
      List.idxOf_lt_length_iff.2 (by decide)⟩ = ix2 p (1 : Fin 2) := by
    funext c; apply Fin.ext
    match c with
    | ⟨0, _⟩ => rfl
    | ⟨1, _⟩ => rfl
  rw [hsi]
  rfl

/-- The gather at `(b, p)`, when the table's pair `p` holds the numbers `k` and `l` (both below 16, so that the clamp
    does nothing): the operand at `(b, k, l)`. -/
theorem pair_gather_apply {α : Type} (x : S65536x16x16.Idx → α) (idx : IVec S120x2 32) (b : Fin 65536) (p : Fin 120)
    (k l : Fin 16) (hk : idx (ix2 p (0 : Fin 2)) = BitVec.ofNat 32 k.val) (hl : idx (ix2 p (1 : Fin 2)) = BitVec.ofNat 32 l.val) :
    Host.gather pairGather x idx (ix2 b p) = x (ix3 b k l) := by
  unfold Host.gather
  refine congrArg x (funext fun a => Fin.ext ?_)
  match a with
  | ⟨0, _⟩ => exact pair_op_0 _ _
  | ⟨1, _⟩ => exact (pair_op_1 b p idx).trans (by rw [hk]; exact clamp_fin16 k)
  | ⟨2, _⟩ => exact (pair_op_2 b p idx).trans (by rw [hl]; exact clamp_fin16 l)

/-- Feature `p` of row `b`: the gather reads the Gram entry at the table's pair `p`, which is `(first p, second p)`. -/
theorem feature_apply (a0 : (⟨S65536x16x128, .f32⟩ : BufTy).Contents (Elt Ideal)) (b : Fin 65536) (p : Fin 120) :
    s_main_v39 (F := Ideal) a0 (ix2 b p) = Cert.Spec.feature (fun k d => a0 (ix3 b k d)) p := by
  unfold s_main_v39
  refine (pair_gather_apply _ _ b p (Cert.Spec.first p) (Cert.Spec.second p)
    (Cert.ReferenceIdeal.RefTable.pairTable_first p) (Cert.ReferenceIdeal.RefTable.pairTable_second p)).trans ?_
  rw [gram_apply]
  rfl

/-! ### The two layers -/

/-- The first layer's product at `(b, c)`: a plain rows-by-columns product over the 120 features. -/
theorem dense1_dot_apply (A : FVec Ideal S65536x120 .f32) (B : FVec Ideal S120x128 .f32) (b : Fin 65536) (c : Fin 128) :
    Host.dotGeneral dot_S65536x120_S120x128_S65536x128_1_0_0_1_n_n none A B (ix2 b c)
      = ∑ p : Fin 120, A (ix2 b p) * B (ix2 p c) :=
  StackMember.dotGeneral_plain_apply none A B b c

/-- The second layer's product at `(b, o)`: a plain product over the 128 hidden units. -/
theorem dense2_dot_apply (A : FVec Ideal S65536x128 .f32) (B : FVec Ideal S128x128 .f32) (b : Fin 65536) (o : Fin 128) :
    Host.dotGeneral dot_S65536x128_S128x128_S65536x128_1_0_0_1_n_n none A B (ix2 b o)
      = ∑ c : Fin 128, A (ix2 b c) * B (ix2 c o) :=
  StackMember.dotGeneral_plain_apply none A B b o

/-- A bias vector copied into every row, read at `(b, c)`: its entry `c`. -/
theorem bias_rows_apply (v : FVec Ideal S128 .f32) (b : Fin 65536) (c : Fin 128) :
    broadcastInDim S65536x128 ![0, 1] bcast_S1x128_S65536x128_0_1
      (broadcastInDim S1x128 ![1] bcast_S128_S1x128_1 v) (ix2 b c) = v (ix1 c) := by
  rw [broadcastInDim_apply _ _ _ _ (ix2 (0 : Fin 1) c) (fun a => by
    match a with
    | ⟨0, _⟩ => rfl
    | ⟨1, _⟩ => rfl),
    broadcastInDim_apply _ _ _ _ (ix1 c) (fun a => by
    match a with
    | ⟨0, _⟩ => rfl)]

/-- Hidden unit `c` of row `b`: the positive part of the first affine map of the row's features. -/
theorem hidden_apply (a0 : (⟨S65536x16x128, .f32⟩ : BufTy).Contents (Elt Ideal)) (a1 : (⟨S120x128, .f32⟩ : BufTy).Contents (Elt Ideal))
    (a2 : (⟨S128, .f32⟩ : BufTy).Contents (Elt Ideal)) (b : Fin 65536) (c : Fin 128) :
    s_main_v44 (F := Ideal) a0 a1 a2 (ix2 b c)
      = Cert.Spec.hidden (fun k d => a0 (ix3 b k d)) (fun p c => a1 (ix2 p c)) (fun c => a2 (ix1 c)) c := by
  unfold s_main_v44
  rw [maximumf_apply]
  have hz : s_main_call9_v0 (F := Ideal) (ix2 b c) = 0 := by
    unfold s_main_call9_v0
    rw [broadcastInDim_scalar_apply]
    exact Ideal.ofBits_zero_f32
  have hb : s_main_v42 (F := Ideal) a2 (ix2 b c) = a2 (ix1 c) := by
    unfold s_main_v42 s_main_v41
    exact bias_rows_apply a2 b c
  have hd : s_main_v40 (F := Ideal) a0 a1 (ix2 b c)
      = ∑ p : Fin 120, Cert.Spec.feature (fun k d => a0 (ix3 b k d)) p * a1 (ix2 p c) := by
    unfold s_main_v40
    refine (dense1_dot_apply _ _ b c).trans ?_
    refine Finset.sum_congr rfl fun p _ => ?_
    rw [feature_apply]
  unfold s_main_v43
  rw [hz, addf_apply, hb, hd]
  rfl

/-- Output `o` of row `b`: the second affine map of the row's hidden units. -/
theorem out_apply (a0 : (⟨S65536x16x128, .f32⟩ : BufTy).Contents (Elt Ideal)) (a1 : (⟨S120x128, .f32⟩ : BufTy).Contents (Elt Ideal))
    (a2 : (⟨S128, .f32⟩ : BufTy).Contents (Elt Ideal)) (a3 : (⟨S128x128, .f32⟩ : BufTy).Contents (Elt Ideal))
    (a4 : (⟨S128, .f32⟩ : BufTy).Contents (Elt Ideal)) (b : Fin 65536) (o : Fin 128) :
    s_main_v48 (F := Ideal) a0 a1 a2 a3 a4 (ix2 b o)
      = Cert.Spec.rowOut (fun k d => a0 (ix3 b k d)) (fun p c => a1 (ix2 p c)) (fun c => a2 (ix1 c))
          (fun c o => a3 (ix2 c o)) (fun o => a4 (ix1 o)) o := by
  unfold s_main_v48
  rw [addf_apply]
  have hb : s_main_v47 (F := Ideal) a4 (ix2 b o) = a4 (ix1 o) := by
    unfold s_main_v47 s_main_v46
    exact bias_rows_apply a4 b o
  have hd : s_main_v45 (F := Ideal) a0 a1 a2 a3 (ix2 b o)
      = ∑ c : Fin 128, Cert.Spec.hidden (fun k d => a0 (ix3 b k d)) (fun p c => a1 (ix2 p c)) (fun c => a2 (ix1 c)) c
          * a3 (ix2 c o) := by
    unfold s_main_v45
    refine (dense2_dot_apply _ _ b o).trans ?_
    refine Finset.sum_congr rfl fun c _ => ?_
    rw [hidden_apply]
  rw [hb, hd]
  rfl

/-- The reference computes the specification: entry `(b, o)` of its result is output `o` of row `b`. -/
theorem refOut_eq (a0 : (⟨S65536x16x128, .f32⟩ : BufTy).Contents (Elt Ideal)) (a1 : (⟨S120x128, .f32⟩ : BufTy).Contents (Elt Ideal))
    (a2 : (⟨S128, .f32⟩ : BufTy).Contents (Elt Ideal)) (a3 : (⟨S128x128, .f32⟩ : BufTy).Contents (Elt Ideal))
    (a4 : (⟨S128, .f32⟩ : BufTy).Contents (Elt Ideal)) :
    refOut (F := Ideal) a0 a1 a2 a3 a4 = Cert.Spec.result (B := 65536) a0 a1 a2 a3 a4 := by
  funext j
  obtain ⟨b, o, rfl⟩ : ∃ (b : Fin 65536) (o : Fin 128), j = ix2 b o := ⟨j 0, j 1, eq_ix2 j⟩
  exact out_apply a0 a1 a2 a3 a4 b o

end Cert.ReferenceIdeal.RefValue

end
-- ==== Proof.lean ====
/-
  The kernel and its reference compute one function of their five arguments, on the extended reals.

  A batch row is sixteen vectors of 128 numbers; each is scaled to unit length, the 120 inner products of the pairs of
  scaled vectors (the strict upper triangle, rows first) feed a two-layer perceptron (`Cert.Spec.result`, Proof/Spec.lean).
  The kernel walks the batch in 64 blocks of 1024 rows and takes each inner product as a lane sum, laying the 120 of them
  side by side before the two matrix products; its result array after the run is the specification's result
  (Proof/KernelValue.lean over Proof/KernelPay.lean, KernelInner.lean and KernelConcat.lean). The reference forms the whole
  16 × 16 Gram block of each row by one batched product and picks the 120 entries by a gather whose index pairs it computes
  itself, from a mask of the strict upper triangle, by two running counts and a histogram; that table is exactly the list of
  pairs (Proof/RefTable.lean), so its result is the same specification's (Proof/RefValue.lean over its run, Proof/RefRun.lean).
  No sum is re-associated across an infinity and no factor is moved across a sum: the precondition is never opened.
-/
import proofs.«172230_j20555713478745_1_alg».proof.Defs
import proofs.«172230_j20555713478745_1_alg».proof.Proof.Gen.Kernel
import proofs.«172230_j20555713478745_1_alg».proof.Proof.Gen.Kernel.Skeleton
import proofs.«172230_j20555713478745_1_alg».proof.Proof.Gen.Kernel.Launch
import proofs.«172230_j20555713478745_1_alg».proof.Proof.Gen.Kernel.Points
import proofs.«172230_j20555713478745_1_alg».proof.Proof.Gen.Kernel.Frame
import proofs.«172230_j20555713478745_1_alg».proof.Proof.Gen.KernelIdeal
import proofs.«172230_j20555713478745_1_alg».proof.Proof.Gen.KernelIdeal.Skeleton
import proofs.«172230_j20555713478745_1_alg».proof.Proof.Gen.KernelIdeal.Launch
import proofs.«172230_j20555713478745_1_alg».proof.Proof.Gen.KernelIdeal.Points
import proofs.«172230_j20555713478745_1_alg».proof.Proof.Gen.KernelIdeal.Frame
import proofs.«172230_j20555713478745_1_alg».proof.Proof.Gen.KernelIdeal.Value
import proofs.«172230_j20555713478745_1_alg».proof.Proof.Gen.ReferenceIdeal
import proofs.«172230_j20555713478745_1_alg».proof.Proof.Gen.Pre_finite_inputs
import proofs.«172230_j20555713478745_1_alg».proof.Proof.KernelValue
import proofs.«172230_j20555713478745_1_alg».proof.Proof.RefRun
import proofs.«172230_j20555713478745_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end at the specification's result of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ReferenceIdeal.RefValue.refOut_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
